-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x146 : Shape := ⟨2, ![128, 146]⟩
abbrev S146 : Shape := ⟨1, ![146]⟩
abbrev S4x146x146 : Shape := ⟨3, ![4, 146, 146]⟩
abbrev S4x146 : Shape := ⟨2, ![4, 146]⟩
abbrev S1x800000 : Shape := ⟨2, ![1, 800000]⟩
abbrev S800000 : Shape := ⟨1, ![800000]⟩
abbrev S_ : Shape := ⟨0, ![]⟩

class Facts : Prop where
  slices_S2x800000_S1x800000_0_0 : S2x800000.Slices ![0, 0] S1x800000
  shapeCasts_S1x800000_S800000 : S1x800000.ShapeCasts S800000
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x146 : S_.BroadcastsInDim S128x146 (![] : Fin 0 → Fin S128x146.rank)
  reducesTo_S128x146_S_d0_1 : S128x146.ReducesTo [0, 1] S_
  bcast_S_S146 : S_.BroadcastsInDim S146 (![] : Fin 0 → Fin S146.rank)
  reducesTo_S146_S_d0 : S146.ReducesTo [0] S_
  bcast_S_S4x146x146 : S_.BroadcastsInDim S4x146x146 (![] : Fin 0 → Fin S4x146x146.rank)
  reducesTo_S4x146x146_S_d0_1_2 : S4x146x146.ReducesTo [0, 1, 2] S_
  bcast_S_S4x146 : S_.BroadcastsInDim S4x146 (![] : Fin 0 → Fin S4x146.rank)
  reducesTo_S4x146_S_d0_1 : S4x146.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg6 : FVec F S4x146 .f32) (main_v1 : IVec S800000 32) (main_v15 : IVec S_ 1) (main_v16 : FVec F S4x146x146 .f32) (main_cst_4 : FVec F S_ .f32) : IVec S_ 1 :=
  let main_v17 : FVec F S4x146x146 .f32 := broadcastInDim S4x146x146 ![] bcast_S_S4x146x146 main_cst_4
  let main_v18 : IVec S4x146x146 1 := cmpf .olt main_v16 main_v17
  let main_c_5 : IVec S_ 1 := constantI S_ 1 1#1
  let main_v19 : IVec S_ 1 := (fun x v => Host.reduce IntOp.andi x v reducesTo_S4x146x146_S_d0_1_2 h_S_) main_v18 main_c_5
  let main_v20 : IVec S_ 1 := andi main_v15 main_v19
  let main_v21 : FVec F S4x146 .f32 := Host.absf main_arg6
  let main_cst_6 : FVec F S_ .f32 := constant S_ .f32 0x7F800000#32
  let main_v22 : FVec F S4x146 .f32 := broadcastInDim S4x146 ![] bcast_S_S4x146 main_cst_6
  let main_v23 : IVec S4x146 1 := cmpf .olt main_v21 main_v22
  let main_c_7 : IVec S_ 1 := constantI S_ 1 1#1
  let main_v24 : IVec S_ 1 := (fun x v => Host.reduce IntOp.andi x v reducesTo_S4x146_S_d0_1 h_S_) main_v23 main_c_7
  let main_v25 : IVec S_ 1 := andi main_v20 main_v24
  let main_c_8 : IVec S_ 32 := constantI S_ 32 0#32
  let main_v26 : IVec S800000 32 := broadcastInDim S800000 ![] bcast_S_S800000 main_c_8
  let main_v27 : IVec S800000 1 := cmpi .sge main_v1 main_v26
  let main_c_9 : IVec S_ 32 := constantI S_ 32 50000#32
  let main_v28 : IVec S800000 32 := broadcastInDim S800000 ![] bcast_S_S800000 main_c_9
  let main_v29 : IVec S800000 1 := cmpi .slt main_v1 main_v28
  let main_v30 : IVec S800000 1 := andi main_v27 main_v29
  let main_c_10 : IVec S_ 1 := constantI S_ 1 1#1
  let main_v31 : IVec S_ 1 := (fun x v => Host.reduce IntOp.andi x v reducesTo_S800000_S_d0 h_S_) main_v30 main_c_10
  let main_v32 : IVec S_ 1 := andi main_v25 main_v31
  main_v32

def fn {F : FTy → Type} [FloatOps F] (main_arg0 : FVec F S50000x128 .f32) (main_arg1 : IVec S2x800000 32) (main_arg2 : IVec S50000 32) (main_arg3 : FVec F S128x146 .f32) (main_arg4 : FVec F S146 .f32) (main_arg5 : FVec F S4x146x146 .f32) (main_arg6 : FVec F S4x146 .f32) : IVec S_ 1 :=
  let main_v0 : IVec S1x800000 32 := (extractStridedSlice S1x800000 ![0, 0] · slices_S2x800000_S1x800000_0_0) main_arg1
  let main_v1 : IVec S800000 32 := shapeCast S800000 main_v0 shapeCasts_S1x800000_S800000
  let main_v2 : FVec F S50000x128 .f32 := Host.absf main_arg0
  let main_cst : FVec F S_ .f32 := constant S_ .f32 0x7F800000#32
  let main_v3 : FVec F S50000x128 .f32 := broadcastInDim S50000x128 ![] bcast_S_S50000x128 main_cst
  let main_v4 : IVec S50000x128 1 := cmpf .olt main_v2 main_v3
  let main_c : IVec S_ 1 := constantI S_ 1 1#1
  let main_v5 : IVec S_ 1 := (fun x v => Host.reduce IntOp.andi x v reducesTo_S50000x128_S_d0_1 h_S_) main_v4 main_c
  let main_v6 : FVec F S128x146 .f32 := Host.absf main_arg3
  let main_cst_0 : FVec F S_ .f32 := constant S_ .f32 0x7F800000#32
  let main_v7 : FVec F S128x146 .f32 := broadcastInDim S128x146 ![] bcast_S_S128x146 main_cst_0
  let main_v8 : IVec S128x146 1 := cmpf .olt main_v6 main_v7
  let main_c_1 : IVec S_ 1 := constantI S_ 1 1#1
  let main_v9 : IVec S_ 1 := (fun x v => Host.reduce IntOp.andi x v reducesTo_S128x146_S_d0_1 h_S_) main_v8 main_c_1
  let main_v10 : IVec S_ 1 := andi main_v5 main_v9
  let main_v11 : FVec F S146 .f32 := Host.absf main_arg4
  let main_cst_2 : FVec F S_ .f32 := constant S_ .f32 0x7F800000#32
  let main_v12 : FVec F S146 .f32 := broadcastInDim S146 ![] bcast_S_S146 main_cst_2
  let main_v13 : IVec S146 1 := cmpf .olt main_v11 main_v12
  let main_c_3 : IVec S_ 1 := constantI S_ 1 1#1
  let main_v14 : IVec S_ 1 := (fun x v => Host.reduce IntOp.andi x v reducesTo_S146_S_d0 h_S_) main_v13 main_c_3
  let main_v15 : IVec S_ 1 := andi main_v10 main_v14
  let main_v16 : FVec F S4x146x146 .f32 := Host.absf main_arg5
  let main_cst_4 : FVec F S_ .f32 := constant S_ .f32 0x7F800000#32
  fn_part1 (F := F) main_arg6 main_v1 main_v15 main_v16 main_cst_4
-- ==== Kernel.lean ====
abbrev S50000x128 : Shape := ⟨2, ![50000, 128]⟩
abbrev S2x800000 : Shape := ⟨2, ![2, 800000]⟩
abbrev S50000 : Shape := ⟨1, ![50000]⟩
abbrev S128x146 : Shape := ⟨2, ![128, 146]⟩
abbrev S146 : Shape := ⟨1, ![146]⟩
abbrev S4x146x146 : Shape := ⟨3, ![4, 146, 146]⟩
abbrev S4x146 : Shape := ⟨2, ![4, 146]⟩
abbrev S1x800000 : Shape := ⟨2, ![1, 800000]⟩
abbrev S800000 : Shape := ⟨1, ![800000]⟩
abbrev S1x146 : Shape := ⟨2, ![1, 146]⟩
abbrev S50000x146 : Shape := ⟨2, ![50000, 146]⟩
abbrev S5000x128 : Shape := ⟨2, ![5000, 128]⟩
abbrev S5000x146 : Shape := ⟨2, ![5000, 146]⟩
abbrev S1x146x146 : Shape := ⟨3, ![1, 146, 146]⟩
abbrev S146x146 : Shape := ⟨2, ![146, 146]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x146 : Shape := ⟨2, ![800000, 146]⟩
abbrev S64x146 : Shape := ⟨2, ![64, 146]⟩
abbrev S50000x1 : Shape := ⟨2, ![50000, 1]⟩
abbrev S64 : Shape := ⟨1, ![64]⟩
abbrev S64x1 : Shape := ⟨2, ![64, 1]⟩

abbrev nBuf : Space → Nat
  | .hbm => 165
  | .vmem => 46
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x146, .f32⟩
  | 4 => ⟨S146, .f32⟩
  | 5 => ⟨S4x146x146, .f32⟩
  | 6 => ⟨S4x146, .f32⟩
  | 7 => ⟨S1x800000, .i32⟩
  | 8 => ⟨S800000, .i32⟩
  | 9 => ⟨S1x800000, .i32⟩
  | 10 => ⟨S800000, .i32⟩
  | 11 => ⟨S1x146, .f32⟩
  | 12 => ⟨S50000x146, .f32⟩
  | 13 => ⟨S1x146x146, .f32⟩
  | 14 => ⟨S146x146, .f32⟩
  | 15 => ⟨S50000x146, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S1, .i32⟩
  | 25 => ⟨S_, .i32⟩
  | 26 => ⟨S800000x1, .i32⟩
  | 27 => ⟨S800000x1, .i1⟩
  | 28 => ⟨S1x1, .i32⟩
  | 29 => ⟨S800000x1, .i32⟩
  | 30 => ⟨S800000x1, .i1⟩
  | 31 => ⟨S800000x1, .i1⟩
  | 32 => ⟨S_, .i1⟩
  | 33 => ⟨S800000, .i1⟩
  | 34 => ⟨S800000x146, .f32⟩
  | 35 => ⟨S800000x146, .i1⟩
  | 36 => ⟨S_, .f32⟩
  | 37 => ⟨S800000x146, .f32⟩
  | 38 => ⟨S800000x146, .f32⟩
  | 39 => ⟨S_, .f32⟩
  | 40 => ⟨S50000x146, .f32⟩
  | 41 => ⟨S800000x1, .i32⟩
  | 42 => ⟨S50000x146, .f32⟩
  | 43 => ⟨S1x146, .f32⟩
  | 44 => ⟨S146, .f32⟩
  | 45 => ⟨S1x146, .f32⟩
  | 46 => ⟨S50000x146, .f32⟩
  | 47 => ⟨S1x146x146, .f32⟩
  | 48 => ⟨S146x146, .f32⟩
  | 49 => ⟨S50000x146, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S1, .i32⟩
  | 59 => ⟨S_, .i32⟩
  | 60 => ⟨S800000x1, .i32⟩
  | 61 => ⟨S800000x1, .i1⟩
  | 62 => ⟨S1x1, .i32⟩
  | 63 => ⟨S800000x1, .i32⟩
  | 64 => ⟨S800000x1, .i1⟩
  | 65 => ⟨S800000x1, .i1⟩
  | 66 => ⟨S_, .i1⟩
  | 67 => ⟨S800000, .i1⟩
  | 68 => ⟨S800000x146, .f32⟩
  | 69 => ⟨S800000x146, .i1⟩
  | 70 => ⟨S_, .f32⟩
  | 71 => ⟨S800000x146, .f32⟩
  | 72 => ⟨S800000x146, .f32⟩
  | 73 => ⟨S_, .f32⟩
  | 74 => ⟨S50000x146, .f32⟩
  | 75 => ⟨S800000x1, .i32⟩
  | 76 => ⟨S50000x146, .f32⟩
  | 77 => ⟨S1x146, .f32⟩
  | 78 => ⟨S146, .f32⟩
  | 79 => ⟨S1x146, .f32⟩
  | 80 => ⟨S50000x146, .f32⟩
  | 81 => ⟨S1x146x146, .f32⟩
  | 82 => ⟨S146x146, .f32⟩
  | 83 => ⟨S50000x146, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S1, .i32⟩
  | 93 => ⟨S_, .i32⟩
  | 94 => ⟨S800000x1, .i32⟩
  | 95 => ⟨S800000x1, .i1⟩
  | 96 => ⟨S1x1, .i32⟩
  | 97 => ⟨S800000x1, .i32⟩
  | 98 => ⟨S800000x1, .i1⟩
  | 99 => ⟨S800000x1, .i1⟩
  | 100 => ⟨S_, .i1⟩
  | 101 => ⟨S800000, .i1⟩
  | 102 => ⟨S800000x146, .f32⟩
  | 103 => ⟨S800000x146, .i1⟩
  | 104 => ⟨S_, .f32⟩
  | 105 => ⟨S800000x146, .f32⟩
  | 106 => ⟨S800000x146, .f32⟩
  | 107 => ⟨S_, .f32⟩
  | 108 => ⟨S50000x146, .f32⟩
  | 109 => ⟨S800000x1, .i32⟩
  | 110 => ⟨S50000x146, .f32⟩
  | 111 => ⟨S1x146, .f32⟩
  | 112 => ⟨S146, .f32⟩
  | 113 => ⟨S1x146, .f32⟩
  | 114 => ⟨S50000x146, .f32⟩
  | 115 => ⟨S1x146x146, .f32⟩
  | 116 => ⟨S146x146, .f32⟩
  | 117 => ⟨S50000x146, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S1, .i32⟩
  | 127 => ⟨S_, .i32⟩
  | _ => ⟨S50000x128, .f32⟩

abbrev hbmTy0_1 (i : Nat) : BufTy := match i % 128 with
  | 0 => ⟨S800000x1, .i32⟩
  | 1 => ⟨S800000x1, .i1⟩
  | 2 => ⟨S1x1, .i32⟩
  | 3 => ⟨S800000x1, .i32⟩
  | 4 => ⟨S800000x1, .i1⟩
  | 5 => ⟨S800000x1, .i1⟩
  | 6 => ⟨S_, .i1⟩
  | 7 => ⟨S800000, .i1⟩
  | 8 => ⟨S800000x146, .f32⟩
  | 9 => ⟨S800000x146, .i1⟩
  | 10 => ⟨S_, .f32⟩
  | 11 => ⟨S800000x146, .f32⟩
  | 12 => ⟨S800000x146, .f32⟩
  | 13 => ⟨S_, .f32⟩
  | 14 => ⟨S50000x146, .f32⟩
  | 15 => ⟨S800000x1, .i32⟩
  | 16 => ⟨S50000x146, .f32⟩
  | 17 => ⟨S1x146, .f32⟩
  | 18 => ⟨S146, .f32⟩
  | 19 => ⟨S1x146, .f32⟩
  | 20 => ⟨S50000x146, .f32⟩
  | 21 => ⟨S_, .f32⟩
  | 22 => ⟨S64x146, .f32⟩
  | 23 => ⟨S50000x1, .i32⟩
  | 24 => ⟨S64x146, .f32⟩
  | 25 => ⟨S_, .f32⟩
  | 26 => ⟨S50000, .f32⟩
  | 27 => ⟨S_, .f32⟩
  | 28 => ⟨S64, .f32⟩
  | 29 => ⟨S50000x1, .i32⟩
  | 30 => ⟨S64, .f32⟩
  | 31 => ⟨S_, .f32⟩
  | 32 => ⟨S64, .f32⟩
  | 33 => ⟨S64, .f32⟩
  | 34 => ⟨S64x1, .f32⟩
  | 35 => ⟨S64x146, .f32⟩
  | 36 => ⟨S64x146, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x146, .f32⟩
  | .local _ .vmem, ⟨3, _⟩ => ⟨S1x146, .f32⟩
  | .local _ .vmem, ⟨4, _⟩ => ⟨S5000x146, .f32⟩
  | .local _ .vmem, ⟨5, _⟩ => ⟨S5000x146, .f32⟩
  | .local _ .vmem, ⟨6, _⟩ => ⟨S5000x146, .f32⟩
  | .local _ .vmem, ⟨7, _⟩ => ⟨S5000x146, .f32⟩
  | .local _ .vmem, ⟨8, _⟩ => ⟨S146x146, .f32⟩
  | .local _ .vmem, ⟨9, _⟩ => ⟨S5000x146, .f32⟩
  | .local _ .vmem, ⟨10, _⟩ => ⟨S5000x146, .f32⟩
  | .local _ .vmem, ⟨11, _⟩ => ⟨S5000x146, .f32⟩
  | .local _ .vmem, ⟨12, _⟩ => ⟨S5000x146, .f32⟩
  | .local _ .vmem, ⟨13, _⟩ => ⟨S1x146, .f32⟩
  | .local _ .vmem, ⟨14, _⟩ => ⟨S5000x146, .f32⟩
  | .local _ .vmem, ⟨15, _⟩ => ⟨S5000x146, .f32⟩
  | .local _ .vmem, ⟨16, _⟩ => ⟨S5000x146, .f32⟩
  | .local _ .vmem, ⟨17, _⟩ => ⟨S5000x146, .f32⟩
  | .local _ .vmem, ⟨18, _⟩ => ⟨S146x146, .f32⟩
  | .local _ .vmem, ⟨19, _⟩ => ⟨S5000x146, .f32⟩
  | .local _ .vmem, ⟨20, _⟩ => ⟨S5000x146, .f32⟩
  | .local _ .vmem, ⟨21, _⟩ => ⟨S5000x146, .f32⟩
  | .local _ .vmem, ⟨22, _⟩ => ⟨S5000x146, .f32⟩
  | .local _ .vmem, ⟨23, _⟩ => ⟨S1x146, .f32⟩
  | .local _ .vmem, ⟨24, _⟩ => ⟨S5000x146, .f32⟩
  | .local _ .vmem, ⟨25, _⟩ => ⟨S5000x146, .f32⟩
  | .local _ .vmem, ⟨26, _⟩ => ⟨S5000x146, .f32⟩
  | .local _ .vmem, ⟨27, _⟩ => ⟨S5000x146, .f32⟩
  | .local _ .vmem, ⟨28, _⟩ => ⟨S146x146, .f32⟩
  | .local _ .vmem, ⟨29, _⟩ => ⟨S5000x146, .f32⟩
  | .local _ .vmem, ⟨30, _⟩ => ⟨S5000x146, .f32⟩
  | .local _ .vmem, ⟨31, _⟩ => ⟨S5000x146, .f32⟩
  | .local _ .vmem, ⟨32, _⟩ => ⟨S5000x146, .f32⟩
  | .local _ .vmem, ⟨33, _⟩ => ⟨S1x146, .f32⟩
  | .local _ .vmem, ⟨34, _⟩ => ⟨S5000x146, .f32⟩
  | .local _ .vmem, ⟨35, _⟩ => ⟨S5000x146, .f32⟩
  | .local _ .vmem, ⟨36, _⟩ => ⟨S5000x146, .f32⟩
  | .local _ .vmem, ⟨37, _⟩ => ⟨S5000x146, .f32⟩
  | .local _ .vmem, ⟨38, _⟩ => ⟨S146x146, .f32⟩
  | .local _ .vmem, ⟨39, _⟩ => ⟨S5000x146, .f32⟩
  | .local _ .vmem, ⟨40, _⟩ => ⟨S5000x146, .f32⟩
  | .local _ .vmem, ⟨41, _⟩ => ⟨S5000x146, .f32⟩
  | .local _ .vmem, ⟨42, _⟩ => ⟨S5000x146, .f32⟩
  | .local _ .vmem, ⟨43, _⟩ => ⟨S1x146, .f32⟩
  | .local _ .vmem, ⟨44, _⟩ => ⟨S5000x146, .f32⟩
  | .local _ .vmem, ⟨45, _⟩ => ⟨S5000x146, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v9 : Ref sig .tc := ⟨.hbm, 38, rfl⟩
abbrev main_cst : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v20 : Ref sig .tc := ⟨.hbm, 72, rfl⟩
abbrev main_cst_0 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v31 : Ref sig .tc := ⟨.hbm, 106, rfl⟩
abbrev main_cst_1 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_call3_c : Ref sig .tc := ⟨.hbm, 118, rfl⟩
abbrev main_call3_v0 : Ref sig .tc := ⟨.hbm, 119, rfl⟩
abbrev main_call3_v1 : Ref sig .tc := ⟨.hbm, 120, rfl⟩
abbrev main_call3_c_0 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_c_1 : Ref sig .tc := ⟨.hbm, 126, rfl⟩
abbrev main_call3_c_2 : Ref sig .tc := ⟨.hbm, 127, rfl⟩
abbrev main_call3_v6 : Ref sig .tc := ⟨.hbm, 128, rfl⟩
abbrev main_call3_v7 : Ref sig .tc := ⟨.hbm, 129, rfl⟩
abbrev main_call3_v8 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_c_3 : Ref sig .tc := ⟨.hbm, 134, rfl⟩
abbrev main_call3_v12 : Ref sig .tc := ⟨.hbm, 135, rfl⟩
abbrev main_call3_v13 : Ref sig .tc := ⟨.hbm, 136, rfl⟩
abbrev main_call3_v14 : Ref sig .tc := ⟨.hbm, 137, rfl⟩
abbrev main_call3_cst : Ref sig .tc := ⟨.hbm, 138, rfl⟩
abbrev main_call3_v15 : Ref sig .tc := ⟨.hbm, 139, rfl⟩
abbrev main_v42 : Ref sig .tc := ⟨.hbm, 140, rfl⟩
abbrev main_cst_2 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_v49 : Ref sig .tc := ⟨.hbm, 148, rfl⟩
abbrev main_cst_3 : Ref sig .tc := ⟨.hbm, 149, rfl⟩
abbrev main_v50 : Ref sig .tc := ⟨.hbm, 150, rfl⟩
abbrev main_v51 : Ref sig .tc := ⟨.hbm, 151, rfl⟩
abbrev main_v52 : Ref sig .tc := ⟨.hbm, 152, rfl⟩
abbrev main_cst_4 : Ref sig .tc := ⟨.hbm, 153, rfl⟩
abbrev main_v53 : Ref sig .tc := ⟨.hbm, 154, rfl⟩
abbrev main_cst_5 : Ref sig .tc := ⟨.hbm, 155, rfl⟩
abbrev main_v54 : Ref sig .tc := ⟨.hbm, 156, rfl⟩
abbrev main_v55 : Ref sig .tc := ⟨.hbm, 157, rfl⟩
abbrev main_v56 : Ref sig .tc := ⟨.hbm, 158, rfl⟩
abbrev main_cst_6 : Ref sig .tc := ⟨.hbm, 159, rfl⟩
abbrev main_v57 : Ref sig .tc := ⟨.hbm, 160, rfl⟩
abbrev main_v58 : Ref sig .tc := ⟨.hbm, 161, rfl⟩
abbrev main_v59 : Ref sig .tc := ⟨.hbm, 162, rfl⟩
abbrev main_v60 : Ref sig .tc := ⟨.hbm, 163, rfl⟩
abbrev main_v61 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg2_1 : Ref sig .tc := ⟨.vmem, 40, rfl⟩
abbrev cc8_stg0_0 : Ref sig .tc := ⟨.vmem, 41, rfl⟩
abbrev cc8_stg0_1 : Ref sig .tc := ⟨.vmem, 42, rfl⟩
abbrev cc8_stg1_0 : Ref sig .tc := ⟨.vmem, 43, rfl⟩
abbrev cc8_stg2_0 : Ref sig .tc := ⟨.vmem, 44, rfl⟩
abbrev cc8_stg2_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem2_1 : DmaSem sig := 40
abbrev cc8_sem0_0 : DmaSem sig := 41
abbrev cc8_sem0_1 : DmaSem sig := 42
abbrev cc8_sem1_0 : DmaSem sig := 43
abbrev cc8_sem2_0 : DmaSem sig := 44
abbrev cc8_sem2_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x146 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x146 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x146 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x146 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S146x146 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x146 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x146 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x146 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x146 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x146 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S146x146 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x146 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x146 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x146 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x146 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x146 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S146x146 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x146 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x146 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x146 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x146 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x146 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S146x146 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x146 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x146 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x146 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x146 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S146_S1x146 : S146.ShapeCasts S1x146
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x146_S128x146_0_0 : ∀ a, (![0, 0] : Fin 2 → Nat) a + S128x146.size a ≤ S128x146.size a
  h_S128x146 : 0 < S128x146.numel
  inb_S1x146_S1x146_0_0 : ∀ a, (![0, 0] : Fin 2 → Nat) a + S1x146.size a ≤ S1x146.size a
  h_S1x146 : 0 < S1x146.numel
  shapeCasts_S1x146_S1x146 : S1x146.ShapeCasts S1x146
  broadcasts_S1x146_S5000x146 : S1x146.Broadcasts S5000x146
  inb_S5000x146_S5000x146_0_0 : ∀ a, (![0, 0] : Fin 2 → Nat) a + S5000x146.size a ≤ S5000x146.size a
  h_S5000x146 : 0 < S5000x146.numel
  slices_S4x146x146_S1x146x146_0_0_0 : S4x146x146.Slices ![0, 0, 0] S1x146x146
  shapeCasts_S1x146x146_S146x146 : S1x146x146.ShapeCasts S146x146
  shapeCasts_S5000x146_S5000x146 : S5000x146.ShapeCasts S5000x146
  inb_S146x146_S146x146_0_0 : ∀ a, (![0, 0] : Fin 2 → Nat) a + S146x146.size a ≤ S146x146.size a
  h_S146x146 : 0 < S146x146.numel
  shapeCasts_S146x146_S146x146 : S146x146.ShapeCasts S146x146
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x146_0 : S800000.BroadcastsInDim S800000x146 (![0] : Fin 1 → Fin S800000x146.rank)
  bcast_S_S800000x146 : S_.BroadcastsInDim S800000x146 (![] : Fin 0 → Fin S800000x146.rank)
  bcast_S_S50000x146 : S_.BroadcastsInDim S50000x146 (![] : Fin 0 → Fin S50000x146.rank)
  slices_S4x146_S1x146_0_0 : S4x146.Slices ![0, 0] S1x146
  shapeCasts_S1x146_S146 : S1x146.ShapeCasts S146
  slices_S4x146x146_S1x146x146_1_0_0 : S4x146x146.Slices ![1, 0, 0] S1x146x146
  slices_S4x146_S1x146_1_0 : S4x146.Slices ![1, 0] S1x146
  slices_S4x146x146_S1x146x146_2_0_0 : S4x146x146.Slices ![2, 0, 0] S1x146x146
  slices_S4x146_S1x146_2_0 : S4x146.Slices ![2, 0] S1x146
  slices_S4x146x146_S1x146x146_3_0_0 : S4x146x146.Slices ![3, 0, 0] S1x146x146
  slices_S4x146_S1x146_3_0 : S4x146.Slices ![3, 0] S1x146
  bcast_S_S64x146 : S_.BroadcastsInDim S64x146 (![] : Fin 0 → Fin S64x146.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x146_0_1 : S64x1.BroadcastsInDim S64x146 (![0, 1] : Fin 2 → Fin S64x146.rank)
  dot_S5000x128_S128x146_S5000x146_1_0_0_1_n_n_wf : DotDims.WF S5000x128 S128x146 S5000x146 [1] [0] [0] [1] [] []
  dot_S5000x146_S146x146_S5000x146_1_0_0_1_n_n_wf : DotDims.WF S5000x146 S146x146 S5000x146 [1] [0] [0] [1] [] []
  gather_S50000x146_S800000x1_S800000x146_1_0_n_n_0_1_1146_wf : GatherDims.WF S50000x146 S800000x1 S800000x146 [1] [0] [] [0] [] 1 ![1, 146]
  scatter_S50000x146_S800000x1_S800000x146_1_0_0_1_wf : ScatterDims.WF S50000x146 S800000x1 S800000x146 [1] [0] [0] 1
  scatter_S64x146_S50000x1_S50000x146_1_0_0_1_wf : ScatterDims.WF S64x146 S50000x1 S50000x146 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x146.size a ≤ S128x146.size a
  hwx0_1 : ∀ i : grid0.Coords, EltTy.bits .f32 = 32 ∨ (Rect.block (s := S128x146) S128x146.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x146.size a ≤ S1x146.size a
  hwx0_2 : ∀ i : grid0.Coords, EltTy.bits .f32 = 32 ∨ (Rect.block (s := S1x146) S1x146.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x146.size a ≤ S50000x146.size a
  hwx0_3 : ∀ i : grid0.Coords, EltTy.bits .f32 = 32 ∨ (Rect.block (s := S50000x146) S5000x146.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x146.size a ≤ S50000x146.size a
  hwx1_0 : ∀ i : grid1.Coords, EltTy.bits .f32 = 32 ∨ (Rect.block (s := S50000x146) S5000x146.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S146x146.size a ≤ S146x146.size a
  hwx1_1 : ∀ i : grid1.Coords, EltTy.bits .f32 = 32 ∨ (Rect.block (s := S146x146) S146x146.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x146.size a ≤ S50000x146.size a
  hwx1_2 : ∀ i : grid1.Coords, EltTy.bits .f32 = 32 ∨ (Rect.block (s := S50000x146) S5000x146.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x146.size a ≤ S50000x146.size a
  hwx2_0 : ∀ i : grid2.Coords, EltTy.bits .f32 = 32 ∨ (Rect.block (s := S50000x146) S5000x146.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x146.size a ≤ S1x146.size a
  hwx2_1 : ∀ i : grid2.Coords, EltTy.bits .f32 = 32 ∨ (Rect.block (s := S1x146) S1x146.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x146.size a ≤ S50000x146.size a
  hwx2_2 : ∀ i : grid2.Coords, EltTy.bits .f32 = 32 ∨ (Rect.block (s := S50000x146) S5000x146.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x146.size a ≤ S50000x146.size a
  hwx3_0 : ∀ i : grid3.Coords, EltTy.bits .f32 = 32 ∨ (Rect.block (s := S50000x146) S5000x146.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S146x146.size a ≤ S146x146.size a
  hwx3_1 : ∀ i : grid3.Coords, EltTy.bits .f32 = 32 ∨ (Rect.block (s := S146x146) S146x146.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x146.size a ≤ S50000x146.size a
  hwx3_2 : ∀ i : grid3.Coords, EltTy.bits .f32 = 32 ∨ (Rect.block (s := S50000x146) S5000x146.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x146.size a ≤ S50000x146.size a
  hwx4_0 : ∀ i : grid4.Coords, EltTy.bits .f32 = 32 ∨ (Rect.block (s := S50000x146) S5000x146.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x146.size a ≤ S1x146.size a
  hwx4_1 : ∀ i : grid4.Coords, EltTy.bits .f32 = 32 ∨ (Rect.block (s := S1x146) S1x146.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x146.size a ≤ S50000x146.size a
  hwx4_2 : ∀ i : grid4.Coords, EltTy.bits .f32 = 32 ∨ (Rect.block (s := S50000x146) S5000x146.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x146.size a ≤ S50000x146.size a
  hwx5_0 : ∀ i : grid5.Coords, EltTy.bits .f32 = 32 ∨ (Rect.block (s := S50000x146) S5000x146.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S146x146.size a ≤ S146x146.size a
  hwx5_1 : ∀ i : grid5.Coords, EltTy.bits .f32 = 32 ∨ (Rect.block (s := S146x146) S146x146.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x146.size a ≤ S50000x146.size a
  hwx5_2 : ∀ i : grid5.Coords, EltTy.bits .f32 = 32 ∨ (Rect.block (s := S50000x146) S5000x146.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x146.size a ≤ S50000x146.size a
  hwx6_0 : ∀ i : grid6.Coords, EltTy.bits .f32 = 32 ∨ (Rect.block (s := S50000x146) S5000x146.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x146.size a ≤ S1x146.size a
  hwx6_1 : ∀ i : grid6.Coords, EltTy.bits .f32 = 32 ∨ (Rect.block (s := S1x146) S1x146.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x146.size a ≤ S50000x146.size a
  hwx6_2 : ∀ i : grid6.Coords, EltTy.bits .f32 = 32 ∨ (Rect.block (s := S50000x146) S5000x146.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x146.size a ≤ S50000x146.size a
  hwx7_0 : ∀ i : grid7.Coords, EltTy.bits .f32 = 32 ∨ (Rect.block (s := S50000x146) S5000x146.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S146x146.size a ≤ S146x146.size a
  hwx7_1 : ∀ i : grid7.Coords, EltTy.bits .f32 = 32 ∨ (Rect.block (s := S146x146) S146x146.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x146.size a ≤ S50000x146.size a
  hwx7_2 : ∀ i : grid7.Coords, EltTy.bits .f32 = 32 ∨ (Rect.block (s := S50000x146) S5000x146.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x146.size a ≤ S50000x146.size a
  hwx8_0 : ∀ i : grid8.Coords, EltTy.bits .f32 = 32 ∨ (Rect.block (s := S50000x146) S5000x146.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x146.size a ≤ S1x146.size a
  hwx8_1 : ∀ i : grid8.Coords, EltTy.bits .f32 = 32 ∨ (Rect.block (s := S1x146) S1x146.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x146.size a ≤ S50000x146.size a
  hwx8_2 : ∀ i : grid8.Coords, EltTy.bits .f32 = 32 ∨ (Rect.block (s := S50000x146) S5000x146.size (cc8_transform_2 i) (hinb8_2 i)).WholeWords (EltTy.packing .f32)

variable [Facts₀]

def dot_S5000x128_S128x146_S5000x146_1_0_0_1_n_n : DotDims S5000x128 S128x146 S5000x146 where
  lhsContracting := [1]
  rhsContracting := [0]
  lhsNonContracting := [0]
  rhsNonContracting := [1]
  lhsBatch := []
  rhsBatch := []
  wf := dot_S5000x128_S128x146_S5000x146_1_0_0_1_n_n_wf
def dot_S5000x146_S146x146_S5000x146_1_0_0_1_n_n : DotDims S5000x146 S146x146 S5000x146 where
  lhsContracting := [1]
  rhsContracting := [0]
  lhsNonContracting := [0]
  rhsNonContracting := [1]
  lhsBatch := []
  rhsBatch := []
  wf := dot_S5000x146_S146x146_S5000x146_1_0_0_1_n_n_wf
def gather_S50000x146_S800000x1_S800000x146_1_0_n_n_0_1_1146 : GatherDims S50000x146 S800000x1 S800000x146 where
  offsetDims := [1]
  collapsedSliceDims := [0]
  operandBatchingDims := []
  startIndicesBatchingDims := []
  startIndexMap := [0]
  indexVectorDim := 1
  sliceSizes := ![1, 146]
  wf := gather_S50000x146_S800000x1_S800000x146_1_0_n_n_0_1_1146_wf
def scatter_S50000x146_S800000x1_S800000x146_1_0_0_1 : ScatterDims S50000x146 S800000x1 S800000x146 where
  updateWindowDims := [1]
  insertedWindowDims := [0]
  scatterDimsToOperandDims := [0]
  indexVectorDim := 1
  wf := scatter_S50000x146_S800000x1_S800000x146_1_0_0_1_wf
def scatter_S64x146_S50000x1_S50000x146_1_0_0_1 : ScatterDims S64x146 S50000x1 S50000x146 where
  updateWindowDims := [1]
  insertedWindowDims := [0]
  scatterDimsToOperandDims := [0]
  indexVectorDim := 1
  wf := scatter_S64x146_S50000x1_S50000x146_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x146.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x146.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x146.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x146.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S146x146.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x146.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S5000x146.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x146.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x146.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v16) S5000x146.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S146x146.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S5000x146.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v23) S5000x146.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S1x146.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v27) S5000x146.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v27) S5000x146.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v29) S146x146.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v30) S5000x146.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v34) S5000x146.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v37) S1x146.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v38) S5000x146.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v38) S5000x146.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v40) S146x146.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v41) S5000x146.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v45) S5000x146.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v48) S1x146.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v49) S5000x146.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x146 : Shape := ⟨2, ![128, 146]⟩
abbrev S146 : Shape := ⟨1, ![146]⟩
abbrev S4x146x146 : Shape := ⟨3, ![4, 146, 146]⟩
abbrev S4x146 : Shape := ⟨2, ![4, 146]⟩
abbrev S1x800000 : Shape := ⟨2, ![1, 800000]⟩
abbrev S800000 : Shape := ⟨1, ![800000]⟩
abbrev S50000x146 : Shape := ⟨2, ![50000, 146]⟩
abbrev S1x146 : Shape := ⟨2, ![1, 146]⟩
abbrev S1x146x146 : Shape := ⟨3, ![1, 146, 146]⟩
abbrev S146x146 : Shape := ⟨2, ![146, 146]⟩
abbrev S_ : Shape := ⟨0, ![]⟩
abbrev S800000x1 : Shape := ⟨2, ![800000, 1]⟩
abbrev S800000x146 : Shape := ⟨2, ![800000, 146]⟩
abbrev S64x146 : Shape := ⟨2, ![64, 146]⟩
abbrev S50000x1 : Shape := ⟨2, ![50000, 1]⟩
abbrev S64 : Shape := ⟨1, ![64]⟩
abbrev S64x1 : Shape := ⟨2, ![64, 1]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x146, .f32⟩
  | .hbm, ⟨4, _⟩ => ⟨S146, .f32⟩
  | .hbm, ⟨5, _⟩ => ⟨S4x146x146, .f32⟩
  | .hbm, ⟨6, _⟩ => ⟨S4x146, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x146, .f32⟩
  | .hbm, ⟨12, _⟩ => ⟨S1x146, .f32⟩
  | .hbm, ⟨13, _⟩ => ⟨S50000x146, .f32⟩
  | .hbm, ⟨14, _⟩ => ⟨S50000x146, .f32⟩
  | .hbm, ⟨15, _⟩ => ⟨S1x146x146, .f32⟩
  | .hbm, ⟨16, _⟩ => ⟨S146x146, .f32⟩
  | .hbm, ⟨17, _⟩ => ⟨S50000x146, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x146, .f32⟩
  | .hbm, ⟨27, _⟩ => ⟨S_, .f32⟩
  | .hbm, ⟨28, _⟩ => ⟨S50000x146, .f32⟩
  | .hbm, ⟨29, _⟩ => ⟨S800000x1, .i32⟩
  | .hbm, ⟨30, _⟩ => ⟨S50000x146, .f32⟩
  | .hbm, ⟨31, _⟩ => ⟨S1x146, .f32⟩
  | .hbm, ⟨32, _⟩ => ⟨S146, .f32⟩
  | .hbm, ⟨33, _⟩ => ⟨S1x146, .f32⟩
  | .hbm, ⟨34, _⟩ => ⟨S50000x146, .f32⟩
  | .hbm, ⟨35, _⟩ => ⟨S50000x146, .f32⟩
  | .hbm, ⟨36, _⟩ => ⟨S_, .f32⟩
  | .hbm, ⟨37, _⟩ => ⟨S50000x146, .f32⟩
  | .hbm, ⟨38, _⟩ => ⟨S50000x146, .f32⟩
  | .hbm, ⟨39, _⟩ => ⟨S1x146x146, .f32⟩
  | .hbm, ⟨40, _⟩ => ⟨S146x146, .f32⟩
  | .hbm, ⟨41, _⟩ => ⟨S50000x146, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x146, .f32⟩
  | .hbm, ⟨51, _⟩ => ⟨S_, .f32⟩
  | .hbm, ⟨52, _⟩ => ⟨S50000x146, .f32⟩
  | .hbm, ⟨53, _⟩ => ⟨S800000x1, .i32⟩
  | .hbm, ⟨54, _⟩ => ⟨S50000x146, .f32⟩
  | .hbm, ⟨55, _⟩ => ⟨S1x146, .f32⟩
  | .hbm, ⟨56, _⟩ => ⟨S146, .f32⟩
  | .hbm, ⟨57, _⟩ => ⟨S1x146, .f32⟩
  | .hbm, ⟨58, _⟩ => ⟨S50000x146, .f32⟩
  | .hbm, ⟨59, _⟩ => ⟨S50000x146, .f32⟩
  | .hbm, ⟨60, _⟩ => ⟨S_, .f32⟩
  | .hbm, ⟨61, _⟩ => ⟨S50000x146, .f32⟩
  | .hbm, ⟨62, _⟩ => ⟨S50000x146, .f32⟩
  | .hbm, ⟨63, _⟩ => ⟨S1x146x146, .f32⟩
  | .hbm, ⟨64, _⟩ => ⟨S146x146, .f32⟩
  | .hbm, ⟨65, _⟩ => ⟨S50000x146, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x146, .f32⟩
  | .hbm, ⟨75, _⟩ => ⟨S_, .f32⟩
  | .hbm, ⟨76, _⟩ => ⟨S50000x146, .f32⟩
  | .hbm, ⟨77, _⟩ => ⟨S800000x1, .i32⟩
  | .hbm, ⟨78, _⟩ => ⟨S50000x146, .f32⟩
  | .hbm, ⟨79, _⟩ => ⟨S1x146, .f32⟩
  | .hbm, ⟨80, _⟩ => ⟨S146, .f32⟩
  | .hbm, ⟨81, _⟩ => ⟨S1x146, .f32⟩
  | .hbm, ⟨82, _⟩ => ⟨S50000x146, .f32⟩
  | .hbm, ⟨83, _⟩ => ⟨S50000x146, .f32⟩
  | .hbm, ⟨84, _⟩ => ⟨S_, .f32⟩
  | .hbm, ⟨85, _⟩ => ⟨S50000x146, .f32⟩
  | .hbm, ⟨86, _⟩ => ⟨S50000x146, .f32⟩
  | .hbm, ⟨87, _⟩ => ⟨S1x146x146, .f32⟩
  | .hbm, ⟨88, _⟩ => ⟨S146x146, .f32⟩
  | .hbm, ⟨89, _⟩ => ⟨S50000x146, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x146, .f32⟩
  | .hbm, ⟨99, _⟩ => ⟨S_, .f32⟩
  | .hbm, ⟨100, _⟩ => ⟨S50000x146, .f32⟩
  | .hbm, ⟨101, _⟩ => ⟨S800000x1, .i32⟩
  | .hbm, ⟨102, _⟩ => ⟨S50000x146, .f32⟩
  | .hbm, ⟨103, _⟩ => ⟨S1x146, .f32⟩
  | .hbm, ⟨104, _⟩ => ⟨S146, .f32⟩
  | .hbm, ⟨105, _⟩ => ⟨S1x146, .f32⟩
  | .hbm, ⟨106, _⟩ => ⟨S50000x146, .f32⟩
  | .hbm, ⟨107, _⟩ => ⟨S50000x146, .f32⟩
  | .hbm, ⟨108, _⟩ => ⟨S_, .f32⟩
  | .hbm, ⟨109, _⟩ => ⟨S50000x146, .f32⟩
  | .hbm, ⟨110, _⟩ => ⟨S50000x146, .f32⟩
  | .hbm, ⟨111, _⟩ => ⟨S_, .f32⟩
  | .hbm, ⟨112, _⟩ => ⟨S64x146, .f32⟩
  | .hbm, ⟨113, _⟩ => ⟨S50000x1, .i32⟩
  | .hbm, ⟨114, _⟩ => ⟨S64x146, .f32⟩
  | .hbm, ⟨115, _⟩ => ⟨S_, .f32⟩
  | .hbm, ⟨116, _⟩ => ⟨S50000, .f32⟩
  | .hbm, ⟨117, _⟩ => ⟨S_, .f32⟩
  | .hbm, ⟨118, _⟩ => ⟨S64, .f32⟩
  | .hbm, ⟨119, _⟩ => ⟨S50000x1, .i32⟩
  | .hbm, ⟨120, _⟩ => ⟨S64, .f32⟩
  | .hbm, ⟨121, _⟩ => ⟨S_, .f32⟩
  | .hbm, ⟨122, _⟩ => ⟨S64, .f32⟩
  | .hbm, ⟨123, _⟩ => ⟨S64, .f32⟩
  | .hbm, ⟨124, _⟩ => ⟨S64x1, .f32⟩
  | .hbm, ⟨125, _⟩ => ⟨S64x146, .f32⟩
  | .hbm, ⟨126, _⟩ => ⟨S64x146, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_1 : Ref sig .tc := ⟨.hbm, 42, rfl⟩
abbrev main_v30 : Ref sig .tc := ⟨.hbm, 43, rfl⟩
abbrev main_v31 : Ref sig .tc := ⟨.hbm, 44, rfl⟩
abbrev main_c_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call1_cst : Ref sig .tc := ⟨.hbm, 60, rfl⟩
abbrev main_call1_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_4 : Ref sig .tc := ⟨.hbm, 66, rfl⟩
abbrev main_v49 : Ref sig .tc := ⟨.hbm, 67, rfl⟩
abbrev main_v50 : Ref sig .tc := ⟨.hbm, 68, rfl⟩
abbrev main_c_5 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call2_cst : Ref sig .tc := ⟨.hbm, 84, rfl⟩
abbrev main_call2_v0 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_7 : Ref sig .tc := ⟨.hbm, 90, rfl⟩
abbrev main_v68 : Ref sig .tc := ⟨.hbm, 91, rfl⟩
abbrev main_v69 : Ref sig .tc := ⟨.hbm, 92, rfl⟩
abbrev main_c_8 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_9 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_call3_cst : Ref sig .tc := ⟨.hbm, 108, rfl⟩
abbrev main_call3_v0 : Ref sig .tc := ⟨.hbm, 109, rfl⟩
abbrev main_v83 : Ref sig .tc := ⟨.hbm, 110, rfl⟩
abbrev main_cst_10 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_11 : Ref sig .tc := ⟨.hbm, 115, rfl⟩
abbrev main_v87 : Ref sig .tc := ⟨.hbm, 116, rfl⟩
abbrev main_cst_12 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_13 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S146_S1x146_1 : S146.BroadcastsInDim S1x146 (![1] : Fin 1 → Fin S1x146.rank)
  bcast_S1x146_S50000x146_0_1 : S1x146.BroadcastsInDim S50000x146 (![0, 1] : Fin 2 → Fin S50000x146.rank)
  slices_S4x146x146_S1x146x146_0_0_0 : S4x146x146.Slices ![0, 0, 0] S1x146x146
  shapeCasts_S1x146x146_S146x146 : S1x146x146.ShapeCasts S146x146
  bcast_S_S800000 : S_.BroadcastsInDim S800000 (![] : Fin 0 → Fin S800000.rank)
  bcast_S800000_S800000x1_0 : S800000.BroadcastsInDim S800000x1 (![0] : Fin 1 → Fin S800000x1.rank)
  bcast_S_S50000x146 : S_.BroadcastsInDim S50000x146 (![] : Fin 0 → Fin S50000x146.rank)
  slices_S4x146_S1x146_0_0 : S4x146.Slices ![0, 0] S1x146
  shapeCasts_S1x146_S146 : S1x146.ShapeCasts S146
  slices_S4x146x146_S1x146x146_1_0_0 : S4x146x146.Slices ![1, 0, 0] S1x146x146
  slices_S4x146_S1x146_1_0 : S4x146.Slices ![1, 0] S1x146
  slices_S4x146x146_S1x146x146_2_0_0 : S4x146x146.Slices ![2, 0, 0] S1x146x146
  slices_S4x146_S1x146_2_0 : S4x146.Slices ![2, 0] S1x146
  slices_S4x146x146_S1x146x146_3_0_0 : S4x146x146.Slices ![3, 0, 0] S1x146x146
  slices_S4x146_S1x146_3_0 : S4x146.Slices ![3, 0] S1x146
  bcast_S_S64x146 : S_.BroadcastsInDim S64x146 (![] : Fin 0 → Fin S64x146.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x146_0_1 : S64x1.BroadcastsInDim S64x146 (![0, 1] : Fin 2 → Fin S64x146.rank)
  dot_S50000x128_S128x146_S50000x146_1_0_0_1_n_n_wf : DotDims.WF S50000x128 S128x146 S50000x146 [1] [0] [0] [1] [] []
  dot_S50000x146_S146x146_S50000x146_1_0_0_1_n_n_wf : DotDims.WF S50000x146 S146x146 S50000x146 [1] [0] [0] [1] [] []
  gather_S50000x146_S800000x1_S800000x146_1_0_n_n_0_1_1146_wf : GatherDims.WF S50000x146 S800000x1 S800000x146 [1] [0] [] [0] [] 1 ![1, 146]
  scatter_S50000x146_S800000x1_S800000x146_1_0_0_1_wf : ScatterDims.WF S50000x146 S800000x1 S800000x146 [1] [0] [0] 1
  scatter_S64x146_S50000x1_S50000x146_1_0_0_1_wf : ScatterDims.WF S64x146 S50000x1 S50000x146 [1] [0] [0] 1
  scatter_S64_S50000x1_S50000_n_0_0_1_wf : ScatterDims.WF S64 S50000x1 S50000 [] [0] [0] 1

variable [Facts₀]

def dot_S50000x128_S128x146_S50000x146_1_0_0_1_n_n : DotDims S50000x128 S128x146 S50000x146 where
  lhsContracting := [1]
  rhsContracting := [0]
  lhsNonContracting := [0]
  rhsNonContracting := [1]
  lhsBatch := []
  rhsBatch := []
  wf := dot_S50000x128_S128x146_S50000x146_1_0_0_1_n_n_wf
def dot_S50000x146_S146x146_S50000x146_1_0_0_1_n_n : DotDims S50000x146 S146x146 S50000x146 where
  lhsContracting := [1]
  rhsContracting := [0]
  lhsNonContracting := [0]
  rhsNonContracting := [1]
  lhsBatch := []
  rhsBatch := []
  wf := dot_S50000x146_S146x146_S50000x146_1_0_0_1_n_n_wf
def gather_S50000x146_S800000x1_S800000x146_1_0_n_n_0_1_1146 : GatherDims S50000x146 S800000x1 S800000x146 where
  offsetDims := [1]
  collapsedSliceDims := [0]
  operandBatchingDims := []
  startIndicesBatchingDims := []
  startIndexMap := [0]
  indexVectorDim := 1
  sliceSizes := ![1, 146]
  wf := gather_S50000x146_S800000x1_S800000x146_1_0_n_n_0_1_1146_wf
def scatter_S50000x146_S800000x1_S800000x146_1_0_0_1 : ScatterDims S50000x146 S800000x1 S800000x146 where
  updateWindowDims := [1]
  insertedWindowDims := [0]
  scatterDimsToOperandDims := [0]
  indexVectorDim := 1
  wf := scatter_S50000x146_S800000x1_S800000x146_1_0_0_1_wf
def scatter_S64x146_S50000x1_S50000x146_1_0_0_1 : ScatterDims S64x146 S50000x1 S50000x146 where
  updateWindowDims := [1]
  insertedWindowDims := [0]
  scatterDimsToOperandDims := [0]
  indexVectorDim := 1
  wf := scatter_S64x146_S50000x1_S50000x146_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.Pre.lean ====
/- What the precondition says about the source node ids: every one of the 800000 entries of the first row of the edge
   list is, read as a signed word, at least 0 and less than 50000. -/
import proofs.«407027_j41016937677161_1_alg».proof.Pre_finite_inputs
import proofs.«407027_j41016937677161_1_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.PreRange

open Idealize.ShloMosaic
open Cert.Pre_finite_inputs

variable [Cert.Pre_finite_inputs.Facts]
open Cert.Pre_finite_inputs.Facts

/-- The source node ids: the first row of the edge list, as a vector of 800000 words. -/
def srcOf (a1 : IVec S2x800000 32) : IVec S800000 32 :=
  shapeCast S800000 (extractStridedSlice S1x800000 ![0, 0] a1 slices_S2x800000_S1x800000_0_0) shapeCasts_S1x800000_S800000

/-- Under the precondition every source node id lies in [0, 50000) as a signed word. -/
theorem src_range {F : FTy → Type} [FloatOps F] (a0 : FVec F S50000x128 .f32) (a1 : IVec S2x800000 32) (a2 : IVec S50000 32)
    (a3 : FVec F S128x146 .f32) (a4 : FVec F S146 .f32) (a5 : FVec F S4x146x146 .f32) (a6 : FVec F S4x146 .f32)
    (h : fn (F := F) a0 a1 a2 a3 a4 a5 a6 = fun _ => 1#1) :
    ∀ e : S800000.Idx, IntOp.cmpi .sge (srcOf a1 e) 0#32 = 1#1 ∧ IntOp.cmpi .slt (srcOf a1 e) 50000#32 = 1#1 := by
  -- the precondition at its one index, with the printed chain of lets opened
  have h0 := congrFun h ValueIdx.ix0
  unfold fn at h0
  dsimp only at h0
  unfold fn_part1 at h0
  dsimp only at h0
  -- the outermost conjunction: keep its right half, the "all" over the 800000 ids
  have h1 := (IntOp.andi_eq_one.1 h0).2
  clear h0 h
  intro e
  -- a rank-0 result has one index, so a reduction by "and" that is 1 met a 1 at every id
  haveI : Subsingleton S_.Idx := ⟨fun a b => funext fun d => d.elim0⟩
  have h2 := Host.reduce_andi_all _ _ _ _ _ h1 e
  -- at id e the bit is the "and" of the two compares
  obtain ⟨h3, h4⟩ := IntOp.andi_eq_one.1 h2
  -- a broadcast scalar constant reads, at every index, the constant
  have b0 : broadcastInDim S800000 ![] bcast_S_S800000 (constantI S_ 32 0#32) e = 0#32 :=
    StableHlo.Predicate.bcast_scalar bcast_S_S800000 h_S_ _ e
  have b1 : broadcastInDim S800000 ![] bcast_S_S800000 (constantI S_ 32 50000#32) e = 50000#32 :=
    StableHlo.Predicate.bcast_scalar bcast_S_S800000 h_S_ _ e
  refine ⟨?_, ?_⟩
  · have h5 : IntOp.cmpi .sge (srcOf a1 e) (broadcastInDim S800000 ![] bcast_S_S800000 (constantI S_ 32 0#32) e) = 1#1 := h3
    rw [b0] at h5
    exact h5
  · have h6 : IntOp.cmpi .slt (srcOf a1 e) (broadcastInDim S800000 ![] bcast_S_S800000 (constantI S_ 32 50000#32) e) = 1#1 := h4
    rw [b1] at h6
    exact h6

end Cert.PreRange

end
-- ==== Proof.KeepTac.lean ====
/- A stretch of host operations leaves every buffer that none of its operations writes as it found it. -/
import Idealize.ShloMosaic.Lib.StableHlo.Run

namespace Cert.KernelIdeal.Stretch

open Idealize.ShloMosaic

/-- `keep_of ops hb`: the operations `ops` leave buffer `b` alone, given `hb : ∀ y ∈ ‹the buffers they write›, b ≠ y`. -/
macro "keep_of " ops:ident hb:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (fun e => $hb _ (by simp) e))))

end Cert.KernelIdeal.Stretch
-- ==== Proof.StretchEnds.lean ====
/- The host operations before the first kernel call and after the last. Before: the two rows of the edge list are cut out as the source and destination id vectors, and the embedding bias is laid out as one 1 × 146 row. After: the node features are summed per graph, the nodes are counted per graph, and each graph's sum is divided by its count, a count below one read as one. -/
import proofs.«407027_j41016937677161_1_alg».proof.Proof.Gen.KernelIdeal.Launch
import proofs.«407027_j41016937677161_1_alg».proof.Proof.KeepTac
import Idealize.ShloMosaic.Lib.StableHlo.Run
import Idealize.ShloMosaic.PureOps.Ideal

set_option maxRecDepth 16384

noncomputable section

namespace Cert.KernelIdeal.Stretch

open Idealize.ShloMosaic Idealize.ShloMosaic.TcCoe Idealize.SL.Sem
open Cert.KernelIdeal Cert.KernelIdeal.Gen

variable (W : Valuation τ sig (Elt Ideal))

/-- The opening operations write only their own five buffers. -/
theorem keepOpen (b : Ref sig .tc) (hb : ∀ y ∈ [main_v0, main_v1, main_v2, main_v3, main_v4], b ≠ y) :
    StableHlo.after hostOps0 W (Proc.devRef .tc b) = W (Proc.devRef .tc b) := by
  keep_of hostOps0 hb

/-- The source ids: row 0 of the edge list as a vector. -/
theorem src_of : StableHlo.after hostOps0 W (Proc.devRef .tc main_v1)
    = shapeCast S800000 (extractStridedSlice S1x800000 ![0, 0] (W (Proc.devRef .tc main_arg1)) slices_S2x800000_S1x800000_0_0) shapeCasts_S1x800000_S800000 := by
  after_results <;> rfl

/-- The destination ids: row 1 of the edge list as a vector. -/
theorem dst_of : StableHlo.after hostOps0 W (Proc.devRef .tc main_v3)
    = shapeCast S800000 (extractStridedSlice S1x800000 ![1, 0] (W (Proc.devRef .tc main_arg1)) slices_S2x800000_S1x800000_1_0) shapeCasts_S1x800000_S800000 := by
  after_results <;> rfl

/-- The embedding bias as one 1 × 146 row. -/
theorem embBias_of : StableHlo.after hostOps0 W (Proc.devRef .tc main_v4)
    = shapeCast S1x146 (W (Proc.devRef .tc main_arg4)) shapeCasts_S146_S1x146 := by
  after_results <;> rfl

/-- The mean pool: per graph, the sum of its nodes' features over the larger of its node count and one. -/
theorem pool_of : StableHlo.after hostOps9 W (Proc.devRef .tc main_v61)
    = Host.divf
        (Host.scatterAdd scatter_S64x146_S50000x1_S50000x146_1_0_0_1
          (broadcastInDim S64x146 ![] bcast_S_S64x146 (constant (F := Ideal) S_ .f32 0x00000000#32))
          (broadcastInDim S50000x1 ![0] bcast_S50000_S50000x1_0 (W (Proc.devRef .tc main_arg2)))
          (W (Proc.devRef .tc main_v49)))
        (broadcastInDim S64x146 ![0, 1] bcast_S64x1_S64x146_0_1
          (broadcastInDim S64x1 ![0] bcast_S64_S64x1_0
            (maximumf
              (Host.scatterAdd scatter_S64_S50000x1_S50000_n_0_0_1
                (broadcastInDim S64 ![] bcast_S_S64 (constant (F := Ideal) S_ .f32 0x00000000#32))
                (broadcastInDim S50000x1 ![0] bcast_S50000_S50000x1_0 (W (Proc.devRef .tc main_arg2)))
                (broadcastInDim S50000 ![] bcast_S_S50000 (constant (F := Ideal) S_ .f32 0x3F800000#32)))
              (broadcastInDim S64 ![] bcast_S_S64 (constant (F := Ideal) S_ .f32 0x3F800000#32))))) := by
  after_results <;> rfl

end Cert.KernelIdeal.Stretch

end
-- ==== Proof.Spec.lean ====
import Idealize.ShloMosaic.PureOps.Ideal
import Idealize.ShloMosaic.Lib.ValueIdx

/-!
# The layers of the network, index by index, over the extended reals

A dense layer is a matrix product: entry (r, c) of the result is the sum over the inner index q of x(r, q) · w(q, c).
The embedding layer adds a row vector b to every row of the product; a convolution layer adds its row vector to the
aggregated features and clips the sum below at zero.
-/

noncomputable section

namespace Cert.Spec

open Idealize.ShloMosaic Idealize.ShloMosaic.ValueIdx

/-- The matrix product of an n × k array with a k × d array: entry (r, c) is the sum over q of x(r, q) · w(q, c). -/
def mm {n k d : Nat} (x : FVec Ideal (⟨2, ![n, k]⟩ : Shape) .f32) (w : FVec Ideal (⟨2, ![k, d]⟩ : Shape) .f32) :
    FVec Ideal (⟨2, ![n, d]⟩ : Shape) .f32 :=
  fun i => ∑ q : Fin k, x (ix2 (i 0) q) * w (ix2 q (i 1))

/-- A 1 × d row added to every row of an n × d array. -/
def addRow {n d : Nat} (y : FVec Ideal (⟨2, ![n, d]⟩ : Shape) .f32) (b : FVec Ideal (⟨2, ![1, d]⟩ : Shape) .f32) :
    FVec Ideal (⟨2, ![n, d]⟩ : Shape) .f32 :=
  fun i => y i + b (ix2 0 (i 1))

/-- Every entry clipped below at zero. -/
def relu0 {n d : Nat} (y : FVec Ideal (⟨2, ![n, d]⟩ : Shape) .f32) : FVec Ideal (⟨2, ![n, d]⟩ : Shape) .f32 :=
  fun i => max (y i) (Ideal.ofBits .f32 0x00000000#32)

end Cert.Spec

end
-- ==== Proof.Region0.lean ====
/- The embedding call: ten row blocks of 5000 nodes, each the block's features times the whole weight matrix plus the bias row. -/
import proofs.«407027_j41016937677161_1_alg».proof.Proof.Gen.KernelIdeal.Frame
import proofs.«407027_j41016937677161_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

open Idealize.ShloMosaic.ValueIdx

/-- A block that starts at the origin of its buffer has every offset zero. -/
theorem origin_offsets0 : (![0, 0] : Fin 2 → Nat) = fun _ => 0 :=
  funext fun a => match a with | ⟨0, _⟩ => rfl | ⟨1, _⟩ => rfl

/-! ## The product of a row block with the weights, entry by entry -/

/-- The row of the left factor an entry of the product reads is the entry's own row … -/
theorem lhs_embed_0 (i : S5000x146.Idx) (q : dot_S5000x128_S128x146_S5000x146_1_0_0_1_n_n.contr.Idx) :
    (dot_S5000x128_S128x146_S5000x146_1_0_0_1_n_n.lhsIdx i q 0).val = (i 0).val := by
  unfold DotDims.lhsIdx
  rw [dif_neg (show ¬(0 : Fin S5000x128.rank) ∈ dot_S5000x128_S128x146_S5000x146_1_0_0_1_n_n.lhsBatch by decide), dif_pos (show (0 : Fin S5000x128.rank) ∈ dot_S5000x128_S128x146_S5000x146_1_0_0_1_n_n.lhsNonContracting by decide)]
  rfl
/-- … and its column there is the inner index. -/
theorem lhs_embed_1 (i : S5000x146.Idx) (q : dot_S5000x128_S128x146_S5000x146_1_0_0_1_n_n.contr.Idx) :
    (dot_S5000x128_S128x146_S5000x146_1_0_0_1_n_n.lhsIdx i q 1).val = (q ⟨0, by decide⟩).val :=
  dot_S5000x128_S128x146_S5000x146_1_0_0_1_n_n.lhsIdx_val_of_single rfl i q
/-- The row of the right factor an entry reads is the inner index … -/
theorem rhs_embed_0 (i : S5000x146.Idx) (q : dot_S5000x128_S128x146_S5000x146_1_0_0_1_n_n.contr.Idx) :
    (dot_S5000x128_S128x146_S5000x146_1_0_0_1_n_n.rhsIdx i q 0).val = (q ⟨0, by decide⟩).val :=
  dot_S5000x128_S128x146_S5000x146_1_0_0_1_n_n.rhsIdx_val_of_single rfl i q
/-- … and its column there is the entry's own column. -/
theorem rhs_embed_1 (i : S5000x146.Idx) (q : dot_S5000x128_S128x146_S5000x146_1_0_0_1_n_n.contr.Idx) :
    (dot_S5000x128_S128x146_S5000x146_1_0_0_1_n_n.rhsIdx i q 1).val = (i 1).val := by
  unfold DotDims.rhsIdx
  rw [dif_neg (show ¬(1 : Fin S128x146.rank) ∈ dot_S5000x128_S128x146_S5000x146_1_0_0_1_n_n.rhsBatch by decide), dif_pos (show (1 : Fin S128x146.rank) ∈ dot_S5000x128_S128x146_S5000x146_1_0_0_1_n_n.rhsNonContracting by decide)]
  rfl

/-- Entry (p, q) of the block product into a zero accumulator is the sum over the inner index k of x(p, k) · w(k, q). -/
theorem block_product0_apply (x : FVec Ideal S5000x128 .bf16) (w : FVec Ideal S128x146 .bf16) (p : Fin 5000) (q : Fin 146) :
    FloatOps.matmul dot_S5000x128_S128x146_S5000x146_1_0_0_1_n_n none x w (constant (F := Ideal) S5000x146 .f32 0x00000000#32) (ix2 p q)
      = ∑ k : Fin 128, x (ix2 p k) * w (ix2 k q) := by
  rw [Ideal.matmul_constant_zero_apply, ← Equiv.sum_comp (ValueIdx.contrEquiv1 dot_S5000x128_S128x146_S5000x146_1_0_0_1_n_n 128 rfl rfl).symm]
  refine Finset.sum_congr rfl fun k _ => ?_
  have hk := ValueIdx.contrEquiv1_symm_val dot_S5000x128_S128x146_S5000x146_1_0_0_1_n_n 128 rfl rfl k
  have el : dot_S5000x128_S128x146_S5000x146_1_0_0_1_n_n.lhsIdx (ix2 p q) ((ValueIdx.contrEquiv1 dot_S5000x128_S128x146_S5000x146_1_0_0_1_n_n 128 rfl rfl).symm k) = ix2 p k := funext fun a => Fin.ext (by
    match a with
    | ⟨0, _⟩ => exact lhs_embed_0 _ _
    | ⟨1, _⟩ => exact (lhs_embed_1 _ _).trans hk)
  have er : dot_S5000x128_S128x146_S5000x146_1_0_0_1_n_n.rhsIdx (ix2 p q) ((ValueIdx.contrEquiv1 dot_S5000x128_S128x146_S5000x146_1_0_0_1_n_n 128 rfl rfl).symm k) = ix2 k q := funext fun a => Fin.ext (by
    match a with
    | ⟨0, _⟩ => exact (rhs_embed_0 _ _).trans hk
    | ⟨1, _⟩ => exact rhs_embed_1 _ _)
  rw [el, er]

/-- The bias row spread over the block's rows: entry (p, q) is the row's entry q. -/
theorem bias_rows0_apply (b : FVec Ideal S1x146 .f32) (p : Fin 5000) (q : Fin 146) :
    broadcastTo S5000x146 (shapeCast S1x146 b shapeCasts_S1x146_S1x146) broadcasts_S1x146_S5000x146 (ix2 p q) = b (ix2 0 q) := by
  rw [shapeCast_self]
  exact broadcastTo_apply b broadcasts_S1x146_S5000x146 (ix2 p q) (ix2 0 q) (fun a => match a with
    | ⟨0, _⟩ => by show 0 = if (1 : Nat) = 1 then 0 else p.val; rw [if_pos rfl]
    | ⟨1, _⟩ => by show q.val = if (146 : Nat) = 1 then 0 else q.val; rw [if_neg (by decide)])

/-- What the body stores, entry by entry: the block's row p times column q of the weights, plus the bias row's entry q. -/
theorem embed_payload_apply (x : Vec Ideal S5000x128 .f32) (w : Vec Ideal S128x146 .f32) (b : Vec Ideal S1x146 .f32) (p : Fin 5000) (q : Fin 146) :
    k0_pay1 (F := Ideal) x w b (ix2 p q) = (∑ k : Fin 128, x (ix2 p k) * w (ix2 k q)) + b (ix2 0 q) := by
  unfold k0_pay1
  refine (addf_apply _ _ (ix2 p q)).trans ?_
  refine congrArg₂ (· + ·) ?_ (bias_rows0_apply b p q)
  exact (block_product0_apply (truncf .bf16 x bitsLt_bf16_f32) (truncf .bf16 w bitsLt_bf16_f32) p q).trans
    (Finset.sum_congr rfl fun k _ => rfl)

/-- The stored entry against the whole arrays: when the block's row p is row r of the features, and the block's weights
    and bias row are the arrays' own, entry (p, q) of what the body stores is entry (r, q) of the product plus the bias row. -/
theorem embed_entry (X : FVec Ideal (⟨2, ![50000, 128]⟩ : Shape) .f32) (W : FVec Ideal (⟨2, ![128, 146]⟩ : Shape) .f32)
    (B : FVec Ideal (⟨2, ![1, 146]⟩ : Shape) .f32)
    (x : Vec Ideal S5000x128 .f32) (w : Vec Ideal S128x146 .f32) (b : Vec Ideal S1x146 .f32)
    (r : Fin 50000) (p : Fin 5000) (q : Fin 146)
    (hx : ∀ k : Fin 128, x (ix2 p k) = X (ix2 r k)) (hw : ∀ k : Fin 128, w (ix2 k q) = W (ix2 k q))
    (hb : b (ix2 0 q) = B (ix2 0 q)) :
    k0_pay1 (F := Ideal) x w b (ix2 p q) = Cert.Spec.addRow (Cert.Spec.mm X W) B (ix2 r q) := by
  rw [embed_payload_apply]
  show _ = (∑ k : Fin 128, X (ix2 r k) * W (ix2 k q)) + B (ix2 0 q)
  rw [hb]
  exact congrArg (· + B (ix2 0 q)) (Finset.sum_congr rfl fun k _ => by rw [hx k, hw k])

/-! ## From the ten row blocks to the array -/

/-- The index maps over the ten grid points: point t reads block row t of the features and writes block row t of the
    output; the weights and the bias row are one block each. -/
theorem block_rows0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What point t writes back is block row t of the product plus the bias row. -/
theorem embed_flushed_eq (c : Dev nD) (t : Fin cfg0.N) :
    (dat0 (F := Ideal) V c).flushed 3 t = ((cfg0.win 3).blk t).view.read (Elt Ideal)
      (Cert.Spec.addRow (Cert.Spec.mm (V c main_arg0) (V c main_arg3)) (V c main_v4)) := by
  show (cfg0.win 3).cut (grid0.coords t) ((dat0 V c).after 3 t) = _
  rw [after0_3]
  unfold out0_3
  rw [View.canon_unit_zero origin_offsets0]
  simp only [View.ld_unit_zero (S := S5000x128) origin_offsets0, View.ld_unit_zero (S := S128x146) origin_offsets0,
    View.ld_unit_zero (S := S1x146) origin_offsets0]
  refine funext fun (j : S5000x146.Idx) => ?_
  obtain ⟨p, q, rfl⟩ : ∃ (p : Fin 5000) (q : Fin 146), j = ix2 p q := ⟨j 0, j 1, eq_ix2 j⟩
  have hN : grid0.N = 10 := N_0
  have ht : t.val < 10 := Nat.lt_of_lt_of_eq t.isLt hN
  have hp : p.val < 5000 := p.isLt
  have hr : t.val * 5000 + p.val < 50000 := by omega
  obtain ⟨o0, o1, x0, x1, w0, w1, b0, b1⟩ := block_rows0 t
  show k0_pay1 (F := Ideal) (iblk0 V c 0 t) (iblk0 V c 1 t) (iblk0 V c 2 t) (ix2 p q)
    = Cert.Spec.addRow (Cert.Spec.mm (V c main_arg0) (V c main_arg3)) (V c main_v4) (((cfg0.win 3).blk t).view.emb (ix2 p q))
  have hout : ((cfg0.win 3).blk t).view.emb (ix2 p q) = ix2 (⟨t.val * 5000 + p.val, hr⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 146 + 1 * q.val = q.val; omega
  rw [hout]
  refine embed_entry (V c main_arg0) (V c main_arg3) (V c main_v4) (iblk0 V c 0 t) (iblk0 V c 1 t) (iblk0 V c 2 t)
    ⟨t.val * 5000 + p.val, hr⟩ p q (fun k => ?_) (fun k => ?_) ?_
  · show V c main_arg0 (((cfg0.win 0).blk t).view.emb (ix2 p k)) = V c main_arg0 (ix2 (⟨t.val * 5000 + p.val, hr⟩ : Fin 50000) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 146 + 1 * q.val = q.val; omega
  · show V c main_v4 (((cfg0.win 2).blk t).view.emb (ix2 0 q)) = V c main_v4 (ix2 0 q)
    refine congrArg (V c main_v4) (funext fun a => Fin.ext ?_)
    match a with
    | ⟨0, _⟩ => show win0_2.index t (0 : Fin 2) * 1 + 1 * 0 = 0; omega
    | ⟨1, _⟩ => show win0_2.index t (1 : Fin 2) * 146 + 1 * q.val = q.val; omega

/-- A row of the output lies in point t's block exactly when each of its coordinates is in the block's range. -/
theorem mem_row_block0 (t : Fin cfg0.N) (i : S50000x146.Idx) :
    i ∈ ((cfg0.win 3).blk t).view.set ↔ ∀ a : Fin 2, win0_3.index t a * S5000x146.size a ≤ (i a).val
      ∧ (i a).val < win0_3.index t a * S5000x146.size a + S5000x146.size a := by
  show i ∈ ((View.whole main_v5).slice (win0_3.rect t)).set ↔ _
  rw [View.set_slice_whole, Rect.mem_set_unit]
  exact Iff.rfl

/-- Every row of the output is written back: row r lies in the block of point r / 5000. -/
theorem rows_covered0 (i : S50000x146.Idx) :
    ∃ t : Fin cfg0.N, (cfg0.win 3).flush t = true ∧ i ∈ ((cfg0.win 3).blk t).view.set := by
  have hi0 : (i 0).val < 50000 := (i 0).isLt
  have hi1 : (i 1).val < 146 := (i 1).isLt
  have hN : grid0.N = 10 := N_0
  obtain ⟨t, ht⟩ : ∃ t : Fin cfg0.N, t.val = (i 0).val / 5000 :=
    ⟨⟨(i 0).val / 5000, Nat.lt_of_lt_of_eq (show (i 0).val / 5000 < 10 by omega) hN.symm⟩, rfl⟩
  obtain ⟨o0, o1, -⟩ := block_rows0 t
  refine ⟨t, flush0_3 t, ?_⟩
  rw [mem_row_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 146 ≤ (i 1).val ∧ (i 1).val < win0_3.index t (1 : Fin 2) * 146 + 146; omega

/-- After the embedding call every row block has been written back: the output array is the product of the node
    features with the embedding weights, plus the bias row on every row. -/
theorem final0 (c : Dev nD) :
    (dat0 (F := Ideal) V c).arrAt 3 cfg0.N = Cert.Spec.addRow (Cert.Spec.mm (V c main_arg0) (V c main_arg3)) (V c main_v4) :=
  (dat0 (F := Ideal) V c).arrAt_eq_of_cover 3
    (Cert.Spec.addRow (Cert.Spec.mm (V c main_arg0) (V c main_arg3)) (V c main_v4))
    (fun t _ => embed_flushed_eq V c t) rows_covered0

end Cert.KernelIdeal.RegionValue

end
-- ==== Proof.RefLayers.lean ====
/- The reference's layers read index by index: its embedding is the product plus the bias row, its dense step the
   product, its bias-and-clip step the sum with the bias row clipped below at zero. -/
import proofs.«407027_j41016937677161_1_alg».proof.Proof.Gen.ReferenceIdeal.Read
import proofs.«407027_j41016937677161_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Gen

/-- The host's product of a 50000 × 146 array with a 146 × 146 array is the sum over the inner index, entry by entry. -/
theorem dense_eq (h : FVec Ideal S50000x146 .f32) (w : FVec Ideal S146x146 .f32) :
    Host.dotGeneral dot_S50000x146_S146x146_S50000x146_1_0_0_1_n_n none h w = Cert.Spec.mm h w := by
  funext i
  simp only [Host.dotGeneral]
  rw [Ideal.dotGeneral_apply, ← Equiv.sum_comp (ValueIdx.contrEquiv1 dot_S50000x146_S146x146_S50000x146_1_0_0_1_n_n 146 rfl rfl).symm]
  show _ = ∑ q : Fin 146, h (ix2 (i 0) q) * w (ix2 q (i 1))
  refine Finset.sum_congr rfl fun k _ => ?_
  have hk := ValueIdx.contrEquiv1_symm_val dot_S50000x146_S146x146_S50000x146_1_0_0_1_n_n 146 rfl rfl k
  -- the left operand is read at (row of i, k) …
  have el : dot_S50000x146_S146x146_S50000x146_1_0_0_1_n_n.lhsIdx i ((ValueIdx.contrEquiv1 dot_S50000x146_S146x146_S50000x146_1_0_0_1_n_n 146 rfl rfl).symm k) = ix2 (i 0) k := funext fun a => Fin.ext (by
    match a with
    | ⟨0, _⟩ => exact Read.lhs_main_v10_0 _ _
    | ⟨1, _⟩ => exact (Read.lhs_main_v10_1 _ _).trans hk)
  -- … and the right operand at (k, column of i)
  have er : dot_S50000x146_S146x146_S50000x146_1_0_0_1_n_n.rhsIdx i ((ValueIdx.contrEquiv1 dot_S50000x146_S146x146_S50000x146_1_0_0_1_n_n 146 rfl rfl).symm k) = ix2 k (i 1) := funext fun a => Fin.ext (by
    match a with
    | ⟨0, _⟩ => exact (Read.rhs_main_v10_0 _ _).trans hk
    | ⟨1, _⟩ => exact Read.rhs_main_v10_1 _ _)
  rw [el, er]
  rfl

/-- The reference's embedding: the product of the features with the weights plus the bias on every row, the bias
    given as any 1 × 146 row that holds it. -/
theorem embed_eq (x0 : FVec Ideal S50000x128 .f32) (x3 : FVec Ideal S128x146 .f32) (x4 : FVec Ideal S146 .f32)
    (b2 : FVec Ideal S1x146 .f32) (hb : ∀ q : Fin 146, b2 (ix2 0 q) = x4 (ix1 q)) :
    Cert.ReferenceIdeal.Read.val_main_v7 (F := Ideal) x0 x3 x4 = Cert.Spec.addRow (Cert.Spec.mm x0 x3) b2 := by
  funext i
  -- the product's operands are read at (row of i, k) and (k, column of i); the bias at the column of i
  have e1 : ∀ k : Fin 128, Read.lidx_main_v4 i k = ix2 (i 0) k := fun k =>
    funext fun a => Fin.ext (by match a with | ⟨0, _⟩ => rfl | ⟨1, _⟩ => rfl)
  have e2 : ∀ k : Fin 128, Read.ridx_main_v4 i k = ix2 k (i 1) := fun k =>
    funext fun a => Fin.ext (by match a with | ⟨0, _⟩ => rfl | ⟨1, _⟩ => rfl)
  have e3 : Read.idx_main_v5 (Read.idx_main_v6 i) = ix1 (n := 146) (i 1) :=
    funext fun a => Fin.ext (by match a with | ⟨0, _⟩ => rfl)
  rw [Read.val_main_v7_apply, Read.val_main_v4_apply, Read.val_main_v6_apply, Read.val_main_v5_apply]
  simp only [e1, e2, e3, Ideal.addf_def]
  rw [← hb (i 1)]
  rfl

/-- The reference's bias-and-clip step on aggregated features `a`: the bias vector broadcast over the rows, added, and
    the maximum with zero taken, the bias given as any 1 × 146 row that holds it. -/
theorem biasRelu_eq (a : FVec Ideal S50000x146 .f32) (b1 : FVec Ideal S146 .f32)
    (b2 : FVec Ideal S1x146 .f32) (hb : ∀ q : Fin 146, b2 (ix2 0 q) = b1 (ix1 q)) :
    maximumf (addf a (broadcastInDim S50000x146 ![0, 1] bcast_S1x146_S50000x146_0_1 (broadcastInDim S1x146 ![1] bcast_S146_S1x146_1 b1)))
        (broadcastInDim S50000x146 ![] bcast_S_S50000x146 (constant (F := Ideal) S_ .f32 0x00000000#32))
      = Cert.Spec.relu0 (Cert.Spec.addRow a b2) := by
  funext i
  -- the two broadcasts of the bias read it at the column of i
  have r1 : broadcastInDim S50000x146 ![0, 1] bcast_S1x146_S50000x146_0_1 (broadcastInDim S1x146 ![1] bcast_S146_S1x146_1 b1) i
      = b1 (ix1 (n := 146) (i 1)) := by
    refine (broadcastInDim_apply _ bcast_S1x146_S50000x146_0_1 _ i (ix2 0 (i 1)) (fun a => match a with
      | ⟨0, _⟩ => by show 0 = if (1 : Nat) = 1 then 0 else (i 0).val; rw [if_pos rfl]
      | ⟨1, _⟩ => by show (i 1).val = if (146 : Nat) = 1 then 0 else (i 1).val; rw [if_neg (by decide)])).trans ?_
    exact broadcastInDim_apply _ bcast_S146_S1x146_1 b1 (ix2 0 (i 1)) (ix1 (n := 146) (i 1)) (fun a => match a with
      | ⟨0, _⟩ => by show (i 1).val = if (146 : Nat) = 1 then 0 else (i 1).val; rw [if_neg (by decide)])
  -- the broadcast of the zero constant reads zero everywhere
  have r2 : broadcastInDim S50000x146 ![] bcast_S_S50000x146 (constant (F := Ideal) S_ .f32 0x00000000#32) i
      = Ideal.ofBits .f32 0x00000000#32 :=
    (broadcastInDim_apply _ bcast_S_S50000x146 _ i ix0 (fun a => a.elim0)).trans (constant_apply _ _)
  rw [maximumf_apply, addf_apply, r1, r2, ← hb (i 1)]
  rfl

end Cert.ReferenceIdeal.RefValue

end
-- ==== Proof.WalkEmbed.lean ====
/- The program's buffers followed from the launch through the opening host operations and the embedding call. The argument arrays are named as launched; the source and destination ids and the embedded node features are stated as the reference's own stages of those arguments, and the buffers later layers read (the ids, the weight and bias stacks, the graph ids) are carried unchanged. -/
import proofs.«407027_j41016937677161_1_alg».proof.Proof.Gen.KernelIdeal.Frame
import proofs.«407027_j41016937677161_1_alg».proof.Proof.StretchEnds
import proofs.«407027_j41016937677161_1_alg».proof.Proof.Region0
import proofs.«407027_j41016937677161_1_alg».proof.Proof.RefLayers
import Idealize.ShloMosaic.Lib.ValueLayout

set_option maxRecDepth 16384

noncomputable section

namespace Cert.KernelIdeal.Walk

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The arguments as launched -/

abbrev A0 (c : Dev nD) : FVec Ideal S50000x128 .f32 := m ((c : Thread nD τ).loc main_arg0)
abbrev A1 (c : Dev nD) : IVec S2x800000 32 := m ((c : Thread nD τ).loc main_arg1)
abbrev A2 (c : Dev nD) : IVec S50000 32 := m ((c : Thread nD τ).loc main_arg2)
abbrev A3 (c : Dev nD) : FVec Ideal S128x146 .f32 := m ((c : Thread nD τ).loc main_arg3)
abbrev A4 (c : Dev nD) : FVec Ideal S146 .f32 := m ((c : Thread nD τ).loc main_arg4)
abbrev A5 (c : Dev nD) : FVec Ideal S4x146x146 .f32 := m ((c : Thread nD τ).loc main_arg5)
abbrev A6 (c : Dev nD) : FVec Ideal S4x146 .f32 := m ((c : Thread nD τ).loc main_arg6)

/-- Every source id lies in [0, 50000) as a signed word: what the precondition gives, stated over the reference's
    own reading of the source ids. -/
def SrcInRange (c : Dev nD) : Prop :=
  ∀ e, IntOp.cmpi .sge (Cert.ReferenceIdeal.Read.val_main_v1 (F := Ideal) (A1 m c) e) 0#32 = 1#1
    ∧ IntOp.cmpi .slt (Cert.ReferenceIdeal.Read.val_main_v1 (F := Ideal) (A1 m c) e) 50000#32 = 1#1

/-! ## After the opening host operations -/

theorem W1_keep (c : Dev nD) (b : Ref sig .tc) (hb : ∀ y ∈ [main_v0, main_v1, main_v2, main_v3, main_v4], b ≠ y) :
    W1 m ρ c (Proc.devRef .tc b) = W0 m ρ c (Proc.devRef .tc b) := Stretch.keepOpen (W0 m ρ c) b hb

theorem W1_src (c : Dev nD) : W1 m ρ c (Proc.devRef .tc main_v1) = Cert.ReferenceIdeal.Read.val_main_v1 (F := Ideal) (A1 m c) :=
  (Stretch.src_of (W0 m ρ c)).trans rfl

theorem W1_dst (c : Dev nD) : W1 m ρ c (Proc.devRef .tc main_v3) = Cert.ReferenceIdeal.Read.val_main_v3 (F := Ideal) (A1 m c) :=
  (Stretch.dst_of (W0 m ρ c)).trans rfl

theorem W1_embBias (c : Dev nD) : W1 m ρ c (Proc.devRef .tc main_v4) = shapeCast S1x146 (A4 m c) shapeCasts_S146_S1x146 :=
  (Stretch.embBias_of (W0 m ρ c)).trans rfl

/-! ## After the embedding call -/

/-- The embedded node features are the reference's: the features times the embedding weights plus the bias. -/
theorem W2_h (c : Dev nD) (hsrc : SrcInRange m c) :
    W2 m ρ c (Proc.devRef .tc main_v5) = Cert.ReferenceIdeal.Read.val_main_v7 (F := Ideal) (A0 m c) (A3 m c) (A4 m c) := by
  refine (W2_arr m ρ c 3).trans ((Cert.KernelIdeal.RegionValue.final0 (V1 m ρ) c).trans ?_)
  have e0 : V1 m ρ c main_arg0 = A0 m c := W1_keep m ρ c main_arg0 (by decide)
  have e3 : V1 m ρ c main_arg3 = A3 m c := W1_keep m ρ c main_arg3 (by decide)
  have e4 : V1 m ρ c main_v4 = shapeCast S1x146 (A4 m c) shapeCasts_S146_S1x146 := W1_embBias m ρ c
  rw [e0, e3, e4]
  exact (Cert.ReferenceIdeal.RefValue.embed_eq (A0 m c) (A3 m c) (A4 m c) _
    (fun q => ValueIdx.shapeCast_a_1a_apply _ _ 0 q)).symm

theorem W2_src (c : Dev nD) : W2 m ρ c (Proc.devRef .tc main_v1) = Cert.ReferenceIdeal.Read.val_main_v1 (F := Ideal) (A1 m c) :=
  (W2_of_ne m ρ c main_v1 (by decide)).trans (W1_src m ρ c)
theorem W2_dst (c : Dev nD) : W2 m ρ c (Proc.devRef .tc main_v3) = Cert.ReferenceIdeal.Read.val_main_v3 (F := Ideal) (A1 m c) :=
  (W2_of_ne m ρ c main_v3 (by decide)).trans (W1_dst m ρ c)
theorem W2_a5 (c : Dev nD) : W2 m ρ c (Proc.devRef .tc main_arg5) = A5 m c :=
  (W2_of_ne m ρ c main_arg5 (by decide)).trans (W1_keep m ρ c main_arg5 (by decide))
theorem W2_a6 (c : Dev nD) : W2 m ρ c (Proc.devRef .tc main_arg6) = A6 m c :=
  (W2_of_ne m ρ c main_arg6 (by decide)).trans (W1_keep m ρ c main_arg6 (by decide))
theorem W2_a2 (c : Dev nD) : W2 m ρ c (Proc.devRef .tc main_arg2) = A2 m c :=
  (W2_of_ne m ρ c main_arg2 (by decide)).trans (W1_keep m ρ c main_arg2 (by decide))

end Cert.KernelIdeal.Walk

end
-- ==== Proof.Stretch0.lean ====
/- The host operations of one graph-convolution layer, between its two kernel calls and after them: the layer's weight matrix is cut out of the stack of four and laid out as 146 × 146; the looked-up rows are added into the rows their destination ids name, starting from zeros; the layer's bias is cut out of the stack of four and laid out as one 1 × 146 row. Each lemma reads one result off an arbitrary valuation the operations start from. -/
import proofs.«407027_j41016937677161_1_alg».proof.Proof.Gen.KernelIdeal.Launch
import proofs.«407027_j41016937677161_1_alg».proof.Proof.KeepTac
import Idealize.ShloMosaic.Lib.StableHlo.Run
import Idealize.ShloMosaic.PureOps.Ideal

set_option maxRecDepth 16384

noncomputable section

namespace Cert.KernelIdeal.Stretch

open Idealize.ShloMosaic Idealize.ShloMosaic.TcCoe Idealize.SL.Sem
open Cert.KernelIdeal Cert.KernelIdeal.Gen

variable (W : Valuation τ sig (Elt Ideal))

/-- Cutting out the layer's weight matrix writes only its own two buffers. -/
theorem keepA (b : Ref sig .tc) (hb : ∀ y ∈ [main_v6, main_v7], b ≠ y) :
    StableHlo.after hostOps1 W (Proc.devRef .tc b) = W (Proc.devRef .tc b) := by
  keep_of hostOps1 hb

/-- The row lookup writes only its own buffers. -/
theorem keepB (b : Ref sig .tc) (hb : ∀ y ∈ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v9], b ≠ y) :
    StableHlo.after hostOps2 W (Proc.devRef .tc b) = W (Proc.devRef .tc b) := by
  keep_of hostOps2 hb

/-- The aggregation and the bias layout write only their own buffers. -/
theorem keepC (b : Ref sig .tc) (hb : ∀ y ∈ [main_cst, main_v10, main_v11, main_v12, main_v13, main_v14, main_v15], b ≠ y) :
    StableHlo.after hostOps2_1 W (Proc.devRef .tc b) = W (Proc.devRef .tc b) := by
  keep_of hostOps2_1 hb

/-- The layer's weight matrix: slab 0 of the stack, as a 146 × 146 array. -/
theorem wg_of : StableHlo.after hostOps1 W (Proc.devRef .tc main_v7)
    = shapeCast S146x146 (extractStridedSlice S1x146x146 ![0, 0, 0] (W (Proc.devRef .tc main_arg5)) slices_S4x146x146_S1x146x146_0_0_0) shapeCasts_S1x146x146_S146x146 := by
  after_results <;> rfl

/-- The aggregated features: zeros, with every looked-up row added into the row its destination id names. -/
theorem agg_of : StableHlo.after hostOps2_1 W (Proc.devRef .tc main_v12)
    = Host.scatterAdd scatter_S50000x146_S800000x1_S800000x146_1_0_0_1
        (broadcastInDim S50000x146 ![] bcast_S_S50000x146 (constant (F := Ideal) S_ .f32 0x00000000#32))
        (broadcastInDim S800000x1 ![0] bcast_S800000_S800000x1_0 (W (Proc.devRef .tc main_v3)))
        (W (Proc.devRef .tc main_v9)) := by
  after_results <;> rfl

/-- The layer's bias: row 0 of the stack as a vector, then as one 1 × 146 row. -/
theorem bias_of : StableHlo.after hostOps2_1 W (Proc.devRef .tc main_v15)
    = shapeCast S1x146 (shapeCast S146 (extractStridedSlice S1x146 ![0, 0] (W (Proc.devRef .tc main_arg6)) slices_S4x146_S1x146_0_0) shapeCasts_S1x146_S146) shapeCasts_S146_S1x146 := by
  after_results <;> rfl

end Cert.KernelIdeal.Stretch

end
-- ==== Proof.Region1.lean ====
/- A dense call: ten row blocks of 5000 nodes, each the block's features times the whole 146 × 146 weight matrix. -/
import proofs.«407027_j41016937677161_1_alg».proof.Proof.Gen.KernelIdeal.Frame
import proofs.«407027_j41016937677161_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- A whole-block access starts at offset zero on both axes. -/
theorem zero_offsets1 : (![0, 0] : Fin 2 → Nat) = fun _ => 0 := funext fun a => by fin_cases a <;> rfl

/-- The left operand of the block product is read at the output's row … -/
theorem lhs_dense1_0 (i : S5000x146.Idx) (q : dot_S5000x146_S146x146_S5000x146_1_0_0_1_n_n.contr.Idx) :
    (dot_S5000x146_S146x146_S5000x146_1_0_0_1_n_n.lhsIdx i q 0).val = (i 0).val := by
  unfold DotDims.lhsIdx
  rw [dif_neg (show ¬(0 : Fin S5000x146.rank) ∈ dot_S5000x146_S146x146_S5000x146_1_0_0_1_n_n.lhsBatch by decide), dif_pos (show (0 : Fin S5000x146.rank) ∈ dot_S5000x146_S146x146_S5000x146_1_0_0_1_n_n.lhsNonContracting by decide)]
  rfl
/-- … and at the inner index as its column. -/
theorem lhs_dense1_1 (i : S5000x146.Idx) (q : dot_S5000x146_S146x146_S5000x146_1_0_0_1_n_n.contr.Idx) :
    (dot_S5000x146_S146x146_S5000x146_1_0_0_1_n_n.lhsIdx i q 1).val = (q ⟨0, by decide⟩).val :=
  dot_S5000x146_S146x146_S5000x146_1_0_0_1_n_n.lhsIdx_val_of_single rfl i q
/-- The right operand is read at the inner index as its row … -/
theorem rhs_dense1_0 (i : S5000x146.Idx) (q : dot_S5000x146_S146x146_S5000x146_1_0_0_1_n_n.contr.Idx) :
    (dot_S5000x146_S146x146_S5000x146_1_0_0_1_n_n.rhsIdx i q 0).val = (q ⟨0, by decide⟩).val :=
  dot_S5000x146_S146x146_S5000x146_1_0_0_1_n_n.rhsIdx_val_of_single rfl i q
/-- … and at the output's column. -/
theorem rhs_dense1_1 (i : S5000x146.Idx) (q : dot_S5000x146_S146x146_S5000x146_1_0_0_1_n_n.contr.Idx) :
    (dot_S5000x146_S146x146_S5000x146_1_0_0_1_n_n.rhsIdx i q 1).val = (i 1).val := by
  unfold DotDims.rhsIdx
  rw [dif_neg (show ¬(1 : Fin S146x146.rank) ∈ dot_S5000x146_S146x146_S5000x146_1_0_0_1_n_n.rhsBatch by decide), dif_pos (show (1 : Fin S146x146.rank) ∈ dot_S5000x146_S146x146_S5000x146_1_0_0_1_n_n.rhsNonContracting by decide)]
  rfl

/-- What the body stores, entry by entry: entry (p, q) of the block is the sum over the inner index k of the feature
    block's (p, k) times the weight matrix's (k, q). Narrowing to bf16 changes nothing over the extended reals, and the
    accumulator starts at zero. -/
theorem dense_block1_apply (x0 : Vec Ideal S5000x146 .f32) (x1 : Vec Ideal S146x146 .f32) (p : Fin 5000) (q : Fin 146) :
    k1_pay1 (F := Ideal) x0 x1 (ValueIdx.ix2 p q) = ∑ k : Fin 146, x0 (ValueIdx.ix2 p k) * x1 (ValueIdx.ix2 k q) := by
  unfold k1_pay1
  simp only [shapeCast_self]
  refine (Ideal.matmul_constant_zero_apply dot_S5000x146_S146x146_S5000x146_1_0_0_1_n_n none _ _ (ValueIdx.ix2 p q)).trans ?_
  rw [← Equiv.sum_comp (ValueIdx.contrEquiv1 dot_S5000x146_S146x146_S5000x146_1_0_0_1_n_n 146 rfl rfl).symm]
  refine Finset.sum_congr rfl fun k _ => ?_
  have hk := ValueIdx.contrEquiv1_symm_val dot_S5000x146_S146x146_S5000x146_1_0_0_1_n_n 146 rfl rfl k
  have el : dot_S5000x146_S146x146_S5000x146_1_0_0_1_n_n.lhsIdx (ValueIdx.ix2 p q) ((ValueIdx.contrEquiv1 dot_S5000x146_S146x146_S5000x146_1_0_0_1_n_n 146 rfl rfl).symm k) = ValueIdx.ix2 p k := funext fun a => Fin.ext (by
    match a with
    | ⟨0, _⟩ => exact lhs_dense1_0 _ _
    | ⟨1, _⟩ => exact (lhs_dense1_1 _ _).trans hk)
  have er : dot_S5000x146_S146x146_S5000x146_1_0_0_1_n_n.rhsIdx (ValueIdx.ix2 p q) ((ValueIdx.contrEquiv1 dot_S5000x146_S146x146_S5000x146_1_0_0_1_n_n 146 rfl rfl).symm k) = ValueIdx.ix2 k q := funext fun a => Fin.ext (by
    match a with
    | ⟨0, _⟩ => exact (rhs_dense1_0 _ _).trans hk
    | ⟨1, _⟩ => exact rhs_dense1_1 _ _)
  rw [el, er]
  rfl

/-- Where the windows sit at each of the ten points: at point t the feature window and the output window are at row
    block t, and the weight window at the one block its array has. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature window's block at point t is rows 5000·t … 5000·t + 4999 of the feature array. -/
theorem feature_block1_apply (c : Dev nD) (t : Fin cfg1.N) (y : S5000x146.Idx) (i : S50000x146.Idx)
    (h0 : (i 0).val = t.val * 5000 + (y 0).val) (h1 : (i 1).val = (y 1).val) :
    (iblk1 V c 0 t : Vec Ideal S5000x146 .f32) y = (V c main_v5 : S50000x146.Idx → Elt Ideal .f32) i := by
  obtain ⟨e0, e1, -, -, -, -⟩ := block_indices1 t
  unfold iblk1
  rw [View.read_apply]
  show V c main_v5 _ = V c main_v5 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 146 + 1 * (y 1).val = (i 1).val; rw [e1, h1]; omega

/-- The weight window's block at every point is the whole weight matrix. -/
theorem weight_block1_apply (c : Dev nD) (t : Fin cfg1.N) (y : S146x146.Idx) :
    (iblk1 V c 1 t : Vec Ideal S146x146 .f32) y = (V c main_v7 : S146x146.Idx → Elt Ideal .f32) y := by
  obtain ⟨-, -, e2, e3, -, -⟩ := block_indices1 t
  unfold iblk1
  rw [View.read_apply]
  show V c main_v7 _ = V c main_v7 _
  congr 1
  funext a
  apply Fin.ext
  match a with
  | ⟨0, _⟩ => show win1_1.index t (0 : Fin 2) * 146 + 1 * (y 0).val = (y 0).val; rw [e2]; omega
  | ⟨1, _⟩ => show win1_1.index t (1 : Fin 2) * 146 + 1 * (y 1).val = (y 1).val; rw [e3]; omega

/-- One point's product is a block of the whole product. If the feature block x0 is rows 5000·r … of the array X and
    the weight block x1 is the matrix W, then entry j of the block product is entry i of X·W whenever i is j moved down
    by 5000·r rows: both are the same sum over the inner index, of the same row of features against the same column of
    weights. -/
theorem dense_point1 (x0 : Vec Ideal S5000x146 .f32) (x1 : Vec Ideal S146x146 .f32)
    (X : FVec Ideal (⟨2, ![50000, 146]⟩ : Shape) .f32) (W : FVec Ideal (⟨2, ![146, 146]⟩ : Shape) .f32) (r : Nat)
    (hX : ∀ (y : S5000x146.Idx) (i : S50000x146.Idx), (i 0).val = r * 5000 + (y 0).val → (i 1).val = (y 1).val → x0 y = X i)
    (hW : ∀ y : S146x146.Idx, x1 y = W y)
    (j : S5000x146.Idx) (i : S50000x146.Idx) (h0 : (i 0).val = r * 5000 + (j 0).val) (h1 : (i 1).val = (j 1).val) :
    k1_pay1 (F := Ideal) x0 x1 j = Cert.Spec.mm X W i := by
  obtain ⟨p, q, rfl⟩ : ∃ (p : Fin 5000) (q : Fin 146), j = ValueIdx.ix2 p q := ⟨j 0, j 1, ValueIdx.eq_ix2 j⟩
  obtain ⟨r', q', rfl⟩ : ∃ (r' : Fin 50000) (q' : Fin 146), i = ValueIdx.ix2 r' q' := ⟨i 0, i 1, ValueIdx.eq_ix2 i⟩
  have hq : q' = q := Fin.ext h1
  subst hq
  have hr : r'.val = r * 5000 + p.val := h0
  rw [dense_block1_apply]
  show _ = ∑ k : Fin 146, X (ValueIdx.ix2 r' k) * W (ValueIdx.ix2 k q')
  refine Finset.sum_congr rfl fun k _ => ?_
  rw [hX (ValueIdx.ix2 p k) (ValueIdx.ix2 r' k) hr rfl, hW]

/-- What point t writes back is block t of the product of the feature array with the weight matrix: row p of the
    block is row 5000·t + p of the array, and its entries are sums over whole rows of features and whole columns of
    weights, all of which the point holds. -/
theorem flushed_dense1 (c : Dev nD) (t : Fin cfg1.N) :
    (dat1 (F := Ideal) V c).flushed 2 t
      = ((cfg1.win 2).blk t).view.read (Elt Ideal) (Cert.Spec.mm (V c main_v5) (V c main_v7)) := by
  show (cfg1.win 2).cut (grid1.coords t) ((dat1 V c).after 2 t) = _
  rw [after1_2]
  unfold out1_2
  rw [View.canon_unit_zero zero_offsets1]
  simp only [View.ld_unit_zero (S := S5000x146) zero_offsets1, View.ld_unit_zero (S := S146x146) zero_offsets1]
  obtain ⟨-, -, -, -, e4, e5⟩ := block_indices1 t
  funext j
  exact dense_point1 (iblk1 V c 0 t) (iblk1 V c 1 t) (V c main_v5) (V c main_v7) t.val
    (feature_block1_apply V c t) (weight_block1_apply V c t) j (((cfg1.win 2).blk t).view.emb j)
    (by show win1_2.index t (0 : Fin 2) * 5000 + 1 * (j 0).val = t.val * 5000 + (j 0).val; rw [e4]; omega)
    (by show win1_2.index t (1 : Fin 2) * 146 + 1 * (j 1).val = (j 1).val; rw [e5]; omega)

/-- An index of the output array lies in point t's block iff each coordinate lies in the block's range on its axis. -/
theorem mem_out_block1 (t : Fin cfg1.N) (i : S50000x146.Idx) :
    i ∈ ((cfg1.win 2).blk t).view.set ↔ ∀ a : Fin 2, win1_2.index t a * S5000x146.size a ≤ (i a).val ∧ (i a).val < win1_2.index t a * S5000x146.size a + S5000x146.size a := by
  show i ∈ ((View.whole main_v8).slice (win1_2.rect t)).set ↔ _
  rw [View.set_slice_whole, Rect.mem_set_unit]
  exact Iff.rfl

/-- The ten row blocks fill the output array: row r lies in the block of point r / 5000. -/
theorem rows_covered1 (i : S50000x146.Idx) :
    ∃ t : Fin cfg1.N, (cfg1.win 2).flush t = true ∧ i ∈ ((cfg1.win 2).blk t).view.set := by
  have hi0 : (i 0).val < 50000 := (i 0).isLt
  have hi1 : (i 1).val < 146 := (i 1).isLt
  have hN : cfg1.N = 10 := N_1
  have ht : (i 0).val / 5000 < cfg1.N := by rw [hN]; omega
  obtain ⟨-, -, -, -, e4, e5⟩ := block_indices1 ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_out_block1]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; rw [e4']; omega
  | ⟨1, _⟩ => show win1_2.index ⟨(i 0).val / 5000, ht⟩ (1 : Fin 2) * 146 ≤ (i 1).val ∧ (i 1).val < win1_2.index ⟨(i 0).val / 5000, ht⟩ (1 : Fin 2) * 146 + 146; rw [e5]; omega

/-- After the dense call every row block has been written back: the output array is the product of the node features
    with the layer's weight matrix. -/
theorem final1 (c : Dev nD) :
    (dat1 (F := Ideal) V c).arrAt 2 cfg1.N = Cert.Spec.mm (V c main_v5) (V c main_v7) :=
  (dat1 (F := Ideal) V c).arrAt_eq_of_cover 2 (Cert.Spec.mm (V c main_v5) (V c main_v7))
    (fun t _ => flushed_dense1 V c t) (rows_covered1)

end Cert.KernelIdeal.RegionValue

end
-- ==== Proof.Region2.lean ====
/- A bias-and-clip call: ten row blocks of 5000 nodes, each entry the aggregated feature plus its column's bias, clipped below at zero. -/
import proofs.«407027_j41016937677161_1_alg».proof.Proof.Gen.KernelIdeal.Frame
import proofs.«407027_j41016937677161_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

/-- The body's one store, and each of its loads, starts at the origin of its buffer. -/
theorem origin_r2 : (![0, 0] : Fin 2 → Nat) = fun _ => 0 := funext fun a => by fin_cases a <;> rfl

/-- The body's arithmetic at entry (p, q) of a block: the feature block's entry plus the bias row's entry of column q,
    clipped below at zero. The two shape casts keep the shape; the broadcast repeats the one row over the 5000 rows. -/
theorem bias_clip_at_r2 (x0 : Vec Ideal S5000x146 .f32) (x1 : Vec Ideal S1x146 .f32) (p : Fin 5000) (q : Fin 146) :
    k2_pay1 (F := Ideal) x0 x1 (ix2 p q) = max (x0 (ix2 p q) + x1 (ix2 (0 : Fin 1) q)) (Ideal.ofBits .f32 0x00000000#32) := by
  unfold k2_pay1
  rw [maximumf_apply, addf_apply, broadcast_apply, shapeCast_self, shapeCast_self, broadcastTo_1b_ab_apply]
  rfl

/-- The block indices at grid point t: the feature window and the output window are at row block t, column block 0;
    the bias window stays at its one block. -/
theorem block_indices_r2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, q) of what the body stores is entry i of the whole-array function, once the feature block's entry (p, q)
    is the feature array's entry i, i is in column q, and the bias block is the bias row. -/
theorem stored_entry_r2 (x0 : Vec Ideal S5000x146 .f32) (x1 : Vec Ideal S1x146 .f32)
    (y : FVec Ideal S50000x146 .f32) (b : FVec Ideal S1x146 .f32) (p : Fin 5000) (q : Fin 146) (i : S50000x146.Idx)
    (h1 : (i 1).val = q.val) (hx : x0 (ix2 p q) = y i) (hb : x1 (ix2 (0 : Fin 1) q) = b (ix2 (0 : Fin 1) q)) :
    k2_pay1 (F := Ideal) x0 x1 (ix2 p q) = Cert.Spec.relu0 (Cert.Spec.addRow y b) i := by
  rw [bias_clip_at_r2, hx, hb]
  have e : (i 1 : Fin 146) = q := Fin.ext h1
  show _ = max (y i + b (ix2 (0 : Fin 1) (i 1))) _
  rw [e]

/-- Entry (p, q) of the feature block read at point t is entry (5000 t + p, q) of the feature array. -/
theorem feature_block_at_r2 (c : Dev nD) (t : Fin cfg2.N) (p : Fin 5000) (q : Fin 146) (i : S50000x146.Idx)
    (h0 : (i 0).val = t.val * 5000 + p.val) (h1 : (i 1).val = q.val) :
    (iblk2 V c 0 t : Vec Ideal S5000x146 .f32) (ix2 p q) = (V c main_v12 : Vec Ideal S50000x146 .f32) i := by
  obtain ⟨e0, e1, -⟩ := block_indices_r2 t
  unfold iblk2
  show V c main_v12 (((cfg2.win 0).blk t).view.emb (ix2 p q)) = V c main_v12 i
  refine congrArg (V c main_v12) (funext fun a => Fin.ext ?_)
  match a with
  | ⟨0, _⟩ => show win2_0.index t (0 : Fin 2) * 5000 + 1 * p.val = (i 0).val; omega
  | ⟨1, _⟩ => show win2_0.index t (1 : Fin 2) * 146 + 1 * q.val = (i 1).val; omega

/-- Entry (0, q) of the bias block read at any point is entry (0, q) of the bias row. -/
theorem bias_block_at_r2 (c : Dev nD) (t : Fin cfg2.N) (q : Fin 146) :
    (iblk2 V c 1 t : Vec Ideal S1x146 .f32) (ix2 (0 : Fin 1) q) = (V c main_v15 : Vec Ideal S1x146 .f32) (ix2 (0 : Fin 1) q) := by
  obtain ⟨-, -, e2, e3, -⟩ := block_indices_r2 t
  unfold iblk2
  show V c main_v15 (((cfg2.win 1).blk t).view.emb (ix2 (0 : Fin 1) q)) = V c main_v15 (ix2 (0 : Fin 1) q)
  refine congrArg (V c main_v15) (funext fun a => Fin.ext ?_)
  match a with
  | ⟨0, _⟩ => show win2_1.index t (0 : Fin 2) * 1 + 1 * 0 = 0; omega
  | ⟨1, _⟩ => show win2_1.index t (1 : Fin 2) * 146 + 1 * q.val = q.val; omega

/-- What grid point t writes back is row block t of the whole-array function: rows 5000 t … 5000 t + 4999 of the
    features plus the bias row, clipped below at zero. -/
theorem block_written_r2 (c : Dev nD) (t : Fin cfg2.N) :
    (dat2 (F := Ideal) V c).flushed 2 t
      = ((cfg2.win 2).blk t).view.read (Elt Ideal) (Cert.Spec.relu0 (Cert.Spec.addRow (V c main_v12) (V c main_v15))) := by
  show (cfg2.win 2).cut (grid2.coords t) ((dat2 (F := Ideal) V c).after 2 t) = _
  rw [after2_2]
  unfold out2_2
  rw [View.canon_unit_zero origin_r2]
  simp only [View.ld_unit_zero (S := S5000x146) origin_r2, View.ld_unit_zero (S := S1x146) origin_r2]
  obtain ⟨-, -, -, -, e4, e5⟩ := block_indices_r2 t
  refine funext fun (j : S5000x146.Idx) => ?_
  obtain ⟨p, q, rfl⟩ : ∃ (p : Fin 5000) (q : Fin 146), j = ix2 p q := ⟨j 0, j 1, eq_ix2 j⟩
  show k2_pay1 (F := Ideal) (iblk2 V c 0 t) (iblk2 V c 1 t) (ix2 p q)
    = Cert.Spec.relu0 (Cert.Spec.addRow (V c main_v12) (V c main_v15)) (((cfg2.win 2).blk t).view.emb (ix2 p q))
  have r0 : ((((cfg2.win 2).blk t).view.emb (ix2 p q) : S50000x146.Idx) 0).val = t.val * 5000 + p.val := by
    show win2_2.index t (0 : Fin 2) * 5000 + 1 * p.val = _; omega
  have r1 : ((((cfg2.win 2).blk t).view.emb (ix2 p q) : S50000x146.Idx) 1).val = q.val := by
    show win2_2.index t (1 : Fin 2) * 146 + 1 * q.val = _; omega
  exact stored_entry_r2 (iblk2 V c 0 t) (iblk2 V c 1 t) (V c main_v12) (V c main_v15) p q (((cfg2.win 2).blk t).view.emb (ix2 p q)) r1
    (feature_block_at_r2 V c t p q (((cfg2.win 2).blk t).view.emb (ix2 p q)) r0 r1) (bias_block_at_r2 V c t q)

/-- An index of the output array lies in point t's block exactly when, on each axis, its coordinate lies in the
    block's range. -/
theorem mem_row_block_r2 (t : Fin cfg2.N) (i : S50000x146.Idx) :
    i ∈ ((cfg2.win 2).blk t).view.set
      ↔ ∀ a : Fin 2, win2_2.index t a * S5000x146.size a ≤ (i a).val ∧ (i a).val < win2_2.index t a * S5000x146.size a + S5000x146.size a := by
  show i ∈ ((View.whole main_v16).slice (win2_2.rect t)).set ↔ _
  rw [View.set_slice_whole, Rect.mem_set_unit]
  exact Iff.rfl

/-- Every index of the output array lies in a block that is written back: row r lies in row block r / 5000. -/
theorem row_blocks_cover_r2 (i : S50000x146.Idx) :
    ∃ t : Fin cfg2.N, (cfg2.win 2).flush t = true ∧ i ∈ ((cfg2.win 2).blk t).view.set := by
  have hN : cfg2.N = 10 := N_2
  have hi0 : (i 0).val < 50000 := (i 0).isLt
  have hi1 : (i 1).val < 146 := (i 1).isLt
  obtain ⟨t, ht⟩ : ∃ t : Fin cfg2.N, t.val = (i 0).val / 5000 := ⟨⟨(i 0).val / 5000, by rw [hN]; omega⟩, rfl⟩
  obtain ⟨-, -, -, -, e4, e5⟩ := block_indices_r2 t
  refine ⟨t, flush2_2 t, ?_⟩
  rw [mem_row_block_r2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 146 ≤ (i 1).val ∧ (i 1).val < win2_2.index t (1 : Fin 2) * 146 + 146; omega

/-- After the bias-and-clip call every row block has been written back: the output array is the aggregated features
    plus the bias row, clipped below at zero. -/
theorem final2 (c : Dev nD) :
    (dat2 (F := Ideal) V c).arrAt 2 cfg2.N = Cert.Spec.relu0 (Cert.Spec.addRow (V c main_v12) (V c main_v15)) :=
  (dat2 (F := Ideal) V c).arrAt_eq_of_cover 2 (Cert.Spec.relu0 (Cert.Spec.addRow (V c main_v12) (V c main_v15)))
    (fun t _ => block_written_r2 V c t) row_blocks_cover_r2

end Cert.KernelIdeal.RegionValue

end
-- ==== Proof.Take.lean ====
/- The kernel's row lookup. A negative id has the table's height added; the row at the resulting id is gathered; and
   where that id is not a row of the 50000-row table the gathered row is replaced by a fill value. When every id lies
   in [0, 50000) no row is replaced, and the lookup is the plain gather at the same ids. -/
import proofs.«407027_j41016937677161_1_alg».proof.Proof.Gen.KernelIdeal.Launch
import Idealize.ShloMosaic.Lib.StableHlo.Run
import Idealize.ShloMosaic.Lib.StableHlo.Predicate
import Idealize.ShloMosaic.Lib.ReduceAll
import Idealize.ShloMosaic.Lib.ValueIdx

set_option maxRecDepth 16384

noncomputable section

namespace Cert.KernelIdeal.TakeValue

open Idealize.ShloMosaic Idealize.ShloMosaic.TcCoe Idealize.SL.Sem
open Cert.KernelIdeal Cert.KernelIdeal.Gen

/-- The ids the gather reads: a negative id has 50000 added, and the vector becomes a column. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Row e is in range when its wrapped id is at least 0 and at most 49999. -/
def inRows (src : IVec S800000 32) : IVec S800000 1 :=
  Host.reduce IntOp.andi
    (andi (cmpi .sge (wrapIdx src) (broadcastInDim S800000x1 ![] bcast_S_S800000x1 (constantI S_ 32 0#32)))
      (cmpi .sle (wrapIdx src) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- What the lookup leaves: the gathered row where the id is in range, the fill value elsewhere. -/
def takeK (lin : FVec Ideal S50000x146 .f32) (src : IVec S800000 32) : FVec Ideal S800000x146 .f32 :=
  select (broadcastInDim S800000x146 ![0] bcast_S800000_S800000x146_0 (inRows src))
    (Host.gather gather_S50000x146_S800000x1_S800000x146_1_0_n_n_0_1_1146 lin (wrapIdx src))
    (broadcastInDim S800000x146 ![] bcast_S_S800000x146 (constant (F := Ideal) S_ .f32 0x7FC00000#32))

/-- A fold by `and` that starts at the bit 1 and meets only bits 1 ends at the bit 1. -/
theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons, h, hf a]
    exact foldl_andi_ones f hf l _ (by decide)

/-- A word that is at least 0 and below 50000, read signed, is not negative, so its wrapped form is the word itself;
    and it is at most 49999. -/
theorem wrapped_word (w : BitVec 32)
    (h : IntOp.cmpi .sge w 0#32 = 1#1 ∧ IntOp.cmpi .slt w 50000#32 = 1#1) :
    Scalar.select (IntOp.cmpi .slt w 0#32) (IntOp.addi w 50000#32) w = w ∧ IntOp.cmpi .sle w 49999#32 = 1#1 := by
  obtain ⟨h0, h1⟩ := h
  have z : (0#32 : BitVec 32).toInt = 0 := by decide
  have t : (50000#32 : BitVec 32).toInt = 50000 := by decide
  have n : (49999#32 : BitVec 32).toInt = 49999 := by decide
  rw [IntOp.cmpi_sge, z] at h0
  rw [IntOp.cmpi_slt, t] at h1
  refine ⟨if_neg ?_, ?_⟩
  · intro hc
    have hlt := IntOp.cmpi_slt.mp hc
    rw [z] at hlt; omega
  · rw [IntOp.cmpi_sle, n]; omega

/-- With every id in [0, 50000) no id is wrapped: the ids the gather reads are the given ids, as a column. -/
theorem wrapIdx_eq (src : IVec S800000 32)
    (hsrc : ∀ e : S800000.Idx, IntOp.cmpi .sge (src e) 0#32 = 1#1 ∧ IntOp.cmpi .slt (src e) 50000#32 = 1#1) :
    wrapIdx src = broadcastInDim S800000x1 ![0] bcast_S800000_S800000x1_0 src := by
  unfold wrapIdx
  refine congrArg _ (funext fun e => ?_)
  exact (wrapped_word (src e) (hsrc e)).1

/-- With every id in [0, 50000) every row is in range: each entry of the column of wrapped ids is one of the given ids,
    which lies between 0 and 49999, so the `and` over the one-entry axis, from the bit 1, is the bit 1. -/
theorem inRows_eq_one (src : IVec S800000 32)
    (hsrc : ∀ e : S800000.Idx, IntOp.cmpi .sge (src e) 0#32 = 1#1 ∧ IntOp.cmpi .slt (src e) 50000#32 = 1#1)
    (e : S800000.Idx) : inRows src e = 1#1 := by
  unfold inRows
  rw [Host.reduce_eq_foldl]
  refine foldl_andi_ones _ (fun i => ?_) _ _ rfl
  show IntOp.andi (IntOp.cmpi .sge (wrapIdx src i) 0#32) (IntOp.cmpi .sle (wrapIdx src i) 49999#32) = 1#1
  obtain ⟨k, hk⟩ : ∃ k : S800000.Idx, wrapIdx src i = src k := by
    rw [wrapIdx_eq src hsrc]; exact ⟨_, rfl⟩
  rw [hk, IntOp.andi_eq_one]
  exact ⟨(hsrc k).1, (wrapped_word _ (hsrc k)).2⟩

/-- With every id in [0, 50000) the lookup is the plain gather at the wrapped ids. -/
theorem takeK_eq_gather (lin : FVec Ideal S50000x146 .f32) (src : IVec S800000 32)
    (hsrc : ∀ e : S800000.Idx, IntOp.cmpi .sge (src e) 0#32 = 1#1 ∧ IntOp.cmpi .slt (src e) 50000#32 = 1#1) :
    takeK lin src = Host.gather gather_S50000x146_S800000x1_S800000x146_1_0_n_n_0_1_1146 lin (wrapIdx src) := by
  have hm : inRows src = fun _ => 1#1 := funext (inRows_eq_one src hsrc)
  unfold takeK
  rw [hm]
  funext i
  exact ValueIdx.select_one _ _

/-- Contents carried to a buffer's own type and back are the contents. -/
theorem ofBuf_toBuf {Val : EltTy → Type} {T : BufTy} (x : StableHlo.TRef sig T) (v : T.Contents Val) :
    x.ofBuf (x.toBuf v) = v := by
  obtain ⟨r, h, _, _⟩ := x
  subst h
  rfl

/-- The first lookup's host operations leave `takeK` of the table and the ids they read. -/
theorem take_call0 (W : Valuation τ sig (Elt Ideal)) :
    StableHlo.after hostOps2 W (Proc.devRef .tc main_v9) = takeK (W (Proc.devRef .tc main_v8)) (W (Proc.devRef .tc main_v1)) := by
  show StableHlo.after hostOps2 W (Proc.devRef .tc main_v9) = _
  after_results_simp
  simp only [ofBuf_toBuf]
  have e1 : (StableHlo.TRef.of main_v1 : StableHlo.TRef sig ⟨S800000, .i32⟩).ofBuf (W (Proc.devRef .tc main_v1))
      = W (Proc.devRef .tc main_v1) := rfl
  have e2 : (StableHlo.TRef.of main_v8 : StableHlo.TRef sig ⟨S50000x146, .f32⟩).ofBuf (W (Proc.devRef .tc main_v8))
      = W (Proc.devRef .tc main_v8) := rfl
  have e3 : ∀ X : (⟨S800000x146, .f32⟩ : BufTy).Contents (Elt Ideal),
      (StableHlo.TRef.of main_v9 : StableHlo.TRef sig ⟨S800000x146, .f32⟩).toBuf X = X := fun X => rfl
  simp only [e1, e2]
  refine (e3 _).trans ?_
  unfold takeK inRows wrapIdx
  rfl

theorem take_call1 (W : Valuation τ sig (Elt Ideal)) :
    StableHlo.after hostOps4 W (Proc.devRef .tc main_v20) = takeK (W (Proc.devRef .tc main_v19)) (W (Proc.devRef .tc main_v1)) := by
  show StableHlo.after hostOps4 W (Proc.devRef .tc main_v20) = _
  after_results_simp
  simp only [ofBuf_toBuf]
  have e1 : (StableHlo.TRef.of main_v1 : StableHlo.TRef sig ⟨S800000, .i32⟩).ofBuf (W (Proc.devRef .tc main_v1))
      = W (Proc.devRef .tc main_v1) := rfl
  have e2 : (StableHlo.TRef.of main_v19 : StableHlo.TRef sig ⟨S50000x146, .f32⟩).ofBuf (W (Proc.devRef .tc main_v19))
      = W (Proc.devRef .tc main_v19) := rfl
  have e3 : ∀ X : (⟨S800000x146, .f32⟩ : BufTy).Contents (Elt Ideal),
      (StableHlo.TRef.of main_v20 : StableHlo.TRef sig ⟨S800000x146, .f32⟩).toBuf X = X := fun X => rfl
  simp only [e1, e2]
  refine (e3 _).trans ?_
  unfold takeK inRows wrapIdx
  rfl

theorem take_call2 (W : Valuation τ sig (Elt Ideal)) :
    StableHlo.after hostOps6 W (Proc.devRef .tc main_v31) = takeK (W (Proc.devRef .tc main_v30)) (W (Proc.devRef .tc main_v1)) := by
  show StableHlo.after hostOps6 W (Proc.devRef .tc main_v31) = _
  after_results_simp
  simp only [ofBuf_toBuf]
  have e1 : (StableHlo.TRef.of main_v1 : StableHlo.TRef sig ⟨S800000, .i32⟩).ofBuf (W (Proc.devRef .tc main_v1))
      = W (Proc.devRef .tc main_v1) := rfl
  have e2 : (StableHlo.TRef.of main_v30 : StableHlo.TRef sig ⟨S50000x146, .f32⟩).ofBuf (W (Proc.devRef .tc main_v30))
      = W (Proc.devRef .tc main_v30) := rfl
  have e3 : ∀ X : (⟨S800000x146, .f32⟩ : BufTy).Contents (Elt Ideal),
      (StableHlo.TRef.of main_v31 : StableHlo.TRef sig ⟨S800000x146, .f32⟩).toBuf X = X := fun X => rfl
  simp only [e1, e2]
  refine (e3 _).trans ?_
  unfold takeK inRows wrapIdx
  rfl

theorem take_call3 (W : Valuation τ sig (Elt Ideal)) :
    StableHlo.after hostOps8 W (Proc.devRef .tc main_v42) = takeK (W (Proc.devRef .tc main_v41)) (W (Proc.devRef .tc main_v1)) := by
  show StableHlo.after hostOps8 W (Proc.devRef .tc main_v42) = _
  after_results_simp
  simp only [ofBuf_toBuf]
  have e1 : (StableHlo.TRef.of main_v1 : StableHlo.TRef sig ⟨S800000, .i32⟩).ofBuf (W (Proc.devRef .tc main_v1))
      = W (Proc.devRef .tc main_v1) := rfl
  have e2 : (StableHlo.TRef.of main_v41 : StableHlo.TRef sig ⟨S50000x146, .f32⟩).ofBuf (W (Proc.devRef .tc main_v41))
      = W (Proc.devRef .tc main_v41) := rfl
  have e3 : ∀ X : (⟨S800000x146, .f32⟩ : BufTy).Contents (Elt Ideal),
      (StableHlo.TRef.of main_v42 : StableHlo.TRef sig ⟨S800000x146, .f32⟩).toBuf X = X := fun X => rfl
  simp only [e1, e2]
  refine (e3 _).trans ?_
  unfold takeK inRows wrapIdx
  rfl

end Cert.KernelIdeal.TakeValue

end
-- ==== Proof.Walk0.lean ====
/- One graph-convolution layer followed through the program's buffers: from the node features at the layer's entry, through the dense call, the row lookup at the source ids, the aggregation at the destination ids and the bias-and-clip call, to the node features at the layer's exit. Each buffer is stated as the reference's own stage of the launched arguments. The lookup agrees with the reference's only because every source id is a row of the table. The buffers later layers read are carried unchanged. -/
import proofs.«407027_j41016937677161_1_alg».proof.Proof.Gen.KernelIdeal.Frame
import proofs.«407027_j41016937677161_1_alg».proof.Proof.WalkEmbed
import proofs.«407027_j41016937677161_1_alg».proof.Proof.Stretch0
import proofs.«407027_j41016937677161_1_alg».proof.Proof.Region1
import proofs.«407027_j41016937677161_1_alg».proof.Proof.Region2
import proofs.«407027_j41016937677161_1_alg».proof.Proof.Take
import proofs.«407027_j41016937677161_1_alg».proof.Proof.RefLayers
import Idealize.ShloMosaic.Lib.ValueLayout

set_option maxRecDepth 16384

noncomputable section

namespace Cert.KernelIdeal.Walk

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The dense call -/

theorem W3_h (c : Dev nD) (hsrc : SrcInRange m c) :
    W3 m ρ c (Proc.devRef .tc main_v5) = Cert.ReferenceIdeal.Read.val_main_v7 (F := Ideal) (A0 m c) (A3 m c) (A4 m c) :=
  (Stretch.keepA (W2 m ρ c) main_v5 (by decide)).trans (W2_h m ρ c hsrc)

theorem W3_wg (c : Dev nD) : W3 m ρ c (Proc.devRef .tc main_v7) = Cert.ReferenceIdeal.Read.val_main_v9 (F := Ideal) (A5 m c) :=
  (Stretch.wg_of (W2 m ρ c)).trans (by rw [W2_a5 m ρ c]; rfl)

/-- The layer's linear transform of the node features is the reference's. -/
theorem W4_lin (c : Dev nD) (hsrc : SrcInRange m c) :
    W4 m ρ c (Proc.devRef .tc main_v8) = Cert.ReferenceIdeal.Read.val_main_v10 (F := Ideal) (A0 m c) (A3 m c) (A4 m c) (A5 m c) := by
  refine (W4_arr m ρ c 2).trans ((Cert.KernelIdeal.RegionValue.final1 (V3 m ρ) c).trans ?_)
  have e0 : V3 m ρ c main_v5 = _ := W3_h m ρ c hsrc
  have e1 : V3 m ρ c main_v7 = _ := W3_wg m ρ c
  rw [e0, e1]
  exact (Cert.ReferenceIdeal.RefValue.dense_eq _ _).symm

theorem W4_src (c : Dev nD) : W4 m ρ c (Proc.devRef .tc main_v1) = Cert.ReferenceIdeal.Read.val_main_v1 (F := Ideal) (A1 m c) :=
  ((W4_of_ne m ρ c main_v1 (by decide)).trans (Stretch.keepA (W2 m ρ c) main_v1 (by decide))).trans (W2_src m ρ c)
theorem W4_dst (c : Dev nD) : W4 m ρ c (Proc.devRef .tc main_v3) = Cert.ReferenceIdeal.Read.val_main_v3 (F := Ideal) (A1 m c) :=
  ((W4_of_ne m ρ c main_v3 (by decide)).trans (Stretch.keepA (W2 m ρ c) main_v3 (by decide))).trans (W2_dst m ρ c)
theorem W4_a5 (c : Dev nD) : W4 m ρ c (Proc.devRef .tc main_arg5) = A5 m c :=
  ((W4_of_ne m ρ c main_arg5 (by decide)).trans (Stretch.keepA (W2 m ρ c) main_arg5 (by decide))).trans (W2_a5 m ρ c)
theorem W4_a6 (c : Dev nD) : W4 m ρ c (Proc.devRef .tc main_arg6) = A6 m c :=
  ((W4_of_ne m ρ c main_arg6 (by decide)).trans (Stretch.keepA (W2 m ρ c) main_arg6 (by decide))).trans (W2_a6 m ρ c)
theorem W4_a2 (c : Dev nD) : W4 m ρ c (Proc.devRef .tc main_arg2) = A2 m c :=
  ((W4_of_ne m ρ c main_arg2 (by decide)).trans (Stretch.keepA (W2 m ρ c) main_arg2 (by decide))).trans (W2_a2 m ρ c)

/-! ## The row lookup and the aggregation -/

/-- The looked-up rows are the reference's gather: no id falls outside the table, so no row is replaced. -/
theorem W5_rows (c : Dev nD) (hsrc : SrcInRange m c) :
    W5 m ρ c (Proc.devRef .tc main_v9) = Cert.ReferenceIdeal.Read.val_main_v17 (F := Ideal) (A0 m c) (A1 m c) (A3 m c) (A4 m c) (A5 m c) :=
  (Cert.KernelIdeal.TakeValue.take_call0 (W4 m ρ c)).trans (by
    rw [W4_lin m ρ c hsrc, W4_src m ρ c, Cert.KernelIdeal.TakeValue.takeK_eq_gather _ _ hsrc]; rfl)

theorem W5_dst (c : Dev nD) : W5 m ρ c (Proc.devRef .tc main_v3) = Cert.ReferenceIdeal.Read.val_main_v3 (F := Ideal) (A1 m c) :=
  (Stretch.keepB (W4 m ρ c) main_v3 (by decide)).trans (W4_dst m ρ c)
theorem W5_a6 (c : Dev nD) : W5 m ρ c (Proc.devRef .tc main_arg6) = A6 m c :=
  (Stretch.keepB (W4 m ρ c) main_arg6 (by decide)).trans (W4_a6 m ρ c)

/-- The aggregated features are the reference's. -/
theorem W6_agg (c : Dev nD) (hsrc : SrcInRange m c) :
    W6 m ρ c (Proc.devRef .tc main_v12) = Cert.ReferenceIdeal.Read.val_main_v20 (F := Ideal) (A0 m c) (A1 m c) (A3 m c) (A4 m c) (A5 m c) :=
  (Stretch.agg_of (W5 m ρ c)).trans (by rw [W5_rows m ρ c hsrc, W5_dst m ρ c]; rfl)

/-- The layer's bias as one row: the reference's bias vector with a unit axis in front. -/
theorem W6_bias (c : Dev nD) : W6 m ρ c (Proc.devRef .tc main_v15)
    = shapeCast S1x146 (Cert.ReferenceIdeal.Read.val_main_v22 (F := Ideal) (A6 m c)) shapeCasts_S146_S1x146 :=
  (Stretch.bias_of (W5 m ρ c)).trans (by rw [W5_a6 m ρ c]; rfl)

/-! ## The bias-and-clip call -/

/-- The node features at the layer's exit are the reference's. -/
theorem W7_h (c : Dev nD) (hsrc : SrcInRange m c) :
    W7 m ρ c (Proc.devRef .tc main_v16) = Cert.ReferenceIdeal.Read.val_main_v26 (F := Ideal) (A0 m c) (A1 m c) (A3 m c) (A4 m c) (A5 m c) (A6 m c) := by
  refine (W7_arr m ρ c 2).trans ((Cert.KernelIdeal.RegionValue.final2 (V6 m ρ) c).trans ?_)
  have e0 : V6 m ρ c main_v12 = _ := W6_agg m ρ c hsrc
  have e1 : V6 m ρ c main_v15 = _ := W6_bias m ρ c
  rw [e0, e1]
  exact (Cert.ReferenceIdeal.RefValue.biasRelu_eq _ (Cert.ReferenceIdeal.Read.val_main_v22 (F := Ideal) (A6 m c)) _
    (fun q => ValueIdx.shapeCast_a_1a_apply _ _ 0 q)).symm

theorem W7_src (c : Dev nD) : W7 m ρ c (Proc.devRef .tc main_v1) = Cert.ReferenceIdeal.Read.val_main_v1 (F := Ideal) (A1 m c) :=
  ((W7_of_ne m ρ c main_v1 (by decide)).trans ((Stretch.keepC (W5 m ρ c) main_v1 (by decide)).trans (Stretch.keepB (W4 m ρ c) main_v1 (by decide)))).trans (W4_src m ρ c)
theorem W7_dst (c : Dev nD) : W7 m ρ c (Proc.devRef .tc main_v3) = Cert.ReferenceIdeal.Read.val_main_v3 (F := Ideal) (A1 m c) :=
  ((W7_of_ne m ρ c main_v3 (by decide)).trans ((Stretch.keepC (W5 m ρ c) main_v3 (by decide)).trans (Stretch.keepB (W4 m ρ c) main_v3 (by decide)))).trans (W4_dst m ρ c)
theorem W7_a5 (c : Dev nD) : W7 m ρ c (Proc.devRef .tc main_arg5) = A5 m c :=
  ((W7_of_ne m ρ c main_arg5 (by decide)).trans ((Stretch.keepC (W5 m ρ c) main_arg5 (by decide)).trans (Stretch.keepB (W4 m ρ c) main_arg5 (by decide)))).trans (W4_a5 m ρ c)
theorem W7_a6 (c : Dev nD) : W7 m ρ c (Proc.devRef .tc main_arg6) = A6 m c :=
  ((W7_of_ne m ρ c main_arg6 (by decide)).trans ((Stretch.keepC (W5 m ρ c) main_arg6 (by decide)).trans (Stretch.keepB (W4 m ρ c) main_arg6 (by decide)))).trans (W4_a6 m ρ c)
theorem W7_a2 (c : Dev nD) : W7 m ρ c (Proc.devRef .tc main_arg2) = A2 m c :=
  ((W7_of_ne m ρ c main_arg2 (by decide)).trans ((Stretch.keepC (W5 m ρ c) main_arg2 (by decide)).trans (Stretch.keepB (W4 m ρ c) main_arg2 (by decide)))).trans (W4_a2 m ρ c)

end Cert.KernelIdeal.Walk

end
-- ==== Proof.Stretch1.lean ====
/- The host operations of one graph-convolution layer, between its two kernel calls and after them: the layer's weight matrix is cut out of the stack of four and laid out as 146 × 146; the looked-up rows are added into the rows their destination ids name, starting from zeros; the layer's bias is cut out of the stack of four and laid out as one 1 × 146 row. Each lemma reads one result off an arbitrary valuation the operations start from. -/
import proofs.«407027_j41016937677161_1_alg».proof.Proof.Gen.KernelIdeal.Launch
import proofs.«407027_j41016937677161_1_alg».proof.Proof.KeepTac
import Idealize.ShloMosaic.Lib.StableHlo.Run
import Idealize.ShloMosaic.PureOps.Ideal

set_option maxRecDepth 16384

noncomputable section

namespace Cert.KernelIdeal.Stretch

open Idealize.ShloMosaic Idealize.ShloMosaic.TcCoe Idealize.SL.Sem
open Cert.KernelIdeal Cert.KernelIdeal.Gen

variable (W : Valuation τ sig (Elt Ideal))

/-- Cutting out the layer's weight matrix writes only its own two buffers. -/
theorem keepA_L1 (b : Ref sig .tc) (hb : ∀ y ∈ [main_v17, main_v18], b ≠ y) :
    StableHlo.after hostOps3 W (Proc.devRef .tc b) = W (Proc.devRef .tc b) := by
  keep_of hostOps3 hb

/-- The row lookup writes only its own buffers. -/
theorem keepB_L1 (b : Ref sig .tc) (hb : ∀ y ∈ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v20], b ≠ y) :
    StableHlo.after hostOps4 W (Proc.devRef .tc b) = W (Proc.devRef .tc b) := by
  keep_of hostOps4 hb

/-- The aggregation and the bias layout write only their own buffers. -/
theorem keepC_L1 (b : Ref sig .tc) (hb : ∀ y ∈ [main_cst_0, main_v21, main_v22, main_v23, main_v24, main_v25, main_v26], b ≠ y) :
    StableHlo.after hostOps4_1 W (Proc.devRef .tc b) = W (Proc.devRef .tc b) := by
  keep_of hostOps4_1 hb

/-- The layer's weight matrix: slab 1 of the stack, as a 146 × 146 array. -/
theorem wg_of_L1 : StableHlo.after hostOps3 W (Proc.devRef .tc main_v18)
    = shapeCast S146x146 (extractStridedSlice S1x146x146 ![1, 0, 0] (W (Proc.devRef .tc main_arg5)) slices_S4x146x146_S1x146x146_1_0_0) shapeCasts_S1x146x146_S146x146 := by
  after_results <;> rfl

/-- The aggregated features: zeros, with every looked-up row added into the row its destination id names. -/
theorem agg_of_L1 : StableHlo.after hostOps4_1 W (Proc.devRef .tc main_v23)
    = Host.scatterAdd scatter_S50000x146_S800000x1_S800000x146_1_0_0_1
        (broadcastInDim S50000x146 ![] bcast_S_S50000x146 (constant (F := Ideal) S_ .f32 0x00000000#32))
        (broadcastInDim S800000x1 ![0] bcast_S800000_S800000x1_0 (W (Proc.devRef .tc main_v3)))
        (W (Proc.devRef .tc main_v20)) := by
  after_results <;> rfl

/-- The layer's bias: row 1 of the stack as a vector, then as one 1 × 146 row. -/
theorem bias_of_L1 : StableHlo.after hostOps4_1 W (Proc.devRef .tc main_v26)
    = shapeCast S1x146 (shapeCast S146 (extractStridedSlice S1x146 ![1, 0] (W (Proc.devRef .tc main_arg6)) slices_S4x146_S1x146_1_0) shapeCasts_S1x146_S146) shapeCasts_S146_S1x146 := by
  after_results <;> rfl

end Cert.KernelIdeal.Stretch

end
-- ==== Proof.Region3.lean ====
/- A dense call: ten row blocks of 5000 nodes, each the block's features times the whole 146 × 146 weight matrix. -/
import proofs.«407027_j41016937677161_1_alg».proof.Proof.Gen.KernelIdeal.Frame
import proofs.«407027_j41016937677161_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- A whole-block access starts at offset zero on both axes. -/
theorem zero_offsets3 : (![0, 0] : Fin 2 → Nat) = fun _ => 0 := funext fun a => by fin_cases a <;> rfl

/-- The left operand of the block product is read at the output's row … -/
theorem lhs_dense3_0 (i : S5000x146.Idx) (q : dot_S5000x146_S146x146_S5000x146_1_0_0_1_n_n.contr.Idx) :
    (dot_S5000x146_S146x146_S5000x146_1_0_0_1_n_n.lhsIdx i q 0).val = (i 0).val := by
  unfold DotDims.lhsIdx
  rw [dif_neg (show ¬(0 : Fin S5000x146.rank) ∈ dot_S5000x146_S146x146_S5000x146_1_0_0_1_n_n.lhsBatch by decide), dif_pos (show (0 : Fin S5000x146.rank) ∈ dot_S5000x146_S146x146_S5000x146_1_0_0_1_n_n.lhsNonContracting by decide)]
  rfl
/-- … and at the inner index as its column. -/
theorem lhs_dense3_1 (i : S5000x146.Idx) (q : dot_S5000x146_S146x146_S5000x146_1_0_0_1_n_n.contr.Idx) :
    (dot_S5000x146_S146x146_S5000x146_1_0_0_1_n_n.lhsIdx i q 1).val = (q ⟨0, by decide⟩).val :=
  dot_S5000x146_S146x146_S5000x146_1_0_0_1_n_n.lhsIdx_val_of_single rfl i q
/-- The right operand is read at the inner index as its row … -/
theorem rhs_dense3_0 (i : S5000x146.Idx) (q : dot_S5000x146_S146x146_S5000x146_1_0_0_1_n_n.contr.Idx) :
    (dot_S5000x146_S146x146_S5000x146_1_0_0_1_n_n.rhsIdx i q 0).val = (q ⟨0, by decide⟩).val :=
  dot_S5000x146_S146x146_S5000x146_1_0_0_1_n_n.rhsIdx_val_of_single rfl i q
/-- … and at the output's column. -/
theorem rhs_dense3_1 (i : S5000x146.Idx) (q : dot_S5000x146_S146x146_S5000x146_1_0_0_1_n_n.contr.Idx) :
    (dot_S5000x146_S146x146_S5000x146_1_0_0_1_n_n.rhsIdx i q 1).val = (i 1).val := by
  unfold DotDims.rhsIdx
  rw [dif_neg (show ¬(1 : Fin S146x146.rank) ∈ dot_S5000x146_S146x146_S5000x146_1_0_0_1_n_n.rhsBatch by decide), dif_pos (show (1 : Fin S146x146.rank) ∈ dot_S5000x146_S146x146_S5000x146_1_0_0_1_n_n.rhsNonContracting by decide)]
  rfl

/-- What the body stores, entry by entry: entry (p, q) of the block is the sum over the inner index k of the feature
    block's (p, k) times the weight matrix's (k, q). Narrowing to bf16 changes nothing over the extended reals, and the
    accumulator starts at zero. -/
theorem dense_block3_apply (x0 : Vec Ideal S5000x146 .f32) (x1 : Vec Ideal S146x146 .f32) (p : Fin 5000) (q : Fin 146) :
    k3_pay1 (F := Ideal) x0 x1 (ValueIdx.ix2 p q) = ∑ k : Fin 146, x0 (ValueIdx.ix2 p k) * x1 (ValueIdx.ix2 k q) := by
  unfold k3_pay1
  simp only [shapeCast_self]
  refine (Ideal.matmul_constant_zero_apply dot_S5000x146_S146x146_S5000x146_1_0_0_1_n_n none _ _ (ValueIdx.ix2 p q)).trans ?_
  rw [← Equiv.sum_comp (ValueIdx.contrEquiv1 dot_S5000x146_S146x146_S5000x146_1_0_0_1_n_n 146 rfl rfl).symm]
  refine Finset.sum_congr rfl fun k _ => ?_
  have hk := ValueIdx.contrEquiv1_symm_val dot_S5000x146_S146x146_S5000x146_1_0_0_1_n_n 146 rfl rfl k
  have el : dot_S5000x146_S146x146_S5000x146_1_0_0_1_n_n.lhsIdx (ValueIdx.ix2 p q) ((ValueIdx.contrEquiv1 dot_S5000x146_S146x146_S5000x146_1_0_0_1_n_n 146 rfl rfl).symm k) = ValueIdx.ix2 p k := funext fun a => Fin.ext (by
    match a with
    | ⟨0, _⟩ => exact lhs_dense3_0 _ _
    | ⟨1, _⟩ => exact (lhs_dense3_1 _ _).trans hk)
  have er : dot_S5000x146_S146x146_S5000x146_1_0_0_1_n_n.rhsIdx (ValueIdx.ix2 p q) ((ValueIdx.contrEquiv1 dot_S5000x146_S146x146_S5000x146_1_0_0_1_n_n 146 rfl rfl).symm k) = ValueIdx.ix2 k q := funext fun a => Fin.ext (by
    match a with
    | ⟨0, _⟩ => exact (rhs_dense3_0 _ _).trans hk
    | ⟨1, _⟩ => exact rhs_dense3_1 _ _)
  rw [el, er]
  rfl

/-- Where the windows sit at each of the ten points: at point t the feature window and the output window are at row
    block t, and the weight window at the one block its array has. -/
theorem block_indices3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The feature window's block at point t is rows 5000·t … 5000·t + 4999 of the feature array. -/
theorem feature_block3_apply (c : Dev nD) (t : Fin cfg3.N) (y : S5000x146.Idx) (i : S50000x146.Idx)
    (h0 : (i 0).val = t.val * 5000 + (y 0).val) (h1 : (i 1).val = (y 1).val) :
    (iblk3 V c 0 t : Vec Ideal S5000x146 .f32) y = (V c main_v16 : S50000x146.Idx → Elt Ideal .f32) i := by
  obtain ⟨e0, e1, -, -, -, -⟩ := block_indices3 t
  unfold iblk3
  rw [View.read_apply]
  show V c main_v16 _ = V c main_v16 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 146 + 1 * (y 1).val = (i 1).val; rw [e1, h1]; omega

/-- The weight window's block at every point is the whole weight matrix. -/
theorem weight_block3_apply (c : Dev nD) (t : Fin cfg3.N) (y : S146x146.Idx) :
    (iblk3 V c 1 t : Vec Ideal S146x146 .f32) y = (V c main_v18 : S146x146.Idx → Elt Ideal .f32) y := by
  obtain ⟨-, -, e2, e3, -, -⟩ := block_indices3 t
  unfold iblk3
  rw [View.read_apply]
  show V c main_v18 _ = V c main_v18 _
  congr 1
  funext a
  apply Fin.ext
  match a with
  | ⟨0, _⟩ => show win3_1.index t (0 : Fin 2) * 146 + 1 * (y 0).val = (y 0).val; rw [e2]; omega
  | ⟨1, _⟩ => show win3_1.index t (1 : Fin 2) * 146 + 1 * (y 1).val = (y 1).val; rw [e3]; omega

/-- One point's product is a block of the whole product. If the feature block x0 is rows 5000·r … of the array X and
    the weight block x1 is the matrix W, then entry j of the block product is entry i of X·W whenever i is j moved down
    by 5000·r rows: both are the same sum over the inner index, of the same row of features against the same column of
    weights. -/
theorem dense_point3 (x0 : Vec Ideal S5000x146 .f32) (x1 : Vec Ideal S146x146 .f32)
    (X : FVec Ideal (⟨2, ![50000, 146]⟩ : Shape) .f32) (W : FVec Ideal (⟨2, ![146, 146]⟩ : Shape) .f32) (r : Nat)
    (hX : ∀ (y : S5000x146.Idx) (i : S50000x146.Idx), (i 0).val = r * 5000 + (y 0).val → (i 1).val = (y 1).val → x0 y = X i)
    (hW : ∀ y : S146x146.Idx, x1 y = W y)
    (j : S5000x146.Idx) (i : S50000x146.Idx) (h0 : (i 0).val = r * 5000 + (j 0).val) (h1 : (i 1).val = (j 1).val) :
    k3_pay1 (F := Ideal) x0 x1 j = Cert.Spec.mm X W i := by
  obtain ⟨p, q, rfl⟩ : ∃ (p : Fin 5000) (q : Fin 146), j = ValueIdx.ix2 p q := ⟨j 0, j 1, ValueIdx.eq_ix2 j⟩
  obtain ⟨r', q', rfl⟩ : ∃ (r' : Fin 50000) (q' : Fin 146), i = ValueIdx.ix2 r' q' := ⟨i 0, i 1, ValueIdx.eq_ix2 i⟩
  have hq : q' = q := Fin.ext h1
  subst hq
  have hr : r'.val = r * 5000 + p.val := h0
  rw [dense_block3_apply]
  show _ = ∑ k : Fin 146, X (ValueIdx.ix2 r' k) * W (ValueIdx.ix2 k q')
  refine Finset.sum_congr rfl fun k _ => ?_
  rw [hX (ValueIdx.ix2 p k) (ValueIdx.ix2 r' k) hr rfl, hW]

/-- What point t writes back is block t of the product of the feature array with the weight matrix: row p of the
    block is row 5000·t + p of the array, and its entries are sums over whole rows of features and whole columns of
    weights, all of which the point holds. -/
theorem flushed_dense3 (c : Dev nD) (t : Fin cfg3.N) :
    (dat3 (F := Ideal) V c).flushed 2 t
      = ((cfg3.win 2).blk t).view.read (Elt Ideal) (Cert.Spec.mm (V c main_v16) (V c main_v18)) := by
  show (cfg3.win 2).cut (grid3.coords t) ((dat3 V c).after 2 t) = _
  rw [after3_2]
  unfold out3_2
  rw [View.canon_unit_zero zero_offsets3]
  simp only [View.ld_unit_zero (S := S5000x146) zero_offsets3, View.ld_unit_zero (S := S146x146) zero_offsets3]
  obtain ⟨-, -, -, -, e4, e5⟩ := block_indices3 t
  funext j
  exact dense_point3 (iblk3 V c 0 t) (iblk3 V c 1 t) (V c main_v16) (V c main_v18) t.val
    (feature_block3_apply V c t) (weight_block3_apply V c t) j (((cfg3.win 2).blk t).view.emb j)
    (by show win3_2.index t (0 : Fin 2) * 5000 + 1 * (j 0).val = t.val * 5000 + (j 0).val; rw [e4]; omega)
    (by show win3_2.index t (1 : Fin 2) * 146 + 1 * (j 1).val = (j 1).val; rw [e5]; omega)

/-- An index of the output array lies in point t's block iff each coordinate lies in the block's range on its axis. -/
theorem mem_out_block3 (t : Fin cfg3.N) (i : S50000x146.Idx) :
    i ∈ ((cfg3.win 2).blk t).view.set ↔ ∀ a : Fin 2, win3_2.index t a * S5000x146.size a ≤ (i a).val ∧ (i a).val < win3_2.index t a * S5000x146.size a + S5000x146.size a := by
  show i ∈ ((View.whole main_v19).slice (win3_2.rect t)).set ↔ _
  rw [View.set_slice_whole, Rect.mem_set_unit]
  exact Iff.rfl

/-- The ten row blocks fill the output array: row r lies in the block of point r / 5000. -/
theorem rows_covered3 (i : S50000x146.Idx) :
    ∃ t : Fin cfg3.N, (cfg3.win 2).flush t = true ∧ i ∈ ((cfg3.win 2).blk t).view.set := by
  have hi0 : (i 0).val < 50000 := (i 0).isLt
  have hi1 : (i 1).val < 146 := (i 1).isLt
  have hN : cfg3.N = 10 := N_3
  have ht : (i 0).val / 5000 < cfg3.N := by rw [hN]; omega
  obtain ⟨-, -, -, -, e4, e5⟩ := block_indices3 ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_out_block3]
  intro a
  match a with
  | ⟨0, _⟩ => show win3_2.index ⟨(i 0).val / 5000, ht⟩ (0 : Fin 2) * 5000 ≤ (i 0).val ∧ (i 0).val < win3_2.index ⟨(i 0).val / 5000, ht⟩ (0 : Fin 2) * 5000 + 5000; rw [e4']; omega
  | ⟨1, _⟩ => show win3_2.index ⟨(i 0).val / 5000, ht⟩ (1 : Fin 2) * 146 ≤ (i 1).val ∧ (i 1).val < win3_2.index ⟨(i 0).val / 5000, ht⟩ (1 : Fin 2) * 146 + 146; rw [e5]; omega

/-- After the dense call every row block has been written back: the output array is the product of the node features
    with the layer's weight matrix. -/
theorem final3 (c : Dev nD) :
    (dat3 (F := Ideal) V c).arrAt 2 cfg3.N = Cert.Spec.mm (V c main_v16) (V c main_v18) :=
  (dat3 (F := Ideal) V c).arrAt_eq_of_cover 2 (Cert.Spec.mm (V c main_v16) (V c main_v18))
    (fun t _ => flushed_dense3 V c t) (rows_covered3)

end Cert.KernelIdeal.RegionValue

end
-- ==== Proof.Region4.lean ====
/- A bias-and-clip call: ten row blocks of 5000 nodes, each entry the aggregated feature plus its column's bias, clipped below at zero. -/
import proofs.«407027_j41016937677161_1_alg».proof.Proof.Gen.KernelIdeal.Frame
import proofs.«407027_j41016937677161_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

/-- The body's one store, and each of its loads, starts at the origin of its buffer. -/
theorem origin_r4 : (![0, 0] : Fin 2 → Nat) = fun _ => 0 := funext fun a => by fin_cases a <;> rfl

/-- The body's arithmetic at entry (p, q) of a block: the feature block's entry plus the bias row's entry of column q,
    clipped below at zero. The two shape casts keep the shape; the broadcast repeats the one row over the 5000 rows. -/
theorem bias_clip_at_r4 (x0 : Vec Ideal S5000x146 .f32) (x1 : Vec Ideal S1x146 .f32) (p : Fin 5000) (q : Fin 146) :
    k4_pay1 (F := Ideal) x0 x1 (ix2 p q) = max (x0 (ix2 p q) + x1 (ix2 (0 : Fin 1) q)) (Ideal.ofBits .f32 0x00000000#32) := by
  unfold k4_pay1
  rw [maximumf_apply, addf_apply, broadcast_apply, shapeCast_self, shapeCast_self, broadcastTo_1b_ab_apply]
  rfl

/-- The block indices at grid point t: the feature window and the output window are at row block t, column block 0;
    the bias window stays at its one block. -/
theorem block_indices_r4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry (p, q) of what the body stores is entry i of the whole-array function, once the feature block's entry (p, q)
    is the feature array's entry i, i is in column q, and the bias block is the bias row. -/
theorem stored_entry_r4 (x0 : Vec Ideal S5000x146 .f32) (x1 : Vec Ideal S1x146 .f32)
    (y : FVec Ideal S50000x146 .f32) (b : FVec Ideal S1x146 .f32) (p : Fin 5000) (q : Fin 146) (i : S50000x146.Idx)
    (h1 : (i 1).val = q.val) (hx : x0 (ix2 p q) = y i) (hb : x1 (ix2 (0 : Fin 1) q) = b (ix2 (0 : Fin 1) q)) :
    k4_pay1 (F := Ideal) x0 x1 (ix2 p q) = Cert.Spec.relu0 (Cert.Spec.addRow y b) i := by
  rw [bias_clip_at_r4, hx, hb]
  have e : (i 1 : Fin 146) = q := Fin.ext h1
  show _ = max (y i + b (ix2 (0 : Fin 1) (i 1))) _
  rw [e]

/-- Entry (p, q) of the feature block read at point t is entry (5000 t + p, q) of the feature array. -/
theorem feature_block_at_r4 (c : Dev nD) (t : Fin cfg4.N) (p : Fin 5000) (q : Fin 146) (i : S50000x146.Idx)
    (h0 : (i 0).val = t.val * 5000 + p.val) (h1 : (i 1).val = q.val) :
    (iblk4 V c 0 t : Vec Ideal S5000x146 .f32) (ix2 p q) = (V c main_v23 : Vec Ideal S50000x146 .f32) i := by
  obtain ⟨e0, e1, -⟩ := block_indices_r4 t
  unfold iblk4
  show V c main_v23 (((cfg4.win 0).blk t).view.emb (ix2 p q)) = V c main_v23 i
  refine congrArg (V c main_v23) (funext fun a => Fin.ext ?_)
  match a with
  | ⟨0, _⟩ => show win4_0.index t (0 : Fin 2) * 5000 + 1 * p.val = (i 0).val; omega
  | ⟨1, _⟩ => show win4_0.index t (1 : Fin 2) * 146 + 1 * q.val = (i 1).val; omega

/-- Entry (0, q) of the bias block read at any point is entry (0, q) of the bias row. -/
theorem bias_block_at_r4 (c : Dev nD) (t : Fin cfg4.N) (q : Fin 146) :
    (iblk4 V c 1 t : Vec Ideal S1x146 .f32) (ix2 (0 : Fin 1) q) = (V c main_v26 : Vec Ideal S1x146 .f32) (ix2 (0 : Fin 1) q) := by
  obtain ⟨-, -, e2, e3, -⟩ := block_indices_r4 t
  unfold iblk4
  show V c main_v26 (((cfg4.win 1).blk t).view.emb (ix2 (0 : Fin 1) q)) = V c main_v26 (ix2 (0 : Fin 1) q)
  refine congrArg (V c main_v26) (funext fun a => Fin.ext ?_)
  match a with
  | ⟨0, _⟩ => show win4_1.index t (0 : Fin 2) * 1 + 1 * 0 = 0; omega
  | ⟨1, _⟩ => show win4_1.index t (1 : Fin 2) * 146 + 1 * q.val = q.val; omega

/-- What grid point t writes back is row block t of the whole-array function: rows 5000 t … 5000 t + 4999 of the
    features plus the bias row, clipped below at zero. -/
theorem block_written_r4 (c : Dev nD) (t : Fin cfg4.N) :
    (dat4 (F := Ideal) V c).flushed 2 t
      = ((cfg4.win 2).blk t).view.read (Elt Ideal) (Cert.Spec.relu0 (Cert.Spec.addRow (V c main_v23) (V c main_v26))) := by
  show (cfg4.win 2).cut (grid4.coords t) ((dat4 (F := Ideal) V c).after 2 t) = _
  rw [after4_2]
  unfold out4_2
  rw [View.canon_unit_zero origin_r4]
  simp only [View.ld_unit_zero (S := S5000x146) origin_r4, View.ld_unit_zero (S := S1x146) origin_r4]
  obtain ⟨-, -, -, -, e4, e5⟩ := block_indices_r4 t
  refine funext fun (j : S5000x146.Idx) => ?_
  obtain ⟨p, q, rfl⟩ : ∃ (p : Fin 5000) (q : Fin 146), j = ix2 p q := ⟨j 0, j 1, eq_ix2 j⟩
  show k4_pay1 (F := Ideal) (iblk4 V c 0 t) (iblk4 V c 1 t) (ix2 p q)
    = Cert.Spec.relu0 (Cert.Spec.addRow (V c main_v23) (V c main_v26)) (((cfg4.win 2).blk t).view.emb (ix2 p q))
  have r0 : ((((cfg4.win 2).blk t).view.emb (ix2 p q) : S50000x146.Idx) 0).val = t.val * 5000 + p.val := by
    show win4_2.index t (0 : Fin 2) * 5000 + 1 * p.val = _; omega
  have r1 : ((((cfg4.win 2).blk t).view.emb (ix2 p q) : S50000x146.Idx) 1).val = q.val := by
    show win4_2.index t (1 : Fin 2) * 146 + 1 * q.val = _; omega
  exact stored_entry_r4 (iblk4 V c 0 t) (iblk4 V c 1 t) (V c main_v23) (V c main_v26) p q (((cfg4.win 2).blk t).view.emb (ix2 p q)) r1
    (feature_block_at_r4 V c t p q (((cfg4.win 2).blk t).view.emb (ix2 p q)) r0 r1) (bias_block_at_r4 V c t q)

/-- An index of the output array lies in point t's block exactly when, on each axis, its coordinate lies in the
    block's range. -/
theorem mem_row_block_r4 (t : Fin cfg4.N) (i : S50000x146.Idx) :
    i ∈ ((cfg4.win 2).blk t).view.set
      ↔ ∀ a : Fin 2, win4_2.index t a * S5000x146.size a ≤ (i a).val ∧ (i a).val < win4_2.index t a * S5000x146.size a + S5000x146.size a := by
  show i ∈ ((View.whole main_v27).slice (win4_2.rect t)).set ↔ _
  rw [View.set_slice_whole, Rect.mem_set_unit]
  exact Iff.rfl

/-- Every index of the output array lies in a block that is written back: row r lies in row block r / 5000. -/
theorem row_blocks_cover_r4 (i : S50000x146.Idx) :
    ∃ t : Fin cfg4.N, (cfg4.win 2).flush t = true ∧ i ∈ ((cfg4.win 2).blk t).view.set := by
  have hN : cfg4.N = 10 := N_4
  have hi0 : (i 0).val < 50000 := (i 0).isLt
  have hi1 : (i 1).val < 146 := (i 1).isLt
  obtain ⟨t, ht⟩ : ∃ t : Fin cfg4.N, t.val = (i 0).val / 5000 := ⟨⟨(i 0).val / 5000, by rw [hN]; omega⟩, rfl⟩
  obtain ⟨-, -, -, -, e4, e5⟩ := block_indices_r4 t
  refine ⟨t, flush4_2 t, ?_⟩
  rw [mem_row_block_r4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 146 ≤ (i 1).val ∧ (i 1).val < win4_2.index t (1 : Fin 2) * 146 + 146; omega

/-- After the bias-and-clip call every row block has been written back: the output array is the aggregated features
    plus the bias row, clipped below at zero. -/
theorem final4 (c : Dev nD) :
    (dat4 (F := Ideal) V c).arrAt 2 cfg4.N = Cert.Spec.relu0 (Cert.Spec.addRow (V c main_v23) (V c main_v26)) :=
  (dat4 (F := Ideal) V c).arrAt_eq_of_cover 2 (Cert.Spec.relu0 (Cert.Spec.addRow (V c main_v23) (V c main_v26)))
    (fun t _ => block_written_r4 V c t) row_blocks_cover_r4

end Cert.KernelIdeal.RegionValue

end
-- ==== Proof.Walk1.lean ====
/- One graph-convolution layer followed through the program's buffers: from the node features at the layer's entry, through the dense call, the row lookup at the source ids, the aggregation at the destination ids and the bias-and-clip call, to the node features at the layer's exit. Each buffer is stated as the reference's own stage of the launched arguments. The lookup agrees with the reference's only because every source id is a row of the table. The buffers later layers read are carried unchanged. -/
import proofs.«407027_j41016937677161_1_alg».proof.Proof.Gen.KernelIdeal.Frame
import proofs.«407027_j41016937677161_1_alg».proof.Proof.Walk0
import proofs.«407027_j41016937677161_1_alg».proof.Proof.Stretch1
import proofs.«407027_j41016937677161_1_alg».proof.Proof.Region3
import proofs.«407027_j41016937677161_1_alg».proof.Proof.Region4
import proofs.«407027_j41016937677161_1_alg».proof.Proof.Take
import proofs.«407027_j41016937677161_1_alg».proof.Proof.RefLayers
import Idealize.ShloMosaic.Lib.ValueLayout

set_option maxRecDepth 16384

noncomputable section

namespace Cert.KernelIdeal.Walk

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The dense call -/

theorem W8_h (c : Dev nD) (hsrc : SrcInRange m c) :
    W8 m ρ c (Proc.devRef .tc main_v16) = Cert.ReferenceIdeal.Read.val_main_v26 (F := Ideal) (A0 m c) (A1 m c) (A3 m c) (A4 m c) (A5 m c) (A6 m c) :=
  (Stretch.keepA_L1 (W7 m ρ c) main_v16 (by decide)).trans (W7_h m ρ c hsrc)

theorem W8_wg (c : Dev nD) : W8 m ρ c (Proc.devRef .tc main_v18) = Cert.ReferenceIdeal.Read.val_main_v28 (F := Ideal) (A5 m c) :=
  (Stretch.wg_of_L1 (W7 m ρ c)).trans (by rw [W7_a5 m ρ c]; rfl)

/-- The layer's linear transform of the node features is the reference's. -/
theorem W9_lin (c : Dev nD) (hsrc : SrcInRange m c) :
    W9 m ρ c (Proc.devRef .tc main_v19) = Cert.ReferenceIdeal.Read.val_main_v29 (F := Ideal) (A0 m c) (A1 m c) (A3 m c) (A4 m c) (A5 m c) (A6 m c) := by
  refine (W9_arr m ρ c 2).trans ((Cert.KernelIdeal.RegionValue.final3 (V8 m ρ) c).trans ?_)
  have e0 : V8 m ρ c main_v16 = _ := W8_h m ρ c hsrc
  have e1 : V8 m ρ c main_v18 = _ := W8_wg m ρ c
  rw [e0, e1]
  exact (Cert.ReferenceIdeal.RefValue.dense_eq _ _).symm

theorem W9_src (c : Dev nD) : W9 m ρ c (Proc.devRef .tc main_v1) = Cert.ReferenceIdeal.Read.val_main_v1 (F := Ideal) (A1 m c) :=
  ((W9_of_ne m ρ c main_v1 (by decide)).trans (Stretch.keepA_L1 (W7 m ρ c) main_v1 (by decide))).trans (W7_src m ρ c)
theorem W9_dst (c : Dev nD) : W9 m ρ c (Proc.devRef .tc main_v3) = Cert.ReferenceIdeal.Read.val_main_v3 (F := Ideal) (A1 m c) :=
  ((W9_of_ne m ρ c main_v3 (by decide)).trans (Stretch.keepA_L1 (W7 m ρ c) main_v3 (by decide))).trans (W7_dst m ρ c)
theorem W9_a5 (c : Dev nD) : W9 m ρ c (Proc.devRef .tc main_arg5) = A5 m c :=
  ((W9_of_ne m ρ c main_arg5 (by decide)).trans (Stretch.keepA_L1 (W7 m ρ c) main_arg5 (by decide))).trans (W7_a5 m ρ c)
theorem W9_a6 (c : Dev nD) : W9 m ρ c (Proc.devRef .tc main_arg6) = A6 m c :=
  ((W9_of_ne m ρ c main_arg6 (by decide)).trans (Stretch.keepA_L1 (W7 m ρ c) main_arg6 (by decide))).trans (W7_a6 m ρ c)
theorem W9_a2 (c : Dev nD) : W9 m ρ c (Proc.devRef .tc main_arg2) = A2 m c :=
  ((W9_of_ne m ρ c main_arg2 (by decide)).trans (Stretch.keepA_L1 (W7 m ρ c) main_arg2 (by decide))).trans (W7_a2 m ρ c)

/-! ## The row lookup and the aggregation -/

/-- The looked-up rows are the reference's gather: no id falls outside the table, so no row is replaced. -/
theorem W10_rows (c : Dev nD) (hsrc : SrcInRange m c) :
    W10 m ρ c (Proc.devRef .tc main_v20) = Cert.ReferenceIdeal.Read.val_main_v36 (F := Ideal) (A0 m c) (A1 m c) (A3 m c) (A4 m c) (A5 m c) (A6 m c) :=
  (Cert.KernelIdeal.TakeValue.take_call1 (W9 m ρ c)).trans (by
    rw [W9_lin m ρ c hsrc, W9_src m ρ c, Cert.KernelIdeal.TakeValue.takeK_eq_gather _ _ hsrc]; rfl)

theorem W10_dst (c : Dev nD) : W10 m ρ c (Proc.devRef .tc main_v3) = Cert.ReferenceIdeal.Read.val_main_v3 (F := Ideal) (A1 m c) :=
  (Stretch.keepB_L1 (W9 m ρ c) main_v3 (by decide)).trans (W9_dst m ρ c)
theorem W10_a6 (c : Dev nD) : W10 m ρ c (Proc.devRef .tc main_arg6) = A6 m c :=
  (Stretch.keepB_L1 (W9 m ρ c) main_arg6 (by decide)).trans (W9_a6 m ρ c)

/-- The aggregated features are the reference's. -/
theorem W11_agg (c : Dev nD) (hsrc : SrcInRange m c) :
    W11 m ρ c (Proc.devRef .tc main_v23) = Cert.ReferenceIdeal.Read.val_main_v39 (F := Ideal) (A0 m c) (A1 m c) (A3 m c) (A4 m c) (A5 m c) (A6 m c) :=
  (Stretch.agg_of_L1 (W10 m ρ c)).trans (by rw [W10_rows m ρ c hsrc, W10_dst m ρ c]; rfl)

/-- The layer's bias as one row: the reference's bias vector with a unit axis in front. -/
theorem W11_bias (c : Dev nD) : W11 m ρ c (Proc.devRef .tc main_v26)
    = shapeCast S1x146 (Cert.ReferenceIdeal.Read.val_main_v41 (F := Ideal) (A6 m c)) shapeCasts_S146_S1x146 :=
  (Stretch.bias_of_L1 (W10 m ρ c)).trans (by rw [W10_a6 m ρ c]; rfl)

/-! ## The bias-and-clip call -/

/-- The node features at the layer's exit are the reference's. -/
theorem W12_h (c : Dev nD) (hsrc : SrcInRange m c) :
    W12 m ρ c (Proc.devRef .tc main_v27) = Cert.ReferenceIdeal.Read.val_main_v45 (F := Ideal) (A0 m c) (A1 m c) (A3 m c) (A4 m c) (A5 m c) (A6 m c) := by
  refine (W12_arr m ρ c 2).trans ((Cert.KernelIdeal.RegionValue.final4 (V11 m ρ) c).trans ?_)
  have e0 : V11 m ρ c main_v23 = _ := W11_agg m ρ c hsrc
  have e1 : V11 m ρ c main_v26 = _ := W11_bias m ρ c
  rw [e0, e1]
  exact (Cert.ReferenceIdeal.RefValue.biasRelu_eq _ (Cert.ReferenceIdeal.Read.val_main_v41 (F := Ideal) (A6 m c)) _
    (fun q => ValueIdx.shapeCast_a_1a_apply _ _ 0 q)).symm

theorem W12_src (c : Dev nD) : W12 m ρ c (Proc.devRef .tc main_v1) = Cert.ReferenceIdeal.Read.val_main_v1 (F := Ideal) (A1 m c) :=
  ((W12_of_ne m ρ c main_v1 (by decide)).trans ((Stretch.keepC_L1 (W10 m ρ c) main_v1 (by decide)).trans (Stretch.keepB_L1 (W9 m ρ c) main_v1 (by decide)))).trans (W9_src m ρ c)
theorem W12_dst (c : Dev nD) : W12 m ρ c (Proc.devRef .tc main_v3) = Cert.ReferenceIdeal.Read.val_main_v3 (F := Ideal) (A1 m c) :=
  ((W12_of_ne m ρ c main_v3 (by decide)).trans ((Stretch.keepC_L1 (W10 m ρ c) main_v3 (by decide)).trans (Stretch.keepB_L1 (W9 m ρ c) main_v3 (by decide)))).trans (W9_dst m ρ c)
theorem W12_a5 (c : Dev nD) : W12 m ρ c (Proc.devRef .tc main_arg5) = A5 m c :=
  ((W12_of_ne m ρ c main_arg5 (by decide)).trans ((Stretch.keepC_L1 (W10 m ρ c) main_arg5 (by decide)).trans (Stretch.keepB_L1 (W9 m ρ c) main_arg5 (by decide)))).trans (W9_a5 m ρ c)
theorem W12_a6 (c : Dev nD) : W12 m ρ c (Proc.devRef .tc main_arg6) = A6 m c :=
  ((W12_of_ne m ρ c main_arg6 (by decide)).trans ((Stretch.keepC_L1 (W10 m ρ c) main_arg6 (by decide)).trans (Stretch.keepB_L1 (W9 m ρ c) main_arg6 (by decide)))).trans (W9_a6 m ρ c)
theorem W12_a2 (c : Dev nD) : W12 m ρ c (Proc.devRef .tc main_arg2) = A2 m c :=
  ((W12_of_ne m ρ c main_arg2 (by decide)).trans ((Stretch.keepC_L1 (W10 m ρ c) main_arg2 (by decide)).trans (Stretch.keepB_L1 (W9 m ρ c) main_arg2 (by decide)))).trans (W9_a2 m ρ c)

end Cert.KernelIdeal.Walk

end
-- ==== Proof.Stretch2.lean ====
/- The host operations of one graph-convolution layer, between its two kernel calls and after them: the layer's weight matrix is cut out of the stack of four and laid out as 146 × 146; the looked-up rows are added into the rows their destination ids name, starting from zeros; the layer's bias is cut out of the stack of four and laid out as one 1 × 146 row. Each lemma reads one result off an arbitrary valuation the operations start from. -/
import proofs.«407027_j41016937677161_1_alg».proof.Proof.Gen.KernelIdeal.Launch
import proofs.«407027_j41016937677161_1_alg».proof.Proof.KeepTac
import Idealize.ShloMosaic.Lib.StableHlo.Run
import Idealize.ShloMosaic.PureOps.Ideal

set_option maxRecDepth 16384

noncomputable section

namespace Cert.KernelIdeal.Stretch

open Idealize.ShloMosaic Idealize.ShloMosaic.TcCoe Idealize.SL.Sem
open Cert.KernelIdeal Cert.KernelIdeal.Gen

variable (W : Valuation τ sig (Elt Ideal))

/-- Cutting out the layer's weight matrix writes only its own two buffers. -/
theorem keepA_L2 (b : Ref sig .tc) (hb : ∀ y ∈ [main_v28, main_v29], b ≠ y) :
    StableHlo.after hostOps5 W (Proc.devRef .tc b) = W (Proc.devRef .tc b) := by
  keep_of hostOps5 hb

/-- The row lookup writes only its own buffers. -/
theorem keepB_L2 (b : Ref sig .tc) (hb : ∀ y ∈ [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v31], b ≠ y) :
    StableHlo.after hostOps6 W (Proc.devRef .tc b) = W (Proc.devRef .tc b) := by
  keep_of hostOps6 hb

/-- The aggregation and the bias layout write only their own buffers. -/
theorem keepC_L2 (b : Ref sig .tc) (hb : ∀ y ∈ [main_cst_1, main_v32, main_v33, main_v34, main_v35, main_v36, main_v37], b ≠ y) :
    StableHlo.after hostOps6_1 W (Proc.devRef .tc b) = W (Proc.devRef .tc b) := by
  keep_of hostOps6_1 hb

/-- The layer's weight matrix: slab 2 of the stack, as a 146 × 146 array. -/
theorem wg_of_L2 : StableHlo.after hostOps5 W (Proc.devRef .tc main_v29)
    = shapeCast S146x146 (extractStridedSlice S1x146x146 ![2, 0, 0] (W (Proc.devRef .tc main_arg5)) slices_S4x146x146_S1x146x146_2_0_0) shapeCasts_S1x146x146_S146x146 := by
  after_results <;> rfl

/-- The aggregated features: zeros, with every looked-up row added into the row its destination id names. -/
theorem agg_of_L2 : StableHlo.after hostOps6_1 W (Proc.devRef .tc main_v34)
    = Host.scatterAdd scatter_S50000x146_S800000x1_S800000x146_1_0_0_1
        (broadcastInDim S50000x146 ![] bcast_S_S50000x146 (constant (F := Ideal) S_ .f32 0x00000000#32))
        (broadcastInDim S800000x1 ![0] bcast_S800000_S800000x1_0 (W (Proc.devRef .tc main_v3)))
        (W (Proc.devRef .tc main_v31)) := by
  after_results <;> rfl

/-- The layer's bias: row 2 of the stack as a vector, then as one 1 × 146 row. -/
theorem bias_of_L2 : StableHlo.after hostOps6_1 W (Proc.devRef .tc main_v37)
    = shapeCast S1x146 (shapeCast S146 (extractStridedSlice S1x146 ![2, 0] (W (Proc.devRef .tc main_arg6)) slices_S4x146_S1x146_2_0) shapeCasts_S1x146_S146) shapeCasts_S146_S1x146 := by
  after_results <;> rfl

end Cert.KernelIdeal.Stretch

end
-- ==== Proof.Region5.lean ====
/- A dense call: ten row blocks of 5000 nodes, each the block's features times the whole 146 × 146 weight matrix. -/
import proofs.«407027_j41016937677161_1_alg».proof.Proof.Gen.KernelIdeal.Frame
import proofs.«407027_j41016937677161_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- A whole-block access starts at offset zero on both axes. -/
theorem zero_offsets5 : (![0, 0] : Fin 2 → Nat) = fun _ => 0 := funext fun a => by fin_cases a <;> rfl

/-- The left operand of the block product is read at the output's row … -/
theorem lhs_dense5_0 (i : S5000x146.Idx) (q : dot_S5000x146_S146x146_S5000x146_1_0_0_1_n_n.contr.Idx) :
    (dot_S5000x146_S146x146_S5000x146_1_0_0_1_n_n.lhsIdx i q 0).val = (i 0).val := by
  unfold DotDims.lhsIdx
  rw [dif_neg (show ¬(0 : Fin S5000x146.rank) ∈ dot_S5000x146_S146x146_S5000x146_1_0_0_1_n_n.lhsBatch by decide), dif_pos (show (0 : Fin S5000x146.rank) ∈ dot_S5000x146_S146x146_S5000x146_1_0_0_1_n_n.lhsNonContracting by decide)]
  rfl
/-- … and at the inner index as its column. -/
theorem lhs_dense5_1 (i : S5000x146.Idx) (q : dot_S5000x146_S146x146_S5000x146_1_0_0_1_n_n.contr.Idx) :
    (dot_S5000x146_S146x146_S5000x146_1_0_0_1_n_n.lhsIdx i q 1).val = (q ⟨0, by decide⟩).val :=
  dot_S5000x146_S146x146_S5000x146_1_0_0_1_n_n.lhsIdx_val_of_single rfl i q
/-- The right operand is read at the inner index as its row … -/
theorem rhs_dense5_0 (i : S5000x146.Idx) (q : dot_S5000x146_S146x146_S5000x146_1_0_0_1_n_n.contr.Idx) :
    (dot_S5000x146_S146x146_S5000x146_1_0_0_1_n_n.rhsIdx i q 0).val = (q ⟨0, by decide⟩).val :=
  dot_S5000x146_S146x146_S5000x146_1_0_0_1_n_n.rhsIdx_val_of_single rfl i q
/-- … and at the output's column. -/
theorem rhs_dense5_1 (i : S5000x146.Idx) (q : dot_S5000x146_S146x146_S5000x146_1_0_0_1_n_n.contr.Idx) :
    (dot_S5000x146_S146x146_S5000x146_1_0_0_1_n_n.rhsIdx i q 1).val = (i 1).val := by
  unfold DotDims.rhsIdx
  rw [dif_neg (show ¬(1 : Fin S146x146.rank) ∈ dot_S5000x146_S146x146_S5000x146_1_0_0_1_n_n.rhsBatch by decide), dif_pos (show (1 : Fin S146x146.rank) ∈ dot_S5000x146_S146x146_S5000x146_1_0_0_1_n_n.rhsNonContracting by decide)]
  rfl

/-- What the body stores, entry by entry: entry (p, q) of the block is the sum over the inner index k of the feature
    block's (p, k) times the weight matrix's (k, q). Narrowing to bf16 changes nothing over the extended reals, and the
    accumulator starts at zero. -/
theorem dense_block5_apply (x0 : Vec Ideal S5000x146 .f32) (x1 : Vec Ideal S146x146 .f32) (p : Fin 5000) (q : Fin 146) :
    k5_pay1 (F := Ideal) x0 x1 (ValueIdx.ix2 p q) = ∑ k : Fin 146, x0 (ValueIdx.ix2 p k) * x1 (ValueIdx.ix2 k q) := by
  unfold k5_pay1
  simp only [shapeCast_self]
  refine (Ideal.matmul_constant_zero_apply dot_S5000x146_S146x146_S5000x146_1_0_0_1_n_n none _ _ (ValueIdx.ix2 p q)).trans ?_
  rw [← Equiv.sum_comp (ValueIdx.contrEquiv1 dot_S5000x146_S146x146_S5000x146_1_0_0_1_n_n 146 rfl rfl).symm]
  refine Finset.sum_congr rfl fun k _ => ?_
  have hk := ValueIdx.contrEquiv1_symm_val dot_S5000x146_S146x146_S5000x146_1_0_0_1_n_n 146 rfl rfl k
  have el : dot_S5000x146_S146x146_S5000x146_1_0_0_1_n_n.lhsIdx (ValueIdx.ix2 p q) ((ValueIdx.contrEquiv1 dot_S5000x146_S146x146_S5000x146_1_0_0_1_n_n 146 rfl rfl).symm k) = ValueIdx.ix2 p k := funext fun a => Fin.ext (by
    match a with
    | ⟨0, _⟩ => exact lhs_dense5_0 _ _
    | ⟨1, _⟩ => exact (lhs_dense5_1 _ _).trans hk)
  have er : dot_S5000x146_S146x146_S5000x146_1_0_0_1_n_n.rhsIdx (ValueIdx.ix2 p q) ((ValueIdx.contrEquiv1 dot_S5000x146_S146x146_S5000x146_1_0_0_1_n_n 146 rfl rfl).symm k) = ValueIdx.ix2 k q := funext fun a => Fin.ext (by
    match a with
    | ⟨0, _⟩ => exact (rhs_dense5_0 _ _).trans hk
    | ⟨1, _⟩ => exact rhs_dense5_1 _ _)
  rw [el, er]
  rfl

/-- Where the windows sit at each of the ten points: at point t the feature window and the output window are at row
    block t, and the weight window at the one block its array has. -/
theorem block_indices5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The feature window's block at point t is rows 5000·t … 5000·t + 4999 of the feature array. -/
theorem feature_block5_apply (c : Dev nD) (t : Fin cfg5.N) (y : S5000x146.Idx) (i : S50000x146.Idx)
    (h0 : (i 0).val = t.val * 5000 + (y 0).val) (h1 : (i 1).val = (y 1).val) :
    (iblk5 V c 0 t : Vec Ideal S5000x146 .f32) y = (V c main_v27 : S50000x146.Idx → Elt Ideal .f32) i := by
  obtain ⟨e0, e1, -, -, -, -⟩ := block_indices5 t
  unfold iblk5
  rw [View.read_apply]
  show V c main_v27 _ = V c main_v27 _
  congr 1
  funext a
  apply Fin.ext
  match a with
  | ⟨0, _⟩ => show win5_0.index t (0 : Fin 2) * 5000 + 1 * (y 0).val = (i 0).val; rw [e0, h0]; omega
  | ⟨1, _⟩ => show win5_0.index t (1 : Fin 2) * 146 + 1 * (y 1).val = (i 1).val; rw [e1, h1]; omega

/-- The weight window's block at every point is the whole weight matrix. -/
theorem weight_block5_apply (c : Dev nD) (t : Fin cfg5.N) (y : S146x146.Idx) :
    (iblk5 V c 1 t : Vec Ideal S146x146 .f32) y = (V c main_v29 : S146x146.Idx → Elt Ideal .f32) y := by
  obtain ⟨-, -, e2, e3, -, -⟩ := block_indices5 t
  unfold iblk5
  rw [View.read_apply]
  show V c main_v29 _ = V c main_v29 _
  congr 1
  funext a
  apply Fin.ext
  match a with
  | ⟨0, _⟩ => show win5_1.index t (0 : Fin 2) * 146 + 1 * (y 0).val = (y 0).val; rw [e2]; omega
  | ⟨1, _⟩ => show win5_1.index t (1 : Fin 2) * 146 + 1 * (y 1).val = (y 1).val; rw [e3]; omega

/-- One point's product is a block of the whole product. If the feature block x0 is rows 5000·r … of the array X and
    the weight block x1 is the matrix W, then entry j of the block product is entry i of X·W whenever i is j moved down
    by 5000·r rows: both are the same sum over the inner index, of the same row of features against the same column of
    weights. -/
theorem dense_point5 (x0 : Vec Ideal S5000x146 .f32) (x1 : Vec Ideal S146x146 .f32)
    (X : FVec Ideal (⟨2, ![50000, 146]⟩ : Shape) .f32) (W : FVec Ideal (⟨2, ![146, 146]⟩ : Shape) .f32) (r : Nat)
    (hX : ∀ (y : S5000x146.Idx) (i : S50000x146.Idx), (i 0).val = r * 5000 + (y 0).val → (i 1).val = (y 1).val → x0 y = X i)
    (hW : ∀ y : S146x146.Idx, x1 y = W y)
    (j : S5000x146.Idx) (i : S50000x146.Idx) (h0 : (i 0).val = r * 5000 + (j 0).val) (h1 : (i 1).val = (j 1).val) :
    k5_pay1 (F := Ideal) x0 x1 j = Cert.Spec.mm X W i := by
  obtain ⟨p, q, rfl⟩ : ∃ (p : Fin 5000) (q : Fin 146), j = ValueIdx.ix2 p q := ⟨j 0, j 1, ValueIdx.eq_ix2 j⟩
  obtain ⟨r', q', rfl⟩ : ∃ (r' : Fin 50000) (q' : Fin 146), i = ValueIdx.ix2 r' q' := ⟨i 0, i 1, ValueIdx.eq_ix2 i⟩
  have hq : q' = q := Fin.ext h1
  subst hq
  have hr : r'.val = r * 5000 + p.val := h0
  rw [dense_block5_apply]
  show _ = ∑ k : Fin 146, X (ValueIdx.ix2 r' k) * W (ValueIdx.ix2 k q')
  refine Finset.sum_congr rfl fun k _ => ?_
  rw [hX (ValueIdx.ix2 p k) (ValueIdx.ix2 r' k) hr rfl, hW]

/-- What point t writes back is block t of the product of the feature array with the weight matrix: row p of the
    block is row 5000·t + p of the array, and its entries are sums over whole rows of features and whole columns of
    weights, all of which the point holds. -/
theorem flushed_dense5 (c : Dev nD) (t : Fin cfg5.N) :
    (dat5 (F := Ideal) V c).flushed 2 t
      = ((cfg5.win 2).blk t).view.read (Elt Ideal) (Cert.Spec.mm (V c main_v27) (V c main_v29)) := by
  show (cfg5.win 2).cut (grid5.coords t) ((dat5 V c).after 2 t) = _
  rw [after5_2]
  unfold out5_2
  rw [View.canon_unit_zero zero_offsets5]
  simp only [View.ld_unit_zero (S := S5000x146) zero_offsets5, View.ld_unit_zero (S := S146x146) zero_offsets5]
  obtain ⟨-, -, -, -, e4, e5⟩ := block_indices5 t
  funext j
  exact dense_point5 (iblk5 V c 0 t) (iblk5 V c 1 t) (V c main_v27) (V c main_v29) t.val
    (feature_block5_apply V c t) (weight_block5_apply V c t) j (((cfg5.win 2).blk t).view.emb j)
    (by show win5_2.index t (0 : Fin 2) * 5000 + 1 * (j 0).val = t.val * 5000 + (j 0).val; rw [e4]; omega)
    (by show win5_2.index t (1 : Fin 2) * 146 + 1 * (j 1).val = (j 1).val; rw [e5]; omega)

/-- An index of the output array lies in point t's block iff each coordinate lies in the block's range on its axis. -/
theorem mem_out_block5 (t : Fin cfg5.N) (i : S50000x146.Idx) :
    i ∈ ((cfg5.win 2).blk t).view.set ↔ ∀ a : Fin 2, win5_2.index t a * S5000x146.size a ≤ (i a).val ∧ (i a).val < win5_2.index t a * S5000x146.size a + S5000x146.size a := by
  show i ∈ ((View.whole main_v30).slice (win5_2.rect t)).set ↔ _
  rw [View.set_slice_whole, Rect.mem_set_unit]
  exact Iff.rfl

/-- The ten row blocks fill the output array: row r lies in the block of point r / 5000. -/
theorem rows_covered5 (i : S50000x146.Idx) :
    ∃ t : Fin cfg5.N, (cfg5.win 2).flush t = true ∧ i ∈ ((cfg5.win 2).blk t).view.set := by
  have hi0 : (i 0).val < 50000 := (i 0).isLt
  have hi1 : (i 1).val < 146 := (i 1).isLt
  have hN : cfg5.N = 10 := N_5
  have ht : (i 0).val / 5000 < cfg5.N := by rw [hN]; omega
  obtain ⟨-, -, -, -, e4, e5⟩ := block_indices5 ⟨(i 0).val / 5000, ht⟩
  have e4' : win5_2.index ⟨(i 0).val / 5000, ht⟩ (0 : Fin 2) = (i 0).val / 5000 := e4
  refine ⟨⟨(i 0).val / 5000, ht⟩, flush5_2 _, ?_⟩
  rw [mem_out_block5]
  intro a
  match a with
  | ⟨0, _⟩ => show win5_2.index ⟨(i 0).val / 5000, ht⟩ (0 : Fin 2) * 5000 ≤ (i 0).val ∧ (i 0).val < win5_2.index ⟨(i 0).val / 5000, ht⟩ (0 : Fin 2) * 5000 + 5000; rw [e4']; omega
  | ⟨1, _⟩ => show win5_2.index ⟨(i 0).val / 5000, ht⟩ (1 : Fin 2) * 146 ≤ (i 1).val ∧ (i 1).val < win5_2.index ⟨(i 0).val / 5000, ht⟩ (1 : Fin 2) * 146 + 146; rw [e5]; omega

/-- After the dense call every row block has been written back: the output array is the product of the node features
    with the layer's weight matrix. -/
theorem final5 (c : Dev nD) :
    (dat5 (F := Ideal) V c).arrAt 2 cfg5.N = Cert.Spec.mm (V c main_v27) (V c main_v29) :=
  (dat5 (F := Ideal) V c).arrAt_eq_of_cover 2 (Cert.Spec.mm (V c main_v27) (V c main_v29))
    (fun t _ => flushed_dense5 V c t) (rows_covered5)

end Cert.KernelIdeal.RegionValue

end
-- ==== Proof.Region6.lean ====
/- A bias-and-clip call: ten row blocks of 5000 nodes, each entry the aggregated feature plus its column's bias, clipped below at zero. -/
import proofs.«407027_j41016937677161_1_alg».proof.Proof.Gen.KernelIdeal.Frame
import proofs.«407027_j41016937677161_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

/-- The body's one store, and each of its loads, starts at the origin of its buffer. -/
theorem origin_r6 : (![0, 0] : Fin 2 → Nat) = fun _ => 0 := funext fun a => by fin_cases a <;> rfl

/-- The body's arithmetic at entry (p, q) of a block: the feature block's entry plus the bias row's entry of column q,
    clipped below at zero. The two shape casts keep the shape; the broadcast repeats the one row over the 5000 rows. -/
theorem bias_clip_at_r6 (x0 : Vec Ideal S5000x146 .f32) (x1 : Vec Ideal S1x146 .f32) (p : Fin 5000) (q : Fin 146) :
    k6_pay1 (F := Ideal) x0 x1 (ix2 p q) = max (x0 (ix2 p q) + x1 (ix2 (0 : Fin 1) q)) (Ideal.ofBits .f32 0x00000000#32) := by
  unfold k6_pay1
  rw [maximumf_apply, addf_apply, broadcast_apply, shapeCast_self, shapeCast_self, broadcastTo_1b_ab_apply]
  rfl

/-- The block indices at grid point t: the feature window and the output window are at row block t, column block 0;
    the bias window stays at its one block. -/
theorem block_indices_r6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Entry (p, q) of what the body stores is entry i of the whole-array function, once the feature block's entry (p, q)
    is the feature array's entry i, i is in column q, and the bias block is the bias row. -/
theorem stored_entry_r6 (x0 : Vec Ideal S5000x146 .f32) (x1 : Vec Ideal S1x146 .f32)
    (y : FVec Ideal S50000x146 .f32) (b : FVec Ideal S1x146 .f32) (p : Fin 5000) (q : Fin 146) (i : S50000x146.Idx)
    (h1 : (i 1).val = q.val) (hx : x0 (ix2 p q) = y i) (hb : x1 (ix2 (0 : Fin 1) q) = b (ix2 (0 : Fin 1) q)) :
    k6_pay1 (F := Ideal) x0 x1 (ix2 p q) = Cert.Spec.relu0 (Cert.Spec.addRow y b) i := by
  rw [bias_clip_at_r6, hx, hb]
  have e : (i 1 : Fin 146) = q := Fin.ext h1
  show _ = max (y i + b (ix2 (0 : Fin 1) (i 1))) _
  rw [e]

/-- Entry (p, q) of the feature block read at point t is entry (5000 t + p, q) of the feature array. -/
theorem feature_block_at_r6 (c : Dev nD) (t : Fin cfg6.N) (p : Fin 5000) (q : Fin 146) (i : S50000x146.Idx)
    (h0 : (i 0).val = t.val * 5000 + p.val) (h1 : (i 1).val = q.val) :
    (iblk6 V c 0 t : Vec Ideal S5000x146 .f32) (ix2 p q) = (V c main_v34 : Vec Ideal S50000x146 .f32) i := by
  obtain ⟨e0, e1, -⟩ := block_indices_r6 t
  unfold iblk6
  show V c main_v34 (((cfg6.win 0).blk t).view.emb (ix2 p q)) = V c main_v34 i
  refine congrArg (V c main_v34) (funext fun a => Fin.ext ?_)
  match a with
  | ⟨0, _⟩ => show win6_0.index t (0 : Fin 2) * 5000 + 1 * p.val = (i 0).val; omega
  | ⟨1, _⟩ => show win6_0.index t (1 : Fin 2) * 146 + 1 * q.val = (i 1).val; omega

/-- Entry (0, q) of the bias block read at any point is entry (0, q) of the bias row. -/
theorem bias_block_at_r6 (c : Dev nD) (t : Fin cfg6.N) (q : Fin 146) :
    (iblk6 V c 1 t : Vec Ideal S1x146 .f32) (ix2 (0 : Fin 1) q) = (V c main_v37 : Vec Ideal S1x146 .f32) (ix2 (0 : Fin 1) q) := by
  obtain ⟨-, -, e2, e3, -⟩ := block_indices_r6 t
  unfold iblk6
  show V c main_v37 (((cfg6.win 1).blk t).view.emb (ix2 (0 : Fin 1) q)) = V c main_v37 (ix2 (0 : Fin 1) q)
  refine congrArg (V c main_v37) (funext fun a => Fin.ext ?_)
  match a with
  | ⟨0, _⟩ => show win6_1.index t (0 : Fin 2) * 1 + 1 * 0 = 0; omega
  | ⟨1, _⟩ => show win6_1.index t (1 : Fin 2) * 146 + 1 * q.val = q.val; omega

/-- What grid point t writes back is row block t of the whole-array function: rows 5000 t … 5000 t + 4999 of the
    features plus the bias row, clipped below at zero. -/
theorem block_written_r6 (c : Dev nD) (t : Fin cfg6.N) :
    (dat6 (F := Ideal) V c).flushed 2 t
      = ((cfg6.win 2).blk t).view.read (Elt Ideal) (Cert.Spec.relu0 (Cert.Spec.addRow (V c main_v34) (V c main_v37))) := by
  show (cfg6.win 2).cut (grid6.coords t) ((dat6 (F := Ideal) V c).after 2 t) = _
  rw [after6_2]
  unfold out6_2
  rw [View.canon_unit_zero origin_r6]
  simp only [View.ld_unit_zero (S := S5000x146) origin_r6, View.ld_unit_zero (S := S1x146) origin_r6]
  obtain ⟨-, -, -, -, e4, e5⟩ := block_indices_r6 t
  refine funext fun (j : S5000x146.Idx) => ?_
  obtain ⟨p, q, rfl⟩ : ∃ (p : Fin 5000) (q : Fin 146), j = ix2 p q := ⟨j 0, j 1, eq_ix2 j⟩
  show k6_pay1 (F := Ideal) (iblk6 V c 0 t) (iblk6 V c 1 t) (ix2 p q)
    = Cert.Spec.relu0 (Cert.Spec.addRow (V c main_v34) (V c main_v37)) (((cfg6.win 2).blk t).view.emb (ix2 p q))
  have r0 : ((((cfg6.win 2).blk t).view.emb (ix2 p q) : S50000x146.Idx) 0).val = t.val * 5000 + p.val := by
    show win6_2.index t (0 : Fin 2) * 5000 + 1 * p.val = _; omega
  have r1 : ((((cfg6.win 2).blk t).view.emb (ix2 p q) : S50000x146.Idx) 1).val = q.val := by
    show win6_2.index t (1 : Fin 2) * 146 + 1 * q.val = _; omega
  exact stored_entry_r6 (iblk6 V c 0 t) (iblk6 V c 1 t) (V c main_v34) (V c main_v37) p q (((cfg6.win 2).blk t).view.emb (ix2 p q)) r1
    (feature_block_at_r6 V c t p q (((cfg6.win 2).blk t).view.emb (ix2 p q)) r0 r1) (bias_block_at_r6 V c t q)

/-- An index of the output array lies in point t's block exactly when, on each axis, its coordinate lies in the
    block's range. -/
theorem mem_row_block_r6 (t : Fin cfg6.N) (i : S50000x146.Idx) :
    i ∈ ((cfg6.win 2).blk t).view.set
      ↔ ∀ a : Fin 2, win6_2.index t a * S5000x146.size a ≤ (i a).val ∧ (i a).val < win6_2.index t a * S5000x146.size a + S5000x146.size a := by
  show i ∈ ((View.whole main_v38).slice (win6_2.rect t)).set ↔ _
  rw [View.set_slice_whole, Rect.mem_set_unit]
  exact Iff.rfl

/-- Every index of the output array lies in a block that is written back: row r lies in row block r / 5000. -/
theorem row_blocks_cover_r6 (i : S50000x146.Idx) :
    ∃ t : Fin cfg6.N, (cfg6.win 2).flush t = true ∧ i ∈ ((cfg6.win 2).blk t).view.set := by
  have hN : cfg6.N = 10 := N_6
  have hi0 : (i 0).val < 50000 := (i 0).isLt
  have hi1 : (i 1).val < 146 := (i 1).isLt
  obtain ⟨t, ht⟩ : ∃ t : Fin cfg6.N, t.val = (i 0).val / 5000 := ⟨⟨(i 0).val / 5000, by rw [hN]; omega⟩, rfl⟩
  obtain ⟨-, -, -, -, e4, e5⟩ := block_indices_r6 t
  refine ⟨t, flush6_2 t, ?_⟩
  rw [mem_row_block_r6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 146 ≤ (i 1).val ∧ (i 1).val < win6_2.index t (1 : Fin 2) * 146 + 146; omega

/-- After the bias-and-clip call every row block has been written back: the output array is the aggregated features
    plus the bias row, clipped below at zero. -/
theorem final6 (c : Dev nD) :
    (dat6 (F := Ideal) V c).arrAt 2 cfg6.N = Cert.Spec.relu0 (Cert.Spec.addRow (V c main_v34) (V c main_v37)) :=
  (dat6 (F := Ideal) V c).arrAt_eq_of_cover 2 (Cert.Spec.relu0 (Cert.Spec.addRow (V c main_v34) (V c main_v37)))
    (fun t _ => block_written_r6 V c t) row_blocks_cover_r6

end Cert.KernelIdeal.RegionValue

end
-- ==== Proof.Walk2.lean ====
/- One graph-convolution layer followed through the program's buffers: from the node features at the layer's entry, through the dense call, the row lookup at the source ids, the aggregation at the destination ids and the bias-and-clip call, to the node features at the layer's exit. Each buffer is stated as the reference's own stage of the launched arguments. The lookup agrees with the reference's only because every source id is a row of the table. The buffers later layers read are carried unchanged. -/
import proofs.«407027_j41016937677161_1_alg».proof.Proof.Gen.KernelIdeal.Frame
import proofs.«407027_j41016937677161_1_alg».proof.Proof.Walk1
import proofs.«407027_j41016937677161_1_alg».proof.Proof.Stretch2
import proofs.«407027_j41016937677161_1_alg».proof.Proof.Region5
import proofs.«407027_j41016937677161_1_alg».proof.Proof.Region6
import proofs.«407027_j41016937677161_1_alg».proof.Proof.Take
import proofs.«407027_j41016937677161_1_alg».proof.Proof.RefLayers
import Idealize.ShloMosaic.Lib.ValueLayout

set_option maxRecDepth 16384

noncomputable section

namespace Cert.KernelIdeal.Walk

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The dense call -/

theorem W13_h (c : Dev nD) (hsrc : SrcInRange m c) :
    W13 m ρ c (Proc.devRef .tc main_v27) = Cert.ReferenceIdeal.Read.val_main_v45 (F := Ideal) (A0 m c) (A1 m c) (A3 m c) (A4 m c) (A5 m c) (A6 m c) :=
  (Stretch.keepA_L2 (W12 m ρ c) main_v27 (by decide)).trans (W12_h m ρ c hsrc)

theorem W13_wg (c : Dev nD) : W13 m ρ c (Proc.devRef .tc main_v29) = Cert.ReferenceIdeal.Read.val_main_v47 (F := Ideal) (A5 m c) :=
  (Stretch.wg_of_L2 (W12 m ρ c)).trans (by rw [W12_a5 m ρ c]; rfl)

/-- The layer's linear transform of the node features is the reference's. -/
theorem W14_lin (c : Dev nD) (hsrc : SrcInRange m c) :
    W14 m ρ c (Proc.devRef .tc main_v30) = Cert.ReferenceIdeal.Read.val_main_v48 (F := Ideal) (A0 m c) (A1 m c) (A3 m c) (A4 m c) (A5 m c) (A6 m c) := by
  refine (W14_arr m ρ c 2).trans ((Cert.KernelIdeal.RegionValue.final5 (V13 m ρ) c).trans ?_)
  have e0 : V13 m ρ c main_v27 = _ := W13_h m ρ c hsrc
  have e1 : V13 m ρ c main_v29 = _ := W13_wg m ρ c
  rw [e0, e1]
  exact (Cert.ReferenceIdeal.RefValue.dense_eq _ _).symm

theorem W14_src (c : Dev nD) : W14 m ρ c (Proc.devRef .tc main_v1) = Cert.ReferenceIdeal.Read.val_main_v1 (F := Ideal) (A1 m c) :=
  ((W14_of_ne m ρ c main_v1 (by decide)).trans (Stretch.keepA_L2 (W12 m ρ c) main_v1 (by decide))).trans (W12_src m ρ c)
theorem W14_dst (c : Dev nD) : W14 m ρ c (Proc.devRef .tc main_v3) = Cert.ReferenceIdeal.Read.val_main_v3 (F := Ideal) (A1 m c) :=
  ((W14_of_ne m ρ c main_v3 (by decide)).trans (Stretch.keepA_L2 (W12 m ρ c) main_v3 (by decide))).trans (W12_dst m ρ c)
theorem W14_a5 (c : Dev nD) : W14 m ρ c (Proc.devRef .tc main_arg5) = A5 m c :=
  ((W14_of_ne m ρ c main_arg5 (by decide)).trans (Stretch.keepA_L2 (W12 m ρ c) main_arg5 (by decide))).trans (W12_a5 m ρ c)
theorem W14_a6 (c : Dev nD) : W14 m ρ c (Proc.devRef .tc main_arg6) = A6 m c :=
  ((W14_of_ne m ρ c main_arg6 (by decide)).trans (Stretch.keepA_L2 (W12 m ρ c) main_arg6 (by decide))).trans (W12_a6 m ρ c)
theorem W14_a2 (c : Dev nD) : W14 m ρ c (Proc.devRef .tc main_arg2) = A2 m c :=
  ((W14_of_ne m ρ c main_arg2 (by decide)).trans (Stretch.keepA_L2 (W12 m ρ c) main_arg2 (by decide))).trans (W12_a2 m ρ c)

/-! ## The row lookup and the aggregation -/

/-- The looked-up rows are the reference's gather: no id falls outside the table, so no row is replaced. -/
theorem W15_rows (c : Dev nD) (hsrc : SrcInRange m c) :
    W15 m ρ c (Proc.devRef .tc main_v31) = Cert.ReferenceIdeal.Read.val_main_v55 (F := Ideal) (A0 m c) (A1 m c) (A3 m c) (A4 m c) (A5 m c) (A6 m c) :=
  (Cert.KernelIdeal.TakeValue.take_call2 (W14 m ρ c)).trans (by
    rw [W14_lin m ρ c hsrc, W14_src m ρ c, Cert.KernelIdeal.TakeValue.takeK_eq_gather _ _ hsrc]; rfl)

theorem W15_dst (c : Dev nD) : W15 m ρ c (Proc.devRef .tc main_v3) = Cert.ReferenceIdeal.Read.val_main_v3 (F := Ideal) (A1 m c) :=
  (Stretch.keepB_L2 (W14 m ρ c) main_v3 (by decide)).trans (W14_dst m ρ c)
theorem W15_a6 (c : Dev nD) : W15 m ρ c (Proc.devRef .tc main_arg6) = A6 m c :=
  (Stretch.keepB_L2 (W14 m ρ c) main_arg6 (by decide)).trans (W14_a6 m ρ c)

/-- The aggregated features are the reference's. -/
theorem W16_agg (c : Dev nD) (hsrc : SrcInRange m c) :
    W16 m ρ c (Proc.devRef .tc main_v34) = Cert.ReferenceIdeal.Read.val_main_v58 (F := Ideal) (A0 m c) (A1 m c) (A3 m c) (A4 m c) (A5 m c) (A6 m c) :=
  (Stretch.agg_of_L2 (W15 m ρ c)).trans (by rw [W15_rows m ρ c hsrc, W15_dst m ρ c]; rfl)

/-- The layer's bias as one row: the reference's bias vector with a unit axis in front. -/
theorem W16_bias (c : Dev nD) : W16 m ρ c (Proc.devRef .tc main_v37)
    = shapeCast S1x146 (Cert.ReferenceIdeal.Read.val_main_v60 (F := Ideal) (A6 m c)) shapeCasts_S146_S1x146 :=
  (Stretch.bias_of_L2 (W15 m ρ c)).trans (by rw [W15_a6 m ρ c]; rfl)

/-! ## The bias-and-clip call -/

/-- The node features at the layer's exit are the reference's. -/
theorem W17_h (c : Dev nD) (hsrc : SrcInRange m c) :
    W17 m ρ c (Proc.devRef .tc main_v38) = Cert.ReferenceIdeal.Read.val_main_v64 (F := Ideal) (A0 m c) (A1 m c) (A3 m c) (A4 m c) (A5 m c) (A6 m c) := by
  refine (W17_arr m ρ c 2).trans ((Cert.KernelIdeal.RegionValue.final6 (V16 m ρ) c).trans ?_)
  have e0 : V16 m ρ c main_v34 = _ := W16_agg m ρ c hsrc
  have e1 : V16 m ρ c main_v37 = _ := W16_bias m ρ c
  rw [e0, e1]
  exact (Cert.ReferenceIdeal.RefValue.biasRelu_eq _ (Cert.ReferenceIdeal.Read.val_main_v60 (F := Ideal) (A6 m c)) _
    (fun q => ValueIdx.shapeCast_a_1a_apply _ _ 0 q)).symm

theorem W17_src (c : Dev nD) : W17 m ρ c (Proc.devRef .tc main_v1) = Cert.ReferenceIdeal.Read.val_main_v1 (F := Ideal) (A1 m c) :=
  ((W17_of_ne m ρ c main_v1 (by decide)).trans ((Stretch.keepC_L2 (W15 m ρ c) main_v1 (by decide)).trans (Stretch.keepB_L2 (W14 m ρ c) main_v1 (by decide)))).trans (W14_src m ρ c)
theorem W17_dst (c : Dev nD) : W17 m ρ c (Proc.devRef .tc main_v3) = Cert.ReferenceIdeal.Read.val_main_v3 (F := Ideal) (A1 m c) :=
  ((W17_of_ne m ρ c main_v3 (by decide)).trans ((Stretch.keepC_L2 (W15 m ρ c) main_v3 (by decide)).trans (Stretch.keepB_L2 (W14 m ρ c) main_v3 (by decide)))).trans (W14_dst m ρ c)
theorem W17_a5 (c : Dev nD) : W17 m ρ c (Proc.devRef .tc main_arg5) = A5 m c :=
  ((W17_of_ne m ρ c main_arg5 (by decide)).trans ((Stretch.keepC_L2 (W15 m ρ c) main_arg5 (by decide)).trans (Stretch.keepB_L2 (W14 m ρ c) main_arg5 (by decide)))).trans (W14_a5 m ρ c)
theorem W17_a6 (c : Dev nD) : W17 m ρ c (Proc.devRef .tc main_arg6) = A6 m c :=
  ((W17_of_ne m ρ c main_arg6 (by decide)).trans ((Stretch.keepC_L2 (W15 m ρ c) main_arg6 (by decide)).trans (Stretch.keepB_L2 (W14 m ρ c) main_arg6 (by decide)))).trans (W14_a6 m ρ c)
theorem W17_a2 (c : Dev nD) : W17 m ρ c (Proc.devRef .tc main_arg2) = A2 m c :=
  ((W17_of_ne m ρ c main_arg2 (by decide)).trans ((Stretch.keepC_L2 (W15 m ρ c) main_arg2 (by decide)).trans (Stretch.keepB_L2 (W14 m ρ c) main_arg2 (by decide)))).trans (W14_a2 m ρ c)

end Cert.KernelIdeal.Walk

end
-- ==== Proof.Stretch3.lean ====
/- The host operations of one graph-convolution layer, between its two kernel calls and after them: the layer's weight matrix is cut out of the stack of four and laid out as 146 × 146; the looked-up rows are added into the rows their destination ids name, starting from zeros; the layer's bias is cut out of the stack of four and laid out as one 1 × 146 row. Each lemma reads one result off an arbitrary valuation the operations start from. -/
import proofs.«407027_j41016937677161_1_alg».proof.Proof.Gen.KernelIdeal.Launch
import proofs.«407027_j41016937677161_1_alg».proof.Proof.KeepTac
import Idealize.ShloMosaic.Lib.StableHlo.Run
import Idealize.ShloMosaic.PureOps.Ideal

set_option maxRecDepth 16384

noncomputable section

namespace Cert.KernelIdeal.Stretch

open Idealize.ShloMosaic Idealize.ShloMosaic.TcCoe Idealize.SL.Sem
open Cert.KernelIdeal Cert.KernelIdeal.Gen

variable (W : Valuation τ sig (Elt Ideal))

/-- Cutting out the layer's weight matrix writes only its own two buffers. -/
theorem keepA_L3 (b : Ref sig .tc) (hb : ∀ y ∈ [main_v39, main_v40], b ≠ y) :
    StableHlo.after hostOps7 W (Proc.devRef .tc b) = W (Proc.devRef .tc b) := by
  keep_of hostOps7 hb

/-- The row lookup writes only its own buffers. -/
theorem keepB_L3 (b : Ref sig .tc) (hb : ∀ y ∈ [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v42], b ≠ y) :
    StableHlo.after hostOps8 W (Proc.devRef .tc b) = W (Proc.devRef .tc b) := by
  keep_of hostOps8 hb

/-- The aggregation and the bias layout write only their own buffers. -/
theorem keepC_L3 (b : Ref sig .tc) (hb : ∀ y ∈ [main_cst_2, main_v43, main_v44, main_v45, main_v46, main_v47, main_v48], b ≠ y) :
    StableHlo.after hostOps8_1 W (Proc.devRef .tc b) = W (Proc.devRef .tc b) := by
  keep_of hostOps8_1 hb

/-- The layer's weight matrix: slab 3 of the stack, as a 146 × 146 array. -/
theorem wg_of_L3 : StableHlo.after hostOps7 W (Proc.devRef .tc main_v40)
    = shapeCast S146x146 (extractStridedSlice S1x146x146 ![3, 0, 0] (W (Proc.devRef .tc main_arg5)) slices_S4x146x146_S1x146x146_3_0_0) shapeCasts_S1x146x146_S146x146 := by
  after_results <;> rfl

/-- The aggregated features: zeros, with every looked-up row added into the row its destination id names. -/
theorem agg_of_L3 : StableHlo.after hostOps8_1 W (Proc.devRef .tc main_v45)
    = Host.scatterAdd scatter_S50000x146_S800000x1_S800000x146_1_0_0_1
        (broadcastInDim S50000x146 ![] bcast_S_S50000x146 (constant (F := Ideal) S_ .f32 0x00000000#32))
        (broadcastInDim S800000x1 ![0] bcast_S800000_S800000x1_0 (W (Proc.devRef .tc main_v3)))
        (W (Proc.devRef .tc main_v42)) := by
  after_results <;> rfl

/-- The layer's bias: row 3 of the stack as a vector, then as one 1 × 146 row. -/
theorem bias_of_L3 : StableHlo.after hostOps8_1 W (Proc.devRef .tc main_v48)
    = shapeCast S1x146 (shapeCast S146 (extractStridedSlice S1x146 ![3, 0] (W (Proc.devRef .tc main_arg6)) slices_S4x146_S1x146_3_0) shapeCasts_S1x146_S146) shapeCasts_S146_S1x146 := by
  after_results <;> rfl

end Cert.KernelIdeal.Stretch

end
-- ==== Proof.Region7.lean ====
/- A dense call: ten row blocks of 5000 nodes, each the block's features times the whole 146 × 146 weight matrix. -/
import proofs.«407027_j41016937677161_1_alg».proof.Proof.Gen.KernelIdeal.Frame
import proofs.«407027_j41016937677161_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- A whole-block access starts at offset zero on both axes. -/
theorem zero_offsets7 : (![0, 0] : Fin 2 → Nat) = fun _ => 0 := funext fun a => by fin_cases a <;> rfl

/-- The left operand of the block product is read at the output's row … -/
theorem lhs_dense7_0 (i : S5000x146.Idx) (q : dot_S5000x146_S146x146_S5000x146_1_0_0_1_n_n.contr.Idx) :
    (dot_S5000x146_S146x146_S5000x146_1_0_0_1_n_n.lhsIdx i q 0).val = (i 0).val := by
  unfold DotDims.lhsIdx
  rw [dif_neg (show ¬(0 : Fin S5000x146.rank) ∈ dot_S5000x146_S146x146_S5000x146_1_0_0_1_n_n.lhsBatch by decide), dif_pos (show (0 : Fin S5000x146.rank) ∈ dot_S5000x146_S146x146_S5000x146_1_0_0_1_n_n.lhsNonContracting by decide)]
  rfl
/-- … and at the inner index as its column. -/
theorem lhs_dense7_1 (i : S5000x146.Idx) (q : dot_S5000x146_S146x146_S5000x146_1_0_0_1_n_n.contr.Idx) :
    (dot_S5000x146_S146x146_S5000x146_1_0_0_1_n_n.lhsIdx i q 1).val = (q ⟨0, by decide⟩).val :=
  dot_S5000x146_S146x146_S5000x146_1_0_0_1_n_n.lhsIdx_val_of_single rfl i q
/-- The right operand is read at the inner index as its row … -/
theorem rhs_dense7_0 (i : S5000x146.Idx) (q : dot_S5000x146_S146x146_S5000x146_1_0_0_1_n_n.contr.Idx) :
    (dot_S5000x146_S146x146_S5000x146_1_0_0_1_n_n.rhsIdx i q 0).val = (q ⟨0, by decide⟩).val :=
  dot_S5000x146_S146x146_S5000x146_1_0_0_1_n_n.rhsIdx_val_of_single rfl i q
/-- … and at the output's column. -/
theorem rhs_dense7_1 (i : S5000x146.Idx) (q : dot_S5000x146_S146x146_S5000x146_1_0_0_1_n_n.contr.Idx) :
    (dot_S5000x146_S146x146_S5000x146_1_0_0_1_n_n.rhsIdx i q 1).val = (i 1).val := by
  unfold DotDims.rhsIdx
  rw [dif_neg (show ¬(1 : Fin S146x146.rank) ∈ dot_S5000x146_S146x146_S5000x146_1_0_0_1_n_n.rhsBatch by decide), dif_pos (show (1 : Fin S146x146.rank) ∈ dot_S5000x146_S146x146_S5000x146_1_0_0_1_n_n.rhsNonContracting by decide)]
  rfl

/-- What the body stores, entry by entry: entry (p, q) of the block is the sum over the inner index k of the feature
    block's (p, k) times the weight matrix's (k, q). Narrowing to bf16 changes nothing over the extended reals, and the
    accumulator starts at zero. -/
theorem dense_block7_apply (x0 : Vec Ideal S5000x146 .f32) (x1 : Vec Ideal S146x146 .f32) (p : Fin 5000) (q : Fin 146) :
    k7_pay1 (F := Ideal) x0 x1 (ValueIdx.ix2 p q) = ∑ k : Fin 146, x0 (ValueIdx.ix2 p k) * x1 (ValueIdx.ix2 k q) := by
  unfold k7_pay1
  simp only [shapeCast_self]
  refine (Ideal.matmul_constant_zero_apply dot_S5000x146_S146x146_S5000x146_1_0_0_1_n_n none _ _ (ValueIdx.ix2 p q)).trans ?_
  rw [← Equiv.sum_comp (ValueIdx.contrEquiv1 dot_S5000x146_S146x146_S5000x146_1_0_0_1_n_n 146 rfl rfl).symm]
  refine Finset.sum_congr rfl fun k _ => ?_
  have hk := ValueIdx.contrEquiv1_symm_val dot_S5000x146_S146x146_S5000x146_1_0_0_1_n_n 146 rfl rfl k
  have el : dot_S5000x146_S146x146_S5000x146_1_0_0_1_n_n.lhsIdx (ValueIdx.ix2 p q) ((ValueIdx.contrEquiv1 dot_S5000x146_S146x146_S5000x146_1_0_0_1_n_n 146 rfl rfl).symm k) = ValueIdx.ix2 p k := funext fun a => Fin.ext (by
    match a with
    | ⟨0, _⟩ => exact lhs_dense7_0 _ _
    | ⟨1, _⟩ => exact (lhs_dense7_1 _ _).trans hk)
  have er : dot_S5000x146_S146x146_S5000x146_1_0_0_1_n_n.rhsIdx (ValueIdx.ix2 p q) ((ValueIdx.contrEquiv1 dot_S5000x146_S146x146_S5000x146_1_0_0_1_n_n 146 rfl rfl).symm k) = ValueIdx.ix2 k q := funext fun a => Fin.ext (by
    match a with
    | ⟨0, _⟩ => exact (rhs_dense7_0 _ _).trans hk
    | ⟨1, _⟩ => exact rhs_dense7_1 _ _)
  rw [el, er]
  rfl

/-- Where the windows sit at each of the ten points: at point t the feature window and the output window are at row
    block t, and the weight window at the one block its array has. -/
theorem block_indices7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The feature window's block at point t is rows 5000·t … 5000·t + 4999 of the feature array. -/
theorem feature_block7_apply (c : Dev nD) (t : Fin cfg7.N) (y : S5000x146.Idx) (i : S50000x146.Idx)
    (h0 : (i 0).val = t.val * 5000 + (y 0).val) (h1 : (i 1).val = (y 1).val) :
    (iblk7 V c 0 t : Vec Ideal S5000x146 .f32) y = (V c main_v38 : S50000x146.Idx → Elt Ideal .f32) i := by
  obtain ⟨e0, e1, -, -, -, -⟩ := block_indices7 t
  unfold iblk7
  rw [View.read_apply]
  show V c main_v38 _ = V c main_v38 _
  congr 1
  funext a
  apply Fin.ext
  match a with
  | ⟨0, _⟩ => show win7_0.index t (0 : Fin 2) * 5000 + 1 * (y 0).val = (i 0).val; rw [e0, h0]; omega
  | ⟨1, _⟩ => show win7_0.index t (1 : Fin 2) * 146 + 1 * (y 1).val = (i 1).val; rw [e1, h1]; omega

/-- The weight window's block at every point is the whole weight matrix. -/
theorem weight_block7_apply (c : Dev nD) (t : Fin cfg7.N) (y : S146x146.Idx) :
    (iblk7 V c 1 t : Vec Ideal S146x146 .f32) y = (V c main_v40 : S146x146.Idx → Elt Ideal .f32) y := by
  obtain ⟨-, -, e2, e3, -, -⟩ := block_indices7 t
  unfold iblk7
  rw [View.read_apply]
  show V c main_v40 _ = V c main_v40 _
  congr 1
  funext a
  apply Fin.ext
  match a with
  | ⟨0, _⟩ => show win7_1.index t (0 : Fin 2) * 146 + 1 * (y 0).val = (y 0).val; rw [e2]; omega
  | ⟨1, _⟩ => show win7_1.index t (1 : Fin 2) * 146 + 1 * (y 1).val = (y 1).val; rw [e3]; omega

/-- One point's product is a block of the whole product. If the feature block x0 is rows 5000·r … of the array X and
    the weight block x1 is the matrix W, then entry j of the block product is entry i of X·W whenever i is j moved down
    by 5000·r rows: both are the same sum over the inner index, of the same row of features against the same column of
    weights. -/
theorem dense_point7 (x0 : Vec Ideal S5000x146 .f32) (x1 : Vec Ideal S146x146 .f32)
    (X : FVec Ideal (⟨2, ![50000, 146]⟩ : Shape) .f32) (W : FVec Ideal (⟨2, ![146, 146]⟩ : Shape) .f32) (r : Nat)
    (hX : ∀ (y : S5000x146.Idx) (i : S50000x146.Idx), (i 0).val = r * 5000 + (y 0).val → (i 1).val = (y 1).val → x0 y = X i)
    (hW : ∀ y : S146x146.Idx, x1 y = W y)
    (j : S5000x146.Idx) (i : S50000x146.Idx) (h0 : (i 0).val = r * 5000 + (j 0).val) (h1 : (i 1).val = (j 1).val) :
    k7_pay1 (F := Ideal) x0 x1 j = Cert.Spec.mm X W i := by
  obtain ⟨p, q, rfl⟩ : ∃ (p : Fin 5000) (q : Fin 146), j = ValueIdx.ix2 p q := ⟨j 0, j 1, ValueIdx.eq_ix2 j⟩
  obtain ⟨r', q', rfl⟩ : ∃ (r' : Fin 50000) (q' : Fin 146), i = ValueIdx.ix2 r' q' := ⟨i 0, i 1, ValueIdx.eq_ix2 i⟩
  have hq : q' = q := Fin.ext h1
  subst hq
  have hr : r'.val = r * 5000 + p.val := h0
  rw [dense_block7_apply]
  show _ = ∑ k : Fin 146, X (ValueIdx.ix2 r' k) * W (ValueIdx.ix2 k q')
  refine Finset.sum_congr rfl fun k _ => ?_
  rw [hX (ValueIdx.ix2 p k) (ValueIdx.ix2 r' k) hr rfl, hW]

/-- What point t writes back is block t of the product of the feature array with the weight matrix: row p of the
    block is row 5000·t + p of the array, and its entries are sums over whole rows of features and whole columns of
    weights, all of which the point holds. -/
theorem flushed_dense7 (c : Dev nD) (t : Fin cfg7.N) :
    (dat7 (F := Ideal) V c).flushed 2 t
      = ((cfg7.win 2).blk t).view.read (Elt Ideal) (Cert.Spec.mm (V c main_v38) (V c main_v40)) := by
  show (cfg7.win 2).cut (grid7.coords t) ((dat7 V c).after 2 t) = _
  rw [after7_2]
  unfold out7_2
  rw [View.canon_unit_zero zero_offsets7]
  simp only [View.ld_unit_zero (S := S5000x146) zero_offsets7, View.ld_unit_zero (S := S146x146) zero_offsets7]
  obtain ⟨-, -, -, -, e4, e5⟩ := block_indices7 t
  funext j
  exact dense_point7 (iblk7 V c 0 t) (iblk7 V c 1 t) (V c main_v38) (V c main_v40) t.val
    (feature_block7_apply V c t) (weight_block7_apply V c t) j (((cfg7.win 2).blk t).view.emb j)
    (by show win7_2.index t (0 : Fin 2) * 5000 + 1 * (j 0).val = t.val * 5000 + (j 0).val; rw [e4]; omega)
    (by show win7_2.index t (1 : Fin 2) * 146 + 1 * (j 1).val = (j 1).val; rw [e5]; omega)

/-- An index of the output array lies in point t's block iff each coordinate lies in the block's range on its axis. -/
theorem mem_out_block7 (t : Fin cfg7.N) (i : S50000x146.Idx) :
    i ∈ ((cfg7.win 2).blk t).view.set ↔ ∀ a : Fin 2, win7_2.index t a * S5000x146.size a ≤ (i a).val ∧ (i a).val < win7_2.index t a * S5000x146.size a + S5000x146.size a := by
  show i ∈ ((View.whole main_v41).slice (win7_2.rect t)).set ↔ _
  rw [View.set_slice_whole, Rect.mem_set_unit]
  exact Iff.rfl

/-- The ten row blocks fill the output array: row r lies in the block of point r / 5000. -/
theorem rows_covered7 (i : S50000x146.Idx) :
    ∃ t : Fin cfg7.N, (cfg7.win 2).flush t = true ∧ i ∈ ((cfg7.win 2).blk t).view.set := by
  have hi0 : (i 0).val < 50000 := (i 0).isLt
  have hi1 : (i 1).val < 146 := (i 1).isLt
  have hN : cfg7.N = 10 := N_7
  have ht : (i 0).val / 5000 < cfg7.N := by rw [hN]; omega
  obtain ⟨-, -, -, -, e4, e5⟩ := block_indices7 ⟨(i 0).val / 5000, ht⟩
  have e4' : win7_2.index ⟨(i 0).val / 5000, ht⟩ (0 : Fin 2) = (i 0).val / 5000 := e4
  refine ⟨⟨(i 0).val / 5000, ht⟩, flush7_2 _, ?_⟩
  rw [mem_out_block7]
  intro a
  match a with
  | ⟨0, _⟩ => show win7_2.index ⟨(i 0).val / 5000, ht⟩ (0 : Fin 2) * 5000 ≤ (i 0).val ∧ (i 0).val < win7_2.index ⟨(i 0).val / 5000, ht⟩ (0 : Fin 2) * 5000 + 5000; rw [e4']; omega
  | ⟨1, _⟩ => show win7_2.index ⟨(i 0).val / 5000, ht⟩ (1 : Fin 2) * 146 ≤ (i 1).val ∧ (i 1).val < win7_2.index ⟨(i 0).val / 5000, ht⟩ (1 : Fin 2) * 146 + 146; rw [e5]; omega

/-- After the dense call every row block has been written back: the output array is the product of the node features
    with the layer's weight matrix. -/
theorem final7 (c : Dev nD) :
    (dat7 (F := Ideal) V c).arrAt 2 cfg7.N = Cert.Spec.mm (V c main_v38) (V c main_v40) :=
  (dat7 (F := Ideal) V c).arrAt_eq_of_cover 2 (Cert.Spec.mm (V c main_v38) (V c main_v40))
    (fun t _ => flushed_dense7 V c t) (rows_covered7)

end Cert.KernelIdeal.RegionValue

end
-- ==== Proof.Region8.lean ====
/- A bias-and-clip call: ten row blocks of 5000 nodes, each entry the aggregated feature plus its column's bias, clipped below at zero. -/
import proofs.«407027_j41016937677161_1_alg».proof.Proof.Gen.KernelIdeal.Frame
import proofs.«407027_j41016937677161_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

/-- The body's one store, and each of its loads, starts at the origin of its buffer. -/
theorem origin_r8 : (![0, 0] : Fin 2 → Nat) = fun _ => 0 := funext fun a => by fin_cases a <;> rfl

/-- The body's arithmetic at entry (p, q) of a block: the feature block's entry plus the bias row's entry of column q,
    clipped below at zero. The two shape casts keep the shape; the broadcast repeats the one row over the 5000 rows. -/
theorem bias_clip_at_r8 (x0 : Vec Ideal S5000x146 .f32) (x1 : Vec Ideal S1x146 .f32) (p : Fin 5000) (q : Fin 146) :
    k8_pay1 (F := Ideal) x0 x1 (ix2 p q) = max (x0 (ix2 p q) + x1 (ix2 (0 : Fin 1) q)) (Ideal.ofBits .f32 0x00000000#32) := by
  unfold k8_pay1
  rw [maximumf_apply, addf_apply, broadcast_apply, shapeCast_self, shapeCast_self, broadcastTo_1b_ab_apply]
  rfl

/-- The block indices at grid point t: the feature window and the output window are at row block t, column block 0;
    the bias window stays at its one block. -/
theorem block_indices_r8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Entry (p, q) of what the body stores is entry i of the whole-array function, once the feature block's entry (p, q)
    is the feature array's entry i, i is in column q, and the bias block is the bias row. -/
theorem stored_entry_r8 (x0 : Vec Ideal S5000x146 .f32) (x1 : Vec Ideal S1x146 .f32)
    (y : FVec Ideal S50000x146 .f32) (b : FVec Ideal S1x146 .f32) (p : Fin 5000) (q : Fin 146) (i : S50000x146.Idx)
    (h1 : (i 1).val = q.val) (hx : x0 (ix2 p q) = y i) (hb : x1 (ix2 (0 : Fin 1) q) = b (ix2 (0 : Fin 1) q)) :
    k8_pay1 (F := Ideal) x0 x1 (ix2 p q) = Cert.Spec.relu0 (Cert.Spec.addRow y b) i := by
  rw [bias_clip_at_r8, hx, hb]
  have e : (i 1 : Fin 146) = q := Fin.ext h1
  show _ = max (y i + b (ix2 (0 : Fin 1) (i 1))) _
  rw [e]

/-- Entry (p, q) of the feature block read at point t is entry (5000 t + p, q) of the feature array. -/
theorem feature_block_at_r8 (c : Dev nD) (t : Fin cfg8.N) (p : Fin 5000) (q : Fin 146) (i : S50000x146.Idx)
    (h0 : (i 0).val = t.val * 5000 + p.val) (h1 : (i 1).val = q.val) :
    (iblk8 V c 0 t : Vec Ideal S5000x146 .f32) (ix2 p q) = (V c main_v45 : Vec Ideal S50000x146 .f32) i := by
  obtain ⟨e0, e1, -⟩ := block_indices_r8 t
  unfold iblk8
  show V c main_v45 (((cfg8.win 0).blk t).view.emb (ix2 p q)) = V c main_v45 i
  refine congrArg (V c main_v45) (funext fun a => Fin.ext ?_)
  match a with
  | ⟨0, _⟩ => show win8_0.index t (0 : Fin 2) * 5000 + 1 * p.val = (i 0).val; omega
  | ⟨1, _⟩ => show win8_0.index t (1 : Fin 2) * 146 + 1 * q.val = (i 1).val; omega

/-- Entry (0, q) of the bias block read at any point is entry (0, q) of the bias row. -/
theorem bias_block_at_r8 (c : Dev nD) (t : Fin cfg8.N) (q : Fin 146) :
    (iblk8 V c 1 t : Vec Ideal S1x146 .f32) (ix2 (0 : Fin 1) q) = (V c main_v48 : Vec Ideal S1x146 .f32) (ix2 (0 : Fin 1) q) := by
  obtain ⟨-, -, e2, e3, -⟩ := block_indices_r8 t
  unfold iblk8
  show V c main_v48 (((cfg8.win 1).blk t).view.emb (ix2 (0 : Fin 1) q)) = V c main_v48 (ix2 (0 : Fin 1) q)
  refine congrArg (V c main_v48) (funext fun a => Fin.ext ?_)
  match a with
  | ⟨0, _⟩ => show win8_1.index t (0 : Fin 2) * 1 + 1 * 0 = 0; omega
  | ⟨1, _⟩ => show win8_1.index t (1 : Fin 2) * 146 + 1 * q.val = q.val; omega

/-- What grid point t writes back is row block t of the whole-array function: rows 5000 t … 5000 t + 4999 of the
    features plus the bias row, clipped below at zero. -/
theorem block_written_r8 (c : Dev nD) (t : Fin cfg8.N) :
    (dat8 (F := Ideal) V c).flushed 2 t
      = ((cfg8.win 2).blk t).view.read (Elt Ideal) (Cert.Spec.relu0 (Cert.Spec.addRow (V c main_v45) (V c main_v48))) := by
  show (cfg8.win 2).cut (grid8.coords t) ((dat8 (F := Ideal) V c).after 2 t) = _
  rw [after8_2]
  unfold out8_2
  rw [View.canon_unit_zero origin_r8]
  simp only [View.ld_unit_zero (S := S5000x146) origin_r8, View.ld_unit_zero (S := S1x146) origin_r8]
  obtain ⟨-, -, -, -, e4, e5⟩ := block_indices_r8 t
  refine funext fun (j : S5000x146.Idx) => ?_
  obtain ⟨p, q, rfl⟩ : ∃ (p : Fin 5000) (q : Fin 146), j = ix2 p q := ⟨j 0, j 1, eq_ix2 j⟩
  show k8_pay1 (F := Ideal) (iblk8 V c 0 t) (iblk8 V c 1 t) (ix2 p q)
    = Cert.Spec.relu0 (Cert.Spec.addRow (V c main_v45) (V c main_v48)) (((cfg8.win 2).blk t).view.emb (ix2 p q))
  have r0 : ((((cfg8.win 2).blk t).view.emb (ix2 p q) : S50000x146.Idx) 0).val = t.val * 5000 + p.val := by
    show win8_2.index t (0 : Fin 2) * 5000 + 1 * p.val = _; omega
  have r1 : ((((cfg8.win 2).blk t).view.emb (ix2 p q) : S50000x146.Idx) 1).val = q.val := by
    show win8_2.index t (1 : Fin 2) * 146 + 1 * q.val = _; omega
  exact stored_entry_r8 (iblk8 V c 0 t) (iblk8 V c 1 t) (V c main_v45) (V c main_v48) p q (((cfg8.win 2).blk t).view.emb (ix2 p q)) r1
    (feature_block_at_r8 V c t p q (((cfg8.win 2).blk t).view.emb (ix2 p q)) r0 r1) (bias_block_at_r8 V c t q)

/-- An index of the output array lies in point t's block exactly when, on each axis, its coordinate lies in the
    block's range. -/
theorem mem_row_block_r8 (t : Fin cfg8.N) (i : S50000x146.Idx) :
    i ∈ ((cfg8.win 2).blk t).view.set
      ↔ ∀ a : Fin 2, win8_2.index t a * S5000x146.size a ≤ (i a).val ∧ (i a).val < win8_2.index t a * S5000x146.size a + S5000x146.size a := by
  show i ∈ ((View.whole main_v49).slice (win8_2.rect t)).set ↔ _
  rw [View.set_slice_whole, Rect.mem_set_unit]
  exact Iff.rfl

/-- Every index of the output array lies in a block that is written back: row r lies in row block r / 5000. -/
theorem row_blocks_cover_r8 (i : S50000x146.Idx) :
    ∃ t : Fin cfg8.N, (cfg8.win 2).flush t = true ∧ i ∈ ((cfg8.win 2).blk t).view.set := by
  have hN : cfg8.N = 10 := N_8
  have hi0 : (i 0).val < 50000 := (i 0).isLt
  have hi1 : (i 1).val < 146 := (i 1).isLt
  obtain ⟨t, ht⟩ : ∃ t : Fin cfg8.N, t.val = (i 0).val / 5000 := ⟨⟨(i 0).val / 5000, by rw [hN]; omega⟩, rfl⟩
  obtain ⟨-, -, -, -, e4, e5⟩ := block_indices_r8 t
  refine ⟨t, flush8_2 t, ?_⟩
  rw [mem_row_block_r8]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 146 ≤ (i 1).val ∧ (i 1).val < win8_2.index t (1 : Fin 2) * 146 + 146; omega

/-- After the bias-and-clip call every row block has been written back: the output array is the aggregated features
    plus the bias row, clipped below at zero. -/
theorem final8 (c : Dev nD) :
    (dat8 (F := Ideal) V c).arrAt 2 cfg8.N = Cert.Spec.relu0 (Cert.Spec.addRow (V c main_v45) (V c main_v48)) :=
  (dat8 (F := Ideal) V c).arrAt_eq_of_cover 2 (Cert.Spec.relu0 (Cert.Spec.addRow (V c main_v45) (V c main_v48)))
    (fun t _ => block_written_r8 V c t) row_blocks_cover_r8

end Cert.KernelIdeal.RegionValue

end
-- ==== Proof.Walk3.lean ====
/- One graph-convolution layer followed through the program's buffers: from the node features at the layer's entry, through the dense call, the row lookup at the source ids, the aggregation at the destination ids and the bias-and-clip call, to the node features at the layer's exit. Each buffer is stated as the reference's own stage of the launched arguments. The lookup agrees with the reference's only because every source id is a row of the table. The buffers later layers read are carried unchanged. -/
import proofs.«407027_j41016937677161_1_alg».proof.Proof.Gen.KernelIdeal.Frame
import proofs.«407027_j41016937677161_1_alg».proof.Proof.Walk2
import proofs.«407027_j41016937677161_1_alg».proof.Proof.Stretch3
import proofs.«407027_j41016937677161_1_alg».proof.Proof.Region7
import proofs.«407027_j41016937677161_1_alg».proof.Proof.Region8
import proofs.«407027_j41016937677161_1_alg».proof.Proof.Take
import proofs.«407027_j41016937677161_1_alg».proof.Proof.RefLayers
import Idealize.ShloMosaic.Lib.ValueLayout

set_option maxRecDepth 16384

noncomputable section

namespace Cert.KernelIdeal.Walk

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The dense call -/

theorem W18_h (c : Dev nD) (hsrc : SrcInRange m c) :
    W18 m ρ c (Proc.devRef .tc main_v38) = Cert.ReferenceIdeal.Read.val_main_v64 (F := Ideal) (A0 m c) (A1 m c) (A3 m c) (A4 m c) (A5 m c) (A6 m c) :=
  (Stretch.keepA_L3 (W17 m ρ c) main_v38 (by decide)).trans (W17_h m ρ c hsrc)

theorem W18_wg (c : Dev nD) : W18 m ρ c (Proc.devRef .tc main_v40) = Cert.ReferenceIdeal.Read.val_main_v66 (F := Ideal) (A5 m c) :=
  (Stretch.wg_of_L3 (W17 m ρ c)).trans (by rw [W17_a5 m ρ c]; rfl)

/-- The layer's linear transform of the node features is the reference's. -/
theorem W19_lin (c : Dev nD) (hsrc : SrcInRange m c) :
    W19 m ρ c (Proc.devRef .tc main_v41) = Cert.ReferenceIdeal.Read.val_main_v67 (F := Ideal) (A0 m c) (A1 m c) (A3 m c) (A4 m c) (A5 m c) (A6 m c) := by
  refine (W19_arr m ρ c 2).trans ((Cert.KernelIdeal.RegionValue.final7 (V18 m ρ) c).trans ?_)
  have e0 : V18 m ρ c main_v38 = _ := W18_h m ρ c hsrc
  have e1 : V18 m ρ c main_v40 = _ := W18_wg m ρ c
  rw [e0, e1]
  exact (Cert.ReferenceIdeal.RefValue.dense_eq _ _).symm

theorem W19_src (c : Dev nD) : W19 m ρ c (Proc.devRef .tc main_v1) = Cert.ReferenceIdeal.Read.val_main_v1 (F := Ideal) (A1 m c) :=
  ((W19_of_ne m ρ c main_v1 (by decide)).trans (Stretch.keepA_L3 (W17 m ρ c) main_v1 (by decide))).trans (W17_src m ρ c)
theorem W19_dst (c : Dev nD) : W19 m ρ c (Proc.devRef .tc main_v3) = Cert.ReferenceIdeal.Read.val_main_v3 (F := Ideal) (A1 m c) :=
  ((W19_of_ne m ρ c main_v3 (by decide)).trans (Stretch.keepA_L3 (W17 m ρ c) main_v3 (by decide))).trans (W17_dst m ρ c)
theorem W19_a5 (c : Dev nD) : W19 m ρ c (Proc.devRef .tc main_arg5) = A5 m c :=
  ((W19_of_ne m ρ c main_arg5 (by decide)).trans (Stretch.keepA_L3 (W17 m ρ c) main_arg5 (by decide))).trans (W17_a5 m ρ c)
theorem W19_a6 (c : Dev nD) : W19 m ρ c (Proc.devRef .tc main_arg6) = A6 m c :=
  ((W19_of_ne m ρ c main_arg6 (by decide)).trans (Stretch.keepA_L3 (W17 m ρ c) main_arg6 (by decide))).trans (W17_a6 m ρ c)
theorem W19_a2 (c : Dev nD) : W19 m ρ c (Proc.devRef .tc main_arg2) = A2 m c :=
  ((W19_of_ne m ρ c main_arg2 (by decide)).trans (Stretch.keepA_L3 (W17 m ρ c) main_arg2 (by decide))).trans (W17_a2 m ρ c)

/-! ## The row lookup and the aggregation -/

/-- The looked-up rows are the reference's gather: no id falls outside the table, so no row is replaced. -/
theorem W20_rows (c : Dev nD) (hsrc : SrcInRange m c) :
    W20 m ρ c (Proc.devRef .tc main_v42) = Cert.ReferenceIdeal.Read.val_main_v74 (F := Ideal) (A0 m c) (A1 m c) (A3 m c) (A4 m c) (A5 m c) (A6 m c) :=
  (Cert.KernelIdeal.TakeValue.take_call3 (W19 m ρ c)).trans (by
    rw [W19_lin m ρ c hsrc, W19_src m ρ c, Cert.KernelIdeal.TakeValue.takeK_eq_gather _ _ hsrc]; rfl)

theorem W20_dst (c : Dev nD) : W20 m ρ c (Proc.devRef .tc main_v3) = Cert.ReferenceIdeal.Read.val_main_v3 (F := Ideal) (A1 m c) :=
  (Stretch.keepB_L3 (W19 m ρ c) main_v3 (by decide)).trans (W19_dst m ρ c)
theorem W20_a6 (c : Dev nD) : W20 m ρ c (Proc.devRef .tc main_arg6) = A6 m c :=
  (Stretch.keepB_L3 (W19 m ρ c) main_arg6 (by decide)).trans (W19_a6 m ρ c)

/-- The aggregated features are the reference's. -/
theorem W21_agg (c : Dev nD) (hsrc : SrcInRange m c) :
    W21 m ρ c (Proc.devRef .tc main_v45) = Cert.ReferenceIdeal.Read.val_main_v77 (F := Ideal) (A0 m c) (A1 m c) (A3 m c) (A4 m c) (A5 m c) (A6 m c) :=
  (Stretch.agg_of_L3 (W20 m ρ c)).trans (by rw [W20_rows m ρ c hsrc, W20_dst m ρ c]; rfl)

/-- The layer's bias as one row: the reference's bias vector with a unit axis in front. -/
theorem W21_bias (c : Dev nD) : W21 m ρ c (Proc.devRef .tc main_v48)
    = shapeCast S1x146 (Cert.ReferenceIdeal.Read.val_main_v79 (F := Ideal) (A6 m c)) shapeCasts_S146_S1x146 :=
  (Stretch.bias_of_L3 (W20 m ρ c)).trans (by rw [W20_a6 m ρ c]; rfl)

/-! ## The bias-and-clip call -/

/-- The node features at the layer's exit are the reference's. -/
theorem W22_h (c : Dev nD) (hsrc : SrcInRange m c) :
    W22 m ρ c (Proc.devRef .tc main_v49) = Cert.ReferenceIdeal.Read.val_main_v83 (F := Ideal) (A0 m c) (A1 m c) (A3 m c) (A4 m c) (A5 m c) (A6 m c) := by
  refine (W22_arr m ρ c 2).trans ((Cert.KernelIdeal.RegionValue.final8 (V21 m ρ) c).trans ?_)
  have e0 : V21 m ρ c main_v45 = _ := W21_agg m ρ c hsrc
  have e1 : V21 m ρ c main_v48 = _ := W21_bias m ρ c
  rw [e0, e1]
  exact (Cert.ReferenceIdeal.RefValue.biasRelu_eq _ (Cert.ReferenceIdeal.Read.val_main_v79 (F := Ideal) (A6 m c)) _
    (fun q => ValueIdx.shapeCast_a_1a_apply _ _ 0 q)).symm

theorem W22_src (c : Dev nD) : W22 m ρ c (Proc.devRef .tc main_v1) = Cert.ReferenceIdeal.Read.val_main_v1 (F := Ideal) (A1 m c) :=
  ((W22_of_ne m ρ c main_v1 (by decide)).trans ((Stretch.keepC_L3 (W20 m ρ c) main_v1 (by decide)).trans (Stretch.keepB_L3 (W19 m ρ c) main_v1 (by decide)))).trans (W19_src m ρ c)
theorem W22_dst (c : Dev nD) : W22 m ρ c (Proc.devRef .tc main_v3) = Cert.ReferenceIdeal.Read.val_main_v3 (F := Ideal) (A1 m c) :=
  ((W22_of_ne m ρ c main_v3 (by decide)).trans ((Stretch.keepC_L3 (W20 m ρ c) main_v3 (by decide)).trans (Stretch.keepB_L3 (W19 m ρ c) main_v3 (by decide)))).trans (W19_dst m ρ c)
theorem W22_a5 (c : Dev nD) : W22 m ρ c (Proc.devRef .tc main_arg5) = A5 m c :=
  ((W22_of_ne m ρ c main_arg5 (by decide)).trans ((Stretch.keepC_L3 (W20 m ρ c) main_arg5 (by decide)).trans (Stretch.keepB_L3 (W19 m ρ c) main_arg5 (by decide)))).trans (W19_a5 m ρ c)
theorem W22_a6 (c : Dev nD) : W22 m ρ c (Proc.devRef .tc main_arg6) = A6 m c :=
  ((W22_of_ne m ρ c main_arg6 (by decide)).trans ((Stretch.keepC_L3 (W20 m ρ c) main_arg6 (by decide)).trans (Stretch.keepB_L3 (W19 m ρ c) main_arg6 (by decide)))).trans (W19_a6 m ρ c)
theorem W22_a2 (c : Dev nD) : W22 m ρ c (Proc.devRef .tc main_arg2) = A2 m c :=
  ((W22_of_ne m ρ c main_arg2 (by decide)).trans ((Stretch.keepC_L3 (W20 m ρ c) main_arg2 (by decide)).trans (Stretch.keepB_L3 (W19 m ρ c) main_arg2 (by decide)))).trans (W19_a2 m ρ c)

end Cert.KernelIdeal.Walk

end
-- ==== Proof.WalkTail.lean ====
/- After the fourth layer the node features are pooled per graph. The pooling operations are the reference's own, applied to node features and graph ids already known to be the reference's, so the program's result buffer ends at the reference's result, as a function of the launched arguments. -/
import proofs.«407027_j41016937677161_1_alg».proof.Proof.Gen.KernelIdeal.Frame
import proofs.«407027_j41016937677161_1_alg».proof.Proof.Walk3
import proofs.«407027_j41016937677161_1_alg».proof.Proof.StretchEnds
import Idealize.ShloMosaic.Lib.ValueLayout

set_option maxRecDepth 16384

noncomputable section

namespace Cert.KernelIdeal.Walk

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result buffer at the end of the program is the reference's result of the launched arguments. -/
theorem W23_out (c : Dev nD) (hsrc : SrcInRange m c) :
    W23 m ρ c (Proc.devRef .tc main_v61)
      = Cert.ReferenceIdeal.Read.val_main_v95 (F := Ideal) (A0 m c) (A1 m c) (A2 m c) (A3 m c) (A4 m c) (A5 m c) (A6 m c) :=
  (Stretch.pool_of (W22 m ρ c)).trans (by rw [W22_h m ρ c hsrc, W22_a2 m ρ c]; rfl)

end Cert.KernelIdeal.Walk

end
-- ==== Proof.lean ====
/- A graph network over 50000 nodes and 800000 edges: an embedding layer h = x · W_emb + b_emb, four graph-convolution
   layers h ← max(scatter-add over destination ids of the rows (h · W_i)[source ids], plus b_i, 0), and a mean pool of
   the node features per graph. The kernel program computes the five matrix products and the four bias-and-clip steps in
   nine tiled calls of 5000 rows each, and the lookups, the aggregations and the pool as host operations; the reference
   computes everything as host operations.

   Over the extended reals the two agree layer by layer. A tiled product writes, for every row block, the block's rows
   times the whole weight matrix, and the blocks cover the rows, so the output array is the whole product, entry by entry
   the same sum over the inner index as the reference's product; the narrowing of the operands to a shorter float format
   before the product is the identity there. The bias-and-clip calls are pointwise. The aggregations and the pool are
   the same operations on both sides. The one place where the programs differ is the row lookup: the kernel replaces a
   looked-up row by a fill value when its id is not a row of the table, where the reference reads a clamped row. Under
   the precondition every source id is a row of the table, so no row is replaced and the lookups agree.

   The three frame claims are the generated frames and the reference's generated run; no operation was rewritten by the
   idealization, so the preservation claim is trivial. -/
import proofs.«407027_j41016937677161_1_alg».proof.Defs
import proofs.«407027_j41016937677161_1_alg».proof.Proof.Gen.Kernel
import proofs.«407027_j41016937677161_1_alg».proof.Proof.Gen.Kernel.Skeleton
import proofs.«407027_j41016937677161_1_alg».proof.Proof.Gen.Kernel.Launch
import proofs.«407027_j41016937677161_1_alg».proof.Proof.Gen.Kernel.Points
import proofs.«407027_j41016937677161_1_alg».proof.Proof.Gen.Kernel.Frame
import proofs.«407027_j41016937677161_1_alg».proof.Proof.Gen.KernelIdeal
import proofs.«407027_j41016937677161_1_alg».proof.Proof.Gen.KernelIdeal.Skeleton
import proofs.«407027_j41016937677161_1_alg».proof.Proof.Gen.KernelIdeal.Launch
import proofs.«407027_j41016937677161_1_alg».proof.Proof.Gen.KernelIdeal.Points
import proofs.«407027_j41016937677161_1_alg».proof.Proof.Gen.KernelIdeal.Frame
import proofs.«407027_j41016937677161_1_alg».proof.Proof.Gen.ReferenceIdeal
import proofs.«407027_j41016937677161_1_alg».proof.Proof.Gen.ReferenceIdeal.Run
import proofs.«407027_j41016937677161_1_alg».proof.Proof.Gen.ReferenceIdeal.Read
import proofs.«407027_j41016937677161_1_alg».proof.Proof.Gen.Pre_finite_inputs
import proofs.«407027_j41016937677161_1_alg».proof.Proof.KRun
import proofs.«407027_j41016937677161_1_alg».proof.Proof.Pre
import proofs.«407027_j41016937677161_1_alg».proof.Proof.WalkTail
import Idealize.ShloMosaic.Adequacy
import Idealize.ShloMosaic.Init

noncomputable section

namespace Cert.Proof

open Idealize.ShloMosaic Idealize.ShloMosaic.TcCoe Idealize.SL.Sem

/-- From memories agreeing on the arguments both programs run to the end, and the kernel program's result buffer ends at
    the reference's result: its last boundary's contents are the reference's last stage of the launched arguments, every
    source id being a row of the table by the precondition. -/
theorem algebraic : Cert.algebraic_KernelIdeal_ReferenceIdeal := by
  intro m ρ m' ρ' hpre hagree
  have hsrc : ∀ c, Cert.KernelIdeal.Walk.SrcInRange m c := fun c => Cert.PreRange.src_range _ _ _ _ _ _ _ (hpre c)
  refine ⟨fun c => Cert.KernelIdeal.Gen.W23 m ρ c (Proc.devRef .tc Cert.KernelIdeal.main_v61),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v95_eq, (hagree c).1, (hagree c).2.1, (hagree c).2.2.1, (hagree c).2.2.2.1,
    (hagree c).2.2.2.2.1, (hagree c).2.2.2.2.2.1, (hagree c).2.2.2.2.2.2]
  exact (Cert.KernelIdeal.Walk.W23_out m ρ c (hsrc c)).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
